-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg9 : FVec F S128x512 .f32) (main_arg10 : FVec F S512 .f32) (main_arg11 : FVec F S512x256 .f32) (main_arg12 : FVec F S256 .f32) (main_v33 : IVec S_ 1) : IVec S_ 1 :=
  let main_v34 : FVec F S128x512 .f32 := Host.absf main_arg9
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg11
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x512 .f32) (main_arg10 : FVec F S512 .f32) (main_arg11 : FVec F S512x256 .f32) (main_arg12 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x512 .f32) (main_arg10 : FVec F S512 .f32) (main_arg11 : FVec F S512x256 .f32) (main_arg12 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S850000x128 : Shape := ⟨2, ![850000, 128]⟩
abbrev S1x128 : Shape := ⟨2, ![1, 128]⟩
abbrev S51200 : Shape := ⟨1, ![51200]⟩
abbrev S1x51200 : Shape := ⟨2, ![1, 51200]⟩
abbrev S51200x128 : Shape := ⟨2, ![51200, 128]⟩
abbrev S51200x1 : Shape := ⟨2, ![51200, 1]⟩
abbrev S256x1 : Shape := ⟨2, ![256, 1]⟩
abbrev S256x128 : Shape := ⟨2, ![256, 128]⟩
abbrev S1x2048 : Shape := ⟨2, ![1, 2048]⟩
abbrev S2048x128 : Shape := ⟨2, ![2048, 128]⟩
abbrev S2048x1 : Shape := ⟨2, ![2048, 1]⟩
abbrev S256x2048 : Shape := ⟨2, ![256, 2048]⟩
abbrev S1x512 : Shape := ⟨2, ![1, 512]⟩
abbrev S1x256 : Shape := ⟨2, ![1, 256]⟩
abbrev S256x256 : Shape := ⟨2, ![256, 256]⟩
abbrev S256x512 : Shape := ⟨2, ![256, 512]⟩

abbrev nBuf : Space → Nat
  | .hbm => 110
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x128, .f32⟩
  | .hbm, ⟨48, _⟩ => ⟨S_, .f32⟩
  | .hbm, ⟨49, _⟩ => ⟨S50000x128, .f32⟩
  | .hbm, ⟨50, _⟩ => ⟨S850000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S_, .i32⟩
  | .hbm, ⟨83, _⟩ => ⟨S_, .i32⟩
  | .hbm, ⟨84, _⟩ => ⟨S51200, .i32⟩
  | .hbm, ⟨85, _⟩ => ⟨S1x51200, .i32⟩
  | .hbm, ⟨86, _⟩ => ⟨S_, .i32⟩
  | .hbm, ⟨87, _⟩ => ⟨S_, .f32⟩
  | .hbm, ⟨88, _⟩ => ⟨S51200x128, .f32⟩
  | .hbm, ⟨89, _⟩ => ⟨S_, .i32⟩
  | .hbm, ⟨90, _⟩ => ⟨S_, .f32⟩
  | .hbm, ⟨91, _⟩ => ⟨S51200x1, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S256, .f32⟩
  | .hbm, ⟨96, _⟩ => ⟨S50000x1, .i32⟩
  | .hbm, ⟨97, _⟩ => ⟨S256, .f32⟩
  | .hbm, ⟨98, _⟩ => ⟨S_, .f32⟩
  | .hbm, ⟨99, _⟩ => ⟨S256, .f32⟩
  | .hbm, ⟨100, _⟩ => ⟨S256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256x1, .f32⟩
  | .hbm, ⟨105, _⟩ => ⟨S1x128, .f32⟩
  | .hbm, ⟨106, _⟩ => ⟨S256x128, .f32⟩
  | .hbm, ⟨107, _⟩ => ⟨S1x512, .f32⟩
  | .hbm, ⟨108, _⟩ => ⟨S1x256, .f32⟩
  | .hbm, ⟨109, _⟩ => ⟨S256x256, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S1x2048, .i32⟩
  | .local _ .vmem, ⟨24, _⟩ => ⟨S1x2048, .i32⟩
  | .local _ .vmem, ⟨25, _⟩ => ⟨S2048x128, .f32⟩
  | .local _ .vmem, ⟨26, _⟩ => ⟨S2048x128, .f32⟩
  | .local _ .vmem, ⟨27, _⟩ => ⟨S2048x1, .f32⟩
  | .local _ .vmem, ⟨28, _⟩ => ⟨S2048x1, .f32⟩
  | .local _ .vmem, ⟨29, _⟩ => ⟨S1x128, .f32⟩
  | .local _ .vmem, ⟨30, _⟩ => ⟨S256x1, .f32⟩
  | .local _ .vmem, ⟨31, _⟩ => ⟨S256x128, .f32⟩
  | .local _ .vmem, ⟨32, _⟩ => ⟨S256x128, .f32⟩
  | .local _ .vmem, ⟨33, _⟩ => ⟨S128x512, .f32⟩
  | .local _ .vmem, ⟨34, _⟩ => ⟨S1x512, .f32⟩
  | .local _ .vmem, ⟨35, _⟩ => ⟨S512x256, .f32⟩
  | .local _ .vmem, ⟨36, _⟩ => ⟨S1x256, .f32⟩
  | .local _ .vmem, ⟨37, _⟩ => ⟨S256x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_call1_v0 : Ref sig .tc := ⟨.hbm, 83, rfl⟩
abbrev main_v53 : Ref sig .tc := ⟨.hbm, 84, rfl⟩
abbrev main_v54 : Ref sig .tc := ⟨.hbm, 85, rfl⟩
abbrev main_c_13 : Ref sig .tc := ⟨.hbm, 86, rfl⟩
abbrev main_call2_v0 : Ref sig .tc := ⟨.hbm, 87, rfl⟩
abbrev main_v55 : Ref sig .tc := ⟨.hbm, 88, rfl⟩
abbrev main_c_14 : Ref sig .tc := ⟨.hbm, 89, rfl⟩
abbrev main_call3_v0 : Ref sig .tc := ⟨.hbm, 90, rfl⟩
abbrev main_v56 : Ref sig .tc := ⟨.hbm, 91, rfl⟩
abbrev main_cst_15 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_17 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  pads_S50000_S51200_012000 : S50000.Pads (![0] : Fin 1 → Nat) ![1200] ![0] S51200
  h_S_ : 0 < S_.numel
  shapeCasts_S51200_S1x51200 : S51200.ShapeCasts S1x51200
  pads_S50000x128_S51200x128_012000_000 : S50000x128.Pads (![0, 0] : Fin 2 → Nat) ![1200, 0] ![0, 0] S51200x128
  pads_S50000x1_S51200x1_012000_000 : S50000x1.Pads (![0, 0] : Fin 2 → Nat) ![1200, 0] ![0, 0] S51200x1
  bcast_S_S256 : S_.BroadcastsInDim S256 (![] : Fin 0 → Fin S256.rank)
  bcast_S50000_S50000x1_0 : S50000.BroadcastsInDim S50000x1 (![0] : Fin 1 → Fin S50000x1.rank)
  shapeCasts_S256_S256x1 : S256.ShapeCasts S256x1
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  broadcasts_S1x128_S2048x128 : S1x128.Broadcasts S2048x128
  iota_S256x2048_d0_w32 : S256x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  natLt_1_32 : 1 < 32
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  shapeCasts_S512_S1x512 : S512.ShapeCasts S1x512
  shapeCasts_S256_S1x256 : S256.ShapeCasts S1x256
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  scatter_S256_S50000x1_S50000_n_0_0_1_wf : ScatterDims.WF S256 S50000x1 S50000 [] [0] [0] 1
  dot_S256x2048_S2048x128_S256x128_1_0_0_1_n_n_wf : DotDims.WF S256x2048 S2048x128 S256x128 [1] [0] [0] [1] [] []
  dot_S256x128_S128x512_S256x512_1_0_0_1_n_n_wf : DotDims.WF S256x128 S128x512 S256x512 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x51200.size a
  hwx3_0 : ∀ i : grid3.Coords, EltTy.bits .i32 = 32 ∨ (Rect.block (s := S1x51200) S1x2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S51200x128.size a
  hwx3_1 : ∀ i : grid3.Coords, EltTy.bits .f32 = 32 ∨ (Rect.block (s := S51200x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S51200x1.size a
  hwx3_2 : ∀ i : grid3.Coords, EltTy.bits .f32 = 32 ∨ (Rect.block (s := S51200x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x1.size a ≤ S256x1.size a
  hwx3_4 : ∀ i : grid3.Coords, EltTy.bits .f32 = 32 ∨ (Rect.block (s := S256x1) S256x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x512.size a ≤ S128x512.size a
  hwx4_1 : ∀ i : grid4.Coords, EltTy.bits .f32 = 32 ∨ (Rect.block (s := S128x512) S128x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S512x256.size a
  hwx4_3 : ∀ i : grid4.Coords, EltTy.bits .f32 = 32 ∨ (Rect.block (s := S512x256) S512x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S1x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S256x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S256x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S512x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S256x256.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S256x128 : Shape := ⟨2, ![256, 128]⟩
abbrev S256x1 : Shape := ⟨2, ![256, 1]⟩
abbrev S256x512 : Shape := ⟨2, ![256, 512]⟩
abbrev S1x512 : Shape := ⟨2, ![1, 512]⟩
abbrev S256x256 : Shape := ⟨2, ![256, 256]⟩
abbrev S1x256 : Shape := ⟨2, ![1, 256]⟩

abbrev nBuf : Space → Nat
  | .hbm => 149
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x512, .f32⟩
  | 10 => ⟨S512, .f32⟩
  | 11 => ⟨S512x256, .f32⟩
  | 12 => ⟨S256, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S850000x1, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S850000x1, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x128, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S850000x1, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x128, .f32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000, .f32⟩
  | 124 => ⟨S_, .f32⟩
  | 125 => ⟨S256, .f32⟩
  | 126 => ⟨S50000x1, .i32⟩
  | 127 => ⟨S256, .f32⟩
  | _ => ⟨S50000x64, .f32⟩

abbrev hbmTy0_1 (i : Nat) : BufTy := match i % 128 with
  | 0 => ⟨S_, .f32⟩
  | 1 => ⟨S256x128, .f32⟩
  | 2 => ⟨S50000x1, .i32⟩
  | 3 => ⟨S256x128, .f32⟩
  | 4 => ⟨S_, .f32⟩
  | 5 => ⟨S256, .f32⟩
  | 6 => ⟨S256, .f32⟩
  | 7 => ⟨S256x1, .f32⟩
  | 8 => ⟨S256x128, .f32⟩
  | 9 => ⟨S256x128, .f32⟩
  | 10 => ⟨S256x512, .f32⟩
  | 11 => ⟨S1x512, .f32⟩
  | 12 => ⟨S256x512, .f32⟩
  | 13 => ⟨S256x512, .f32⟩
  | 14 => ⟨S_, .f32⟩
  | 15 => ⟨S256x512, .f32⟩
  | 16 => ⟨S256x512, .f32⟩
  | 17 => ⟨S256x256, .f32⟩
  | 18 => ⟨S1x256, .f32⟩
  | 19 => ⟨S256x256, .f32⟩
  | 20 => ⟨S256x256, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call3_cst : Ref sig .tc := ⟨.hbm, 142, rfl⟩
abbrev main_call3_v0 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256 : S_.BroadcastsInDim S256 (![] : Fin 0 → Fin S256.rank)
  bcast_S50000_S50000x1_0 : S50000.BroadcastsInDim S50000x1 (![0] : Fin 1 → Fin S50000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x128_S128x512_S256x512_1_0_0_1_n_n_wf : DotDims.WF S256x128 S128x512 S256x512 [1] [0] [0] [1] [] []
  dot_S256x512_S512x256_S256x256_1_0_0_1_n_n_wf : DotDims.WF S256x512 S512x256 S256x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

class Facts : Prop extends Facts₀ where

variable [Facts]
-- ==== Proof.LibScatter.lean ====
/-
  Host scatter-add and gather along axis 0 with a column of start indices, read at an index.

  A stablehlo scatter whose indices are a column [R, 1] (index_vector_dim = 1) into axis 0 of the operand adds update row e to
  operand row idx[e] when that signed word is a row of the operand, and drops it otherwise; so one operand element ends as
  itself plus the sum of the update elements of the rows e that land on its row. A gather with such a column reads row
  idx[e] with the signed word clamped into the operand's rows.
-/
import Idealize.ShloMosaic.PureOps.Ideal
import Idealize.ShloMosaic.PureOps.Contract
import Idealize.ShloMosaic.Lib.ValueIdx

noncomputable section

namespace Cert.Scatter

open Idealize.ShloMosaic Idealize.ShloMosaic.ValueIdx

/-- Scatter of rows: operand [N, C], indices [R, 1], updates [R, C]; axis 0 is scattered, axis 1 is the window. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Scatter of scalars: operand [N], indices [R, 1], updates [R]. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Gather of rows: operand [N, C], indices [R, 1], result [R, C]. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Gather of scalars: operand [N], indices [R, 1], result [R]. -/
abbrev vecGather (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Update row `e` lands on operand row `v`: its start index, read signed, is `v`. -/
def lands {R w : Nat} (idx : IVec ⟨2, ![R, 1]⟩ w) (e : Fin R) (v : Nat) : Prop := (idx (ix2 e 0)).toInt = (v : Int)

instance {R w : Nat} (idx : IVec ⟨2, ![R, 1]⟩ w) (e : Fin R) (v : Nat) : Decidable (lands idx e v) :=
  inferInstanceAs (Decidable (_ = _))

/-- The operand row a gather reads for index row `e`: the signed start clamped into `[0, N - 1]`. -/
def gRow (N : Nat) (hN : 0 < N) {R w : Nat} (idx : IVec ⟨2, ![R, 1]⟩ w) (e : Fin R) : Fin N :=
  ⟨min (idx (ix2 e 0)).toInt.toNat (N - 1), by omega⟩

/-- A row that lands on `v` is the row a gather of the same column reads. -/
theorem gRow_of_lands {N : Nat} (hN : 0 < N) {R w : Nat} (idx : IVec ⟨2, ![R, 1]⟩ w) (e : Fin R) (v : Fin N)
    (h : lands idx e v.val) : gRow N hN idx e = v := by
  unfold lands at h
  refine Fin.ext ?_
  show min (idx (ix2 e 0)).toInt.toNat (N - 1) = v.val
  rw [h]
  have := v.isLt
  omega

section RowScatter
variable {N R C w : Nat} (wf : ScatterDims.WF ⟨2, ![N, C]⟩ ⟨2, ![R, 1]⟩ ⟨2, ![R, C]⟩ [1] [0] [0] 1)
  (idx : IVec ⟨2, ![R, 1]⟩ w)

/-- Row scatter, operand axis 0: the window of update element `(e, j')` starts at the signed index word of row `e`. -/
theorem rowScatter_start0 (e : Fin R) (j' : Fin C) :
    (rowScatter N R C wf).start (ix2 e j') idx 0 = (idx (ix2 e 0)).toInt := by
  unfold ScatterDims.start
  rw [dif_pos (show (0 : Fin 2) ∈ (rowScatter N R C wf).scatterDimsToOperandDims from List.mem_singleton.mpr rfl)]
  congr 2
  funext b; refine Fin.ext ?_
  match b with
  | ⟨0, _⟩ => rfl
  | ⟨1, _⟩ => rfl

/-- Row scatter, operand axis 1 (not named by the scatter's map): the window starts at 0. -/
theorem rowScatter_start1 (e : Fin R) (j' : Fin C) :
    (rowScatter N R C wf).start (ix2 e j') idx 1 = 0 := by
  unfold ScatterDims.start
  rw [dif_neg (show (1 : Fin 2) ∉ ([0] : List (Fin 2)) by decide)]

/-- Row scatter, operand axis 0 (an inserted axis): the window coordinate is 0. -/
theorem rowScatter_window0 (e : Fin R) (j' : Fin C) :
    (rowScatter N R C wf).window (ix2 e j') 0 = 0 := by
  unfold ScatterDims.window
  have h0 : (0 : Fin 2) ∉ (rowScatter N R C wf).sKept :=
    (by decide : (0 : Fin 2) ∉ (List.finRange 2).filter (· ∉ ([0] : List (Fin 2))))
  rw [dif_neg h0]

/-- Row scatter, operand axis 1: the window coordinate of update element `(e, j')` is its column `j'`. -/
theorem rowScatter_window1 (e : Fin R) (j' : Fin C) :
    (rowScatter N R C wf).window (ix2 e j') 1 = j'.val := by
  unfold ScatterDims.window
  have h1 : (1 : Fin 2) ∈ (rowScatter N R C wf).sKept :=
    (by decide : (1 : Fin 2) ∈ (List.finRange 2).filter (· ∉ ([0] : List (Fin 2))))
  rw [dif_pos h1]
  rfl

/-- Row scatter: update element `(e, j')` lands on operand element `(v, j)` exactly when row `e` lands on `v` and the
    columns agree; an update whose signed start is outside the operand's rows lands nowhere. -/
theorem rowScatter_resultIdx_iff (e : Fin R) (j' : Fin C) (v : Fin N) (j : Fin C) :
    (rowScatter N R C wf).resultIdx? (ix2 e j') idx = some (ix2 v j) ↔ lands idx e v.val ∧ j' = j := by
  have hs0 := rowScatter_start0 wf idx e j'
  have hs1 := rowScatter_start1 wf idx e j'
  have hw0 := rowScatter_window0 wf e j'
  have hw1 := rowScatter_window1 wf e j'
  have hv := v.isLt
  have hj := j.isLt
  have hj' := j'.isLt
  unfold ScatterDims.resultIdx? lands
  split
  · next h =>
    have h0 : 0 ≤ (rowScatter N R C wf).start (ix2 e j') idx 0 + ((rowScatter N R C wf).window (ix2 e j') 0 : Nat)
        ∧ (rowScatter N R C wf).start (ix2 e j') idx 0 + ((rowScatter N R C wf).window (ix2 e j') 0 : Nat) < (N : Int) := h 0
    have h1 : 0 ≤ (rowScatter N R C wf).start (ix2 e j') idx 1 + ((rowScatter N R C wf).window (ix2 e j') 1 : Nat)
        ∧ (rowScatter N R C wf).start (ix2 e j') idx 1 + ((rowScatter N R C wf).window (ix2 e j') 1 : Nat) < (C : Int) := h 1
    rw [hs0, hw0] at h0
    rw [hs1, hw1] at h1
    constructor
    · intro heq
      have heq' := Option.some.inj heq
      have e0 : ((rowScatter N R C wf).start (ix2 e j') idx 0
          + ((rowScatter N R C wf).window (ix2 e j') 0 : Nat)).toNat = v.val := congrArg (fun f => (f 0).val) heq'
      have e1 : ((rowScatter N R C wf).start (ix2 e j') idx 1
          + ((rowScatter N R C wf).window (ix2 e j') 1 : Nat)).toNat = j.val := congrArg (fun f => (f 1).val) heq'
      rw [hs0, hw0] at e0
      rw [hs1, hw1] at e1
      refine ⟨?_, Fin.ext ?_⟩ <;> omega
    · rintro ⟨hl, rfl⟩
      congr 1
      funext a
      refine Fin.ext ?_
      match a with
      | ⟨0, _⟩ =>
        show ((rowScatter N R C wf).start (ix2 e j') idx 0 + ((rowScatter N R C wf).window (ix2 e j') 0 : Nat)).toNat = v.val
        rw [hs0, hw0, hl]; omega
      | ⟨1, _⟩ =>
        show ((rowScatter N R C wf).start (ix2 e j') idx 1 + ((rowScatter N R C wf).window (ix2 e j') 1 : Nat)).toNat = j'.val
        rw [hs1, hw1]; omega
  · next h =>
    constructor
    · intro heq; exact absurd heq (by simp)
    · rintro ⟨hl, rfl⟩
      exfalso; apply h
      intro a
      match a with
      | ⟨0, _⟩ =>
        show 0 ≤ (rowScatter N R C wf).start (ix2 e j') idx 0 + ((rowScatter N R C wf).window (ix2 e j') 0 : Nat)
          ∧ (rowScatter N R C wf).start (ix2 e j') idx 0 + ((rowScatter N R C wf).window (ix2 e j') 0 : Nat) < (N : Int)
        rw [hs0, hw0, hl]; omega
      | ⟨1, _⟩ =>
        show 0 ≤ (rowScatter N R C wf).start (ix2 e j') idx 1 + ((rowScatter N R C wf).window (ix2 e j') 1 : Nat)
          ∧ (rowScatter N R C wf).start (ix2 e j') idx 1 + ((rowScatter N R C wf).window (ix2 e j') 1 : Nat) < (C : Int)
        rw [hs1, hw1]; omega

end RowScatter

/-- THE ROW SCATTER-ADD READ AT `(v, j)`: the operand element plus the sum, over the update rows landing on `v`, of their
    element in column `j`. -/
theorem scatterAdd_rows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (v : Fin N) (j : Fin C) :
    Host.scatterAdd (F := Ideal) (φ := .f32) (rowScatter N R C wf) x idx upd (ix2 v j)
      = x (ix2 v j) + ∑ e ∈ Finset.univ.filter (fun e : Fin R => lands idx e v.val), upd (ix2 e j) := by
  simp only [Host.scatterAdd, Ideal.hostScatterAdd_def, Ideal.hostScatterAdd]
  congr 1
  rw [Finset.sum_filter, sum_idx2, Finset.sum_filter]
  refine Finset.sum_congr rfl fun e _ => ?_
  simp only [rowScatter_resultIdx_iff wf idx e _ v j]
  by_cases hl : lands idx e v.val
  · simp only [hl, true_and]
    rw [Finset.sum_ite_eq' Finset.univ j (fun j' => upd (ix2 e j'))]
    simp
  · simp [hl]

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun p => ix1 p, fun i => (eq_ix1 i).symm, fun _ => rfl⟩ _ _ (fun i => ?_)
  exact congrArg f (eq_ix1 i)

section VecScatter
variable {N R w : Nat} (wf : ScatterDims.WF ⟨1, ![N]⟩ ⟨2, ![R, 1]⟩ ⟨1, ![R]⟩ [] [0] [0] 1)
  (idx : IVec ⟨2, ![R, 1]⟩ w)

/-- Scalar scatter: the window of update element `e` starts at the signed index word of row `e`. -/
theorem vecScatter_start0 (e : Fin R) :
    (vecScatter N R wf).start (ix1 e) idx 0 = (idx (ix2 e 0)).toInt := by
  unfold ScatterDims.start
  rw [dif_pos (show (0 : Fin 1) ∈ (vecScatter N R wf).scatterDimsToOperandDims from List.mem_singleton.mpr rfl)]
  congr 2
  funext b; refine Fin.ext ?_
  match b with
  | ⟨0, _⟩ => rfl
  | ⟨1, _⟩ => rfl

/-- Scalar scatter: the operand's one axis is inserted, so the window coordinate is 0. -/
theorem vecScatter_window0 (e : Fin R) :
    (vecScatter N R wf).window (ix1 e) 0 = 0 := by
  unfold ScatterDims.window
  have h0 : (0 : Fin 1) ∉ (vecScatter N R wf).sKept :=
    (by decide : (0 : Fin 1) ∉ (List.finRange 1).filter (· ∉ ([0] : List (Fin 1))))
  rw [dif_neg h0]

/-- Scalar scatter: update element `e` lands on operand element `v` exactly when row `e` lands on `v`. -/
theorem vecScatter_resultIdx_iff (e : Fin R) (v : Fin N) :
    (vecScatter N R wf).resultIdx? (ix1 e) idx = some (ix1 v) ↔ lands idx e v.val := by
  have hs0 := vecScatter_start0 wf idx e
  have hw0 := vecScatter_window0 wf e
  have hv := v.isLt
  unfold ScatterDims.resultIdx? lands
  split
  · next h =>
    have h0 : 0 ≤ (vecScatter N R wf).start (ix1 e) idx 0 + ((vecScatter N R wf).window (ix1 e) 0 : Nat)
        ∧ (vecScatter N R wf).start (ix1 e) idx 0 + ((vecScatter N R wf).window (ix1 e) 0 : Nat) < (N : Int) := h 0
    rw [hs0, hw0] at h0
    constructor
    · intro heq
      have heq' := Option.some.inj heq
      have e0 : ((vecScatter N R wf).start (ix1 e) idx 0
          + ((vecScatter N R wf).window (ix1 e) 0 : Nat)).toNat = v.val := congrArg (fun f => (f 0).val) heq'
      rw [hs0, hw0] at e0
      omega
    · intro hl
      congr 1
      funext a
      refine Fin.ext ?_
      match a with
      | ⟨0, _⟩ =>
        show ((vecScatter N R wf).start (ix1 e) idx 0 + ((vecScatter N R wf).window (ix1 e) 0 : Nat)).toNat = v.val
        rw [hs0, hw0, hl]; omega
  · next h =>
    constructor
    · intro heq; exact absurd heq (by simp)
    · intro hl
      exfalso; apply h
      intro a
      match a with
      | ⟨0, _⟩ =>
        show 0 ≤ (vecScatter N R wf).start (ix1 e) idx 0 + ((vecScatter N R wf).window (ix1 e) 0 : Nat)
          ∧ (vecScatter N R wf).start (ix1 e) idx 0 + ((vecScatter N R wf).window (ix1 e) 0 : Nat) < (N : Int)
        rw [hs0, hw0, hl]; omega

end VecScatter

/-- THE SCALAR SCATTER-ADD READ AT `v`. -/
theorem scatterAdd_vec_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (v : Fin N) :
    Host.scatterAdd (F := Ideal) (φ := .f32) (vecScatter N R wf) x idx upd (ix1 v)
      = x (ix1 v) + ∑ e ∈ Finset.univ.filter (fun e : Fin R => lands idx e v.val), upd (ix1 e) := by
  simp only [Host.scatterAdd, Ideal.hostScatterAdd_def, Ideal.hostScatterAdd]
  congr 1
  rw [Finset.sum_filter, sum_idx1, Finset.sum_filter]
  refine Finset.sum_congr rfl fun e _ => ?_
  simp only [vecScatter_resultIdx_iff wf idx e v]

/-- THE ROW GATHER READ AT `(e, j)`. -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowGather N R C wf) x idx (ix2 e j) = x (ix2 (gRow N hN idx e) j) := by
  unfold Host.gather
  congr 1
  funext a
  refine Fin.ext ?_
  have hb : ∀ a : Fin 2, a ∉ (rowGather N R C wf).operandBatchingDims := fun a => List.not_mem_nil
  match a with
  | ⟨0, _⟩ =>
    show (rowGather N R C wf).start (ix2 e j) idx 0 + (rowGather N R C wf).batchCoord (ix2 e j) 0
      + (rowGather N R C wf).offCoord (ix2 e j) 0 = min (idx (ix2 e 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e j) ⟨List.idxOf (0 : Fin 2) (rowGather N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N R C wf).start (ix2 e j) idx 1 + (rowGather N R C wf).batchCoord (ix2 e j) 1
      + (rowGather N R C wf).offCoord (ix2 e j) 1 = j.val
    rw [GatherDims.batchCoord_eq_zero _ _ _ (hb 1)]
    unfold GatherDims.start
    rw [dif_neg (show (1 : Fin 2) ∉ ([0] : List (Fin 2)) by decide)]
    unfold GatherDims.offCoord
    have h1 : (1 : Fin 2) ∈ (rowGather N R C wf).sKept :=
      (by decide : (1 : Fin 2) ∈ (List.finRange 2).filter (· ∉ ([0] ++ [] : List (Fin 2))))
    rw [dif_pos h1]
    simp only [Nat.zero_add, Nat.add_zero]
    rfl

/-- THE SCALAR GATHER READ AT `e`. -/
theorem gather_vec_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGather N R wf) x idx (ix1 e) = x (ix1 (gRow N hN idx e)) := by
  unfold Host.gather
  congr 1
  funext a
  refine Fin.ext ?_
  match a with
  | ⟨0, _⟩ =>
    show (vecGather N R wf).start (ix1 e) idx 0 + (vecGather N R wf).batchCoord (ix1 e) 0
      + (vecGather N R wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N R wf).startIndexMap from List.mem_singleton.mpr rfl)]
    have hsi : (vecGather N R wf).siIdx (ix1 e) ⟨List.idxOf (0 : Fin 1) (vecGather N R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.Scatter

end
-- ==== Proof.HostTerms.lean ====
/-
  The host-side index columns and the degree factor, as functions of the edge list and the batch vector: the operations
  both programs apply to these two integer arguments before anything else, written once.

  src = edge_index[0] followed by 0 .. 49999 (the self-loops), dst = edge_index[1] followed by the same; a gather reads
  a column with negative words moved up by 50000; a scatter reads the raw words. deg counts the edges landing on a node,
  dis = deg^(-1/2) where deg > 0 and 0 elsewhere.
-/
import proofs.«401719_j47906065219800_3_alg».proof.Proof.LibScatter
import Idealize.ShloMosaic.PureOps.Vector
import Idealize.ShloMosaic.PureOps.ShapeOps
import Idealize.ShloMosaic.Lib.IdealHost

noncomputable section

namespace Cert.HostT

open Idealize.ShloMosaic Idealize.ShloMosaic.ValueIdx Cert.Scatter

abbrev T0 : Shape := ⟨0, ![]⟩
abbrev T1 (a : Nat) : Shape := ⟨1, ![a]⟩
abbrev T2 (a b : Nat) : Shape := ⟨2, ![a, b]⟩

/-- Row `r` of the edge list followed by the self-loops. -/
def endpoints (off : Fin 2 → Nat) (hs : (T2 2 800000).Slices off (T2 1 800000)) (E : IVec (T2 2 800000) 32) : IVec (T1 850000) 32 :=
  concatenate (T1 850000) 0
    [⟨T1 800000, shapeCast (T1 800000) (extractStridedSlice (T2 1 800000) off E hs) (by decide)⟩,
     ⟨T1 50000, iotaInDim (T1 50000) 32 0⟩] (by decide : Shape.Concatenates [T1 800000, T1 50000] (T1 850000) 0)

def srcV (E : IVec (T2 2 800000) 32) : IVec (T1 850000) 32 := endpoints ![0, 0] (by decide) E
def dstV (E : IVec (T2 2 800000) 32) : IVec (T1 850000) 32 := endpoints ![1, 0] (by decide) E

/-- Negative words moved up by the number of nodes (what an indexing expression does before it gathers). -/
def wrapNeg (v : IVec (T1 850000) 32) : IVec (T1 850000) 32 :=
  select (cmpi .slt v (broadcastInDim (T1 850000) ![] (by decide) (constantI T0 32 0#32)))
    (addi v (broadcastInDim (T1 850000) ![] (by decide) (constantI T0 32 50000#32))) v

/-- A vector of words as a column. -/
def colOf {R : Nat} (h : (T1 R).BroadcastsInDim (T2 R 1) (![0] : Fin 1 → Fin (T2 R 1).rank)) (v : IVec (T1 R) 32) : IVec (T2 R 1) 32 :=
  broadcastInDim (T2 R 1) ![0] h v

/-- The column a gather of source rows reads. -/
def iS (E : IVec (T2 2 800000) 32) : IVec (T2 850000 1) 32 := colOf (by decide) (wrapNeg (srcV E))
/-- The column the scatters read: the raw destinations. -/
def iD (E : IVec (T2 2 800000) 32) : IVec (T2 850000 1) 32 := colOf (by decide) (dstV E)
/-- The column a gather by destination reads. -/
def iDn (E : IVec (T2 2 800000) 32) : IVec (T2 850000 1) 32 := colOf (by decide) (wrapNeg (dstV E))
/-- The batch vector as the column its scatters read. -/
def btCol (B : IVec (T1 50000) 32) : IVec (T2 50000 1) 32 := colOf (by decide) B

/-- The degrees: ones scattered onto zeros by destination. -/
def degV (E : IVec (T2 2 800000) 32) : FVec Ideal (T1 50000) .f32 :=
  Host.scatterAdd (vecScatter 50000 850000 (by decide))
    (broadcastInDim (T1 50000) ![] (by decide) (constant T0 .f32 0x00000000#32)) (iD E)
    (broadcastInDim (T1 850000) ![] (by decide) (constant T0 .f32 0x3F800000#32))

/-- The degree factor: the reciprocal square root of the degree clipped below at one, where the degree is positive; zero
    elsewhere. -/
def disV (E : IVec (T2 2 800000) 32) : FVec Ideal (T1 50000) .f32 :=
  select (cmpf .ogt (degV E) (broadcastInDim (T1 50000) ![] (by decide) (constant T0 .f32 0x00000000#32)))
    (Host.rsqrt (maximumf (degV E) (broadcastInDim (T1 50000) ![] (by decide) (constant T0 .f32 0x3F800000#32))))
    (broadcastInDim (T1 50000) ![] (by decide) (id (constant T0 .f32 0x00000000#32)))

/-- The counts: ones scattered onto zeros by batch word. -/
def cntV (B : IVec (T1 50000) 32) : FVec Ideal (T1 256) .f32 :=
  Host.scatterAdd (vecScatter 256 50000 (by decide))
    (broadcastInDim (T1 256) ![] (by decide) (constant T0 .f32 0x00000000#32)) (btCol B)
    (broadcastInDim (T1 50000) ![] (by decide) (constant T0 .f32 0x3F800000#32))

/-- A vector as a column reads, in row `e`, the vector at `e`. -/
theorem colOf_apply {R : Nat} (h : (T1 R).BroadcastsInDim (T2 R 1) (![0] : Fin 1 → Fin (T2 R 1).rank)) (v : IVec (T1 R) 32)
    (e : Fin R) : colOf h v (ix2 e 0) = v (ix1 e) := by
  unfold colOf broadcastInDim
  refine congrArg v (funext fun a => Fin.ext ?_)
  match a with
  | ⟨0, _⟩ =>
    split
    · next h1 => change R = 1 at h1; show (0 : Nat) = e.val; omega
    · rfl

/-- Moving negatives up, read at one index: the two scalar broadcasts read their words. -/
theorem wrapNeg_apply (v : IVec (T1 850000) 32) (i : (T1 850000).Idx) :
    wrapNeg v i = Scalar.select (IntOp.cmpi .slt (v i) 0#32) (IntOp.addi (v i) 50000#32) (v i) := rfl

/-- A word that is not negative is left where it is. -/
theorem wrapNeg_of_nonneg (v : IVec (T1 850000) 32) (i : (T1 850000).Idx) (h : 0 ≤ (v i).toInt) : wrapNeg v i = v i := by
  have hs : (v i).slt 0#32 = false := by
    rw [BitVec.slt, decide_eq_false_iff_not, BitVec.toInt_zero]; omega
  have hc : IntOp.cmpi .slt (v i) 0#32 = 0#1 := by
    show BitVec.ofBool ((v i).slt 0#32) = 0#1
    rw [hs]; rfl
  rw [wrapNeg_apply, hc, select_zero]

/-- AN EDGE THAT LANDS ON v READS dis AT v FOR ITS DESTINATION: a raw destination word that is a node is not negative, so
    moving negatives up leaves it, and the gather's clamp keeps a node. -/
theorem iDn_of_lands (E : IVec (T2 2 800000) 32) (e : Fin 850000) (v : Fin 50000) (h : lands (iD E) e v.val) :
    gRow 50000 (by decide) (iDn E) e = v := by
  refine gRow_of_lands _ (iDn E) e v ?_
  unfold lands at h ⊢
  rw [iD, colOf_apply] at h
  rw [iDn, colOf_apply, wrapNeg_of_nonneg _ _ (by rw [h]; exact Int.natCast_nonneg _)]
  exact h

/-- A sum of ones over a finite set is the set's size, as a real. -/
theorem sum_one_eq_card {ι : Type} (s : Finset ι) : (∑ _e ∈ s, (1 : EReal)) = ((s.card : ℝ) : EReal) := by
  rw [Finset.sum_const, EReal.nsmul_eq_mul, mul_one, EReal.coe_natCast]

/-- The degree of a node is the number of edges that land on it. -/
theorem degV_apply (E : IVec (T2 2 800000) 32) (v : Fin 50000) :
    degV E (ix1 v) = (((Finset.univ.filter (fun e : Fin 850000 => lands (iD E) e v.val)).card : ℝ) : EReal) := by
  unfold degV
  refine (scatterAdd_vec_apply _ _ _ _ v).trans ?_
  rw [broadcastInDim_scalar_apply, constant_apply, Ideal.ofBits_zero_f32, zero_add, ← sum_one_eq_card]
  refine Finset.sum_congr rfl fun e _ => ?_
  rw [broadcastInDim_scalar_apply, constant_apply, Ideal.ofBits_one_f32]

/-- Reading the reciprocal square root of the host at one index. -/
theorem hostRsqrt_apply {s : Shape} {φ : FTy} (x : FVec Ideal s φ) (i : s.Idx) : Host.rsqrt x i = Ideal.rsqrt (x i) := rfl

/-- The degree factor's operations over an arbitrary vector `d` in place of the degrees, at one index: a comparison with
    zero, the reciprocal square root of the larger of `d` and one, and zero. -/
theorem disOf_apply (d : FVec Ideal (T1 50000) .f32) (i : (T1 50000).Idx) :
    select (cmpf .ogt d (broadcastInDim (T1 50000) ![] (by decide) (constant T0 .f32 0x00000000#32)))
      (Host.rsqrt (maximumf d (broadcastInDim (T1 50000) ![] (by decide) (constant T0 .f32 0x3F800000#32))))
      (broadcastInDim (T1 50000) ![] (by decide) (id (constant T0 .f32 0x00000000#32))) i
      = Scalar.select (Ideal.cmp .ogt (d i) 0) (Ideal.rsqrt (max (d i) 1)) 0 := by
  rw [select_apply, cmpf_apply, hostRsqrt_apply, maximumf_apply, broadcastInDim_scalar_apply, broadcastInDim_scalar_apply,
    broadcastInDim_scalar_apply, id_eq, constant_apply, constant_apply, Ideal.ofBits_zero_f32, Ideal.ofBits_one_f32]
  rfl

/-- The degree factor is a non-negative real at every node: the degree is a count. -/
theorem disV_real (E : IVec (T2 2 800000) 32) (v : Fin 50000) : ∃ r : ℝ, 0 ≤ r ∧ disV E (ix1 v) = (r : EReal) := by
  have hd := degV_apply E v
  unfold disV
  generalize degV E = d at hd ⊢
  rw [disOf_apply, hd]
  generalize (Finset.univ.filter (fun e : Fin 850000 => lands (iD E) e v.val)).card = n
  rcases Nat.eq_zero_or_pos n with hn | hn
  · subst hn
    refine ⟨0, le_refl _, ?_⟩
    have hc : Ideal.cmp .ogt (((0 : ℕ) : ℝ) : EReal) 0 = 0#1 := by
      simp [Ideal.cmp]
    rw [hc, select_zero]; rfl
  · have h1 : (1 : ℝ) ≤ (n : ℝ) := by exact_mod_cast hn
    have hpos : (0 : ℝ) < (n : ℝ) := by linarith
    refine ⟨(Real.sqrt n)⁻¹, inv_nonneg.mpr (Real.sqrt_nonneg _), ?_⟩
    have hc : Ideal.cmp .ogt (((n : ℝ)) : EReal) 0 = 1#1 := by
      have h0 : (0 : EReal) < ((n : ℝ) : EReal) := by exact_mod_cast hpos
      show BitVec.ofBool (decide ((0 : EReal) < ((n : ℝ) : EReal))) = 1#1
      rw [decide_eq_true h0]; rfl
    have hm : max (((n : ℝ)) : EReal) 1 = ((n : ℝ) : EReal) := max_eq_left (by exact_mod_cast h1)
    rw [hc, select_one, hm]
    show (if (n : ℝ) < 0 then (⊥ : EReal) else if (n : ℝ) = 0 then ⊤ else (((Real.sqrt n)⁻¹ : ℝ) : EReal)) = _
    rw [if_neg (not_lt.mpr hpos.le), if_neg hpos.ne']

/-- The count of graph g is the sum of ones over the nodes whose batch word is g. -/
theorem cntV_apply (B : IVec (T1 50000) 32) (g : Fin 256) :
    cntV B (ix1 g) = ∑ n ∈ Finset.univ.filter (fun n : Fin 50000 => lands (btCol B) n g.val), (1 : EReal) := by
  unfold cntV
  refine (scatterAdd_vec_apply _ _ _ _ g).trans ?_
  rw [broadcastInDim_scalar_apply, constant_apply, Ideal.ofBits_zero_f32, zero_add]
  refine Finset.sum_congr rfl fun e _ => ?_
  rw [broadcastInDim_scalar_apply, constant_apply, Ideal.ofBits_one_f32]

end Cert.HostT

end
-- ==== Proof.Spec.lean ====
/-
  The two programs as functions of the arguments, layer by layer, over matrices indexed by `Fin`.

  A graph-convolution layer sums, for node v, over the edges e (self-loops included) whose destination word is v, the
  projected feature row of the edge's source scaled by norm e = dis (src e) * dis (dst e). The reference scales edge by edge;
  the kernel scales each projected row by dis of its own node before the edges are summed and scales the sum by dis v
  after. The two agree because dis v is a non-negative real, which distributes over any sum of extended reals, and because an
  edge that lands on v has dst e = v. The mean pool divides a graph's sum of rows by its clipped count; the kernel
  multiplies by the reciprocal instead.
-/
import proofs.«401719_j47906065219800_3_alg».proof.Proof.LibScatter

noncomputable section

namespace Cert.Spec

open Idealize.ShloMosaic Idealize.ShloMosaic.ValueIdx Cert.Scatter

/-- A matrix of extended reals. -/
abbrev M (n p : Nat) := Fin n → Fin p → EReal
/-- A column of 32-bit start indices. -/
abbrev Col (R : Nat) := IVec (⟨2, ![R, 1]⟩ : Shape) 32

theorem pos50000 : 0 < 50000 := by decide

/-- The matrix product. -/
def mm {n k p : Nat} (X : M n k) (W : M k p) : M n p := fun u j => ∑ q : Fin k, X u q * W q j

/-- Clipping at zero, entry by entry. -/
def relu {n p : Nat} (A : M n p) : M n p := fun v k => max (A v k) 0

section Conv

variable (iS iD iDn : Col 850000) (dis : Fin 50000 → EReal)

/-- The node an edge reads its source row from. -/
abbrev srcRow (e : Fin 850000) : Fin 50000 := gRow 50000 pos50000 iS e

/-- The kernel's scattered sums: over the edges landing on v, the source's projected row scaled by the source's factor. -/
def kScat {K : Nat} (X : M 50000 K) (W : M K 128) : M 50000 128 := fun v j =>
  ∑ e ∈ Finset.univ.filter (fun e : Fin 850000 => lands iD e v.val), mm X W (srcRow iS e) j * dis (srcRow iS e)

/-- The kernel's epilogue without clipping: the scattered sums scaled by the destination's factor, plus the bias. -/
def kLin (S : M 50000 128) (b : Fin 128 → EReal) : M 50000 128 := fun v k => S v k * dis v + b k

/-- The kernel's epilogue with clipping. -/
def kAct (S : M 50000 128) (b : Fin 128 → EReal) : M 50000 128 := fun v k => max (S v k * dis v + b k) 0

/-- The reference's layer: over the edges landing on v, the edge's norm times the source's projected row; plus the bias. -/
def rConv {K : Nat} (X : M 50000 K) (W : M K 128) (b : Fin 128 → EReal) : M 50000 128 := fun v j =>
  (∑ e ∈ Finset.univ.filter (fun e : Fin 850000 => lands iD e v.val),
      (dis (srcRow iS e) * dis (gRow 50000 pos50000 iDn e)) * mm X W (srcRow iS e) j) + b j

/-- A non-negative real factor distributes over any finite sum of extended reals, infinite terms included. -/
private theorem sum_mul_coe_of_nonneg {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- ONE LAYER, THE TWO FACTORINGS: where every edge landing on v reads dis at v for its destination, and dis is a
    non-negative real everywhere, the reference's layer is the kernel's scattered sums rescaled and biased. -/
theorem rConv_eq {K : Nat} (hDn : ∀ (e : Fin 850000) (v : Fin 50000), lands iD e v.val → gRow 50000 pos50000 iDn e = v)
    (hdis : ∀ v, ∃ r : ℝ, 0 ≤ r ∧ dis v = (r : EReal)) (X : M 50000 K) (W : M K 128) (b : Fin 128 → EReal) :
    rConv iS iD iDn dis X W b = kLin dis (kScat iS iD dis X W) b := by
  funext v j
  obtain ⟨r, hr, hv⟩ := hdis v
  show (∑ e ∈ Finset.univ.filter (fun e : Fin 850000 => lands iD e v.val),
      (dis (srcRow iS e) * dis (gRow 50000 pos50000 iDn e)) * mm X W (srcRow iS e) j) + b j
    = (∑ e ∈ Finset.univ.filter (fun e : Fin 850000 => lands iD e v.val),
      mm X W (srcRow iS e) j * dis (srcRow iS e)) * dis v + b j
  refine congrArg (fun t : EReal => t + b j) ?_
  rw [hv, sum_mul_coe_of_nonneg _ _ hr]
  refine Finset.sum_congr rfl fun e he => ?_
  rw [hDn e v (Finset.mem_filter.mp he).2, hv, mul_comm (dis (srcRow iS e) * (r : EReal)), ← mul_assoc]

theorem relu_kLin (S : M 50000 128) (b : Fin 128 → EReal) : relu (kLin dis S b) = kAct dis S b := rfl

end Conv

section Pool

variable (bt : Col 50000)

/-- The number of nodes whose batch word is graph g, as a sum of ones. -/
def cnt (g : Fin 256) : EReal := ∑ n ∈ Finset.univ.filter (fun n : Fin 50000 => lands bt n g.val), (1 : EReal)

/-- A graph's sum of node rows. -/
def gsum (A : M 50000 128) : M 256 128 := fun g j => ∑ n ∈ Finset.univ.filter (fun n : Fin 50000 => lands bt n g.val), A n j

/-- The reference's mean pool: the sum divided by the count clipped below at one. -/
def rPool (A : M 50000 128) : M 256 128 := fun g j => Ideal.div (gsum bt A g j) (max (cnt bt g) 1)

/-- The kernel's mean pool: the sum times the reciprocal of the clipped count. -/
def kPool (A : M 50000 128) : M 256 128 := fun g j => gsum bt A g j * Ideal.div 1 (max (cnt bt g) 1)

/-- A finite sum of ones is the number of its terms. -/
private theorem sum_one_eq_card {ι : Type} (s : Finset ι) : (∑ _i ∈ s, (1 : EReal)) = ((s.card : ℝ) : EReal) := by
  classical
  induction s using Finset.induction_on with
  | empty => simp
  | insert a s ha ih =>
    rw [Finset.sum_insert ha, ih, Finset.card_insert_of_notMem ha, Nat.cast_add, Nat.cast_one, EReal.coe_add, EReal.coe_one,
      add_comm]

/-- Clipping a count below at one stays among the reals. -/
private theorem max_natCast_one (n : ℕ) : max ((n : ℝ) : EReal) 1 = ((max (n : ℝ) 1 : ℝ) : EReal) := by
  rw [← EReal.coe_one]
  exact (EReal.coe_strictMono.monotone.map_max).symm

/-- The clipped count is a real number at least one, so dividing by it is multiplying by its reciprocal. -/
theorem rPool_eq (A : M 50000 128) : rPool bt A = kPool bt A := by
  funext g j
  have hy : max ((Finset.univ.filter (fun n : Fin 50000 => lands bt n g.val)).card : ℝ) 1 ≠ 0 :=
    (lt_of_lt_of_le one_pos (le_max_right _ _)).ne'
  show Ideal.div (gsum bt A g j) (max (cnt bt g) 1) = gsum bt A g j * Ideal.div 1 (max (cnt bt g) 1)
  rw [show max (cnt bt g) 1
      = ((max ((Finset.univ.filter (fun n : Fin 50000 => lands bt n g.val)).card : ℝ) 1 : ℝ) : EReal) from by
        unfold cnt; rw [sum_one_eq_card, max_natCast_one],
    Ideal.div_coe hy, Ideal.div_coe hy, one_mul]

end Pool

/-- The two-layer head: an affine map clipped at zero, then an affine map. -/
def head (G : M 256 128) (W1 : M 128 512) (b1 : Fin 512 → EReal) (W2 : M 512 256) (b2 : Fin 256 → EReal) : M 256 256 :=
  fun g o => (∑ p : Fin 512, max (mm G W1 g p + b1 p) 0 * W2 p o) + b2 o

/-- The kernel's program, end to end. -/
def kernelOut (iS iD : Col 850000) (dis : Fin 50000 → EReal) (bt : Col 50000)
    (x : M 50000 64) (W0 : M 64 128) (b0 : Fin 128 → EReal) (W1 : M 128 128) (b1 : Fin 128 → EReal) (W2 : M 128 128)
    (b2 : Fin 128 → EReal) (Wm1 : M 128 512) (bm1 : Fin 512 → EReal) (Wm2 : M 512 256) (bm2 : Fin 256 → EReal) : M 256 256 :=
  head (kPool bt (kLin dis (kScat iS iD dis (kAct dis (kScat iS iD dis (kAct dis (kScat iS iD dis x W0) b0) W1) b1) W2) b2))
    Wm1 bm1 Wm2 bm2

/-- The reference, end to end. -/
def refOut (iS iD iDn : Col 850000) (dis : Fin 50000 → EReal) (bt : Col 50000)
    (x : M 50000 64) (W0 : M 64 128) (b0 : Fin 128 → EReal) (W1 : M 128 128) (b1 : Fin 128 → EReal) (W2 : M 128 128)
    (b2 : Fin 128 → EReal) (Wm1 : M 128 512) (bm1 : Fin 512 → EReal) (Wm2 : M 512 256) (bm2 : Fin 256 → EReal) : M 256 256 :=
  head (rPool bt (rConv iS iD iDn dis (relu (rConv iS iD iDn dis (relu (rConv iS iD iDn dis x W0 b0)) W1 b1)) W2 b2))
    Wm1 bm1 Wm2 bm2

/-- THE TWO PROGRAMS ARE ONE FUNCTION of the arguments. -/
theorem refOut_eq_kernelOut (iS iD iDn : Col 850000) (dis : Fin 50000 → EReal) (bt : Col 50000)
    (hDn : ∀ (e : Fin 850000) (v : Fin 50000), lands iD e v.val → gRow 50000 pos50000 iDn e = v)
    (hdis : ∀ v, ∃ r : ℝ, 0 ≤ r ∧ dis v = (r : EReal))
    (x : M 50000 64) (W0 : M 64 128) (b0 : Fin 128 → EReal) (W1 : M 128 128) (b1 : Fin 128 → EReal) (W2 : M 128 128)
    (b2 : Fin 128 → EReal) (Wm1 : M 128 512) (bm1 : Fin 512 → EReal) (Wm2 : M 512 256) (bm2 : Fin 256 → EReal) :
    refOut iS iD iDn dis bt x W0 b0 W1 b1 W2 b2 Wm1 bm1 Wm2 bm2 = kernelOut iS iD dis bt x W0 b0 W1 b1 W2 b2 Wm1 bm1 Wm2 bm2 := by
  unfold refOut kernelOut
  rw [rConv_eq iS iD iDn dis hDn hdis, rConv_eq iS iD iDn dis hDn hdis, rConv_eq iS iD iDn dis hDn hdis, relu_kLin, relu_kLin,
    rPool_eq]

end Cert.Spec

end
-- ==== Proof.Views.lean ====
/-
  Arrays indexed by a shape's index type, viewed as functions of their coordinates.
-/
import proofs.«401719_j47906065219800_3_alg».proof.Proof.Spec

noncomputable section

namespace Cert.Spec

open Idealize.ShloMosaic Idealize.ShloMosaic.ValueIdx

/-- A rank-2 array as a matrix. -/
abbrev mat {a b : Nat} (A : (⟨2, ![a, b]⟩ : Shape).Idx → EReal) : M a b := fun v k => A (ix2 v k)
/-- A rank-1 array as a function of its coordinate. -/
abbrev vec {a : Nat} (A : (⟨1, ![a]⟩ : Shape).Idx → EReal) : Fin a → EReal := fun k => A (ix1 k)

end Cert.Spec

end
-- ==== Proof.KBase.lean ====
/-
  The kernel program's buffers between its regions: a region leaves every buffer but its output array as it found it, so
  the arguments, the two endpoint vectors and the degree-factor column hold, wherever they are read, what the first
  stretch of host operations made of the edge list.
-/
import proofs.«401719_j47906065219800_3_alg».proof.Proof.Gen.KernelIdeal.Frame
import proofs.«401719_j47906065219800_3_alg».proof.Proof.HostTerms
import proofs.«401719_j47906065219800_3_alg».proof.Proof.Views
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

/-- Closes `∀ op ∈ ops, b ∉ op.writes` for a literal stretch of host operations and a literal buffer: each operation's one
    written buffer is another reference. -/
macro "not_written " ops:ident : tactic =>
  `(tactic| (refine List.forall_iff_forall_mem.mp ?_
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- The edge list and the batch vector as launched. -/
abbrev argE (c : Dev nD) : IVec (HostT.T2 2 800000) 32 := m ((c : Thread nD τ).loc main_arg1)
abbrev argB (c : Dev nD) : IVec (HostT.T1 50000) 32 := m ((c : Thread nD τ).loc main_arg2)

/-! ## A region keeps every buffer but its output array -/

theorem keep0 (c : Dev nD) (b : Ref sig .tc) (hb : b ≠ main_v18) : W4 m ρ c (Proc.devRef .tc b) = W3 m ρ c (Proc.devRef .tc b) := by
  by_cases h : ∃ w, Pipeline.arrRef spec0 w = b
  · obtain ⟨w, rfl⟩ := h
    match w with
    | ⟨0, _⟩ => exact (W4_arr m ρ c 0).trans (((dat0 (V3 m ρ) c).arrAt_in 0 rfl _).trans (A_eq0 (V3 m ρ) c 0))
    | ⟨1, _⟩ => exact (W4_arr m ρ c 1).trans (((dat0 (V3 m ρ) c).arrAt_in 1 rfl _).trans (A_eq0 (V3 m ρ) c 1))
    | ⟨2, _⟩ => exact (W4_arr m ρ c 2).trans (((dat0 (V3 m ρ) c).arrAt_in 2 rfl _).trans (A_eq0 (V3 m ρ) c 2))
    | ⟨3, _⟩ => exact absurd rfl hb
  · exact W4_of_ne m ρ c b fun w e => h ⟨w, e⟩

theorem keep1 (c : Dev nD) (b : Ref sig .tc) (hb : b ≠ main_v30) : W6 m ρ c (Proc.devRef .tc b) = W5 m ρ c (Proc.devRef .tc b) := by
  by_cases h : ∃ w, Pipeline.arrRef spec1 w = b
  · obtain ⟨w, rfl⟩ := h
    match w with
    | ⟨0, _⟩ => exact (W6_arr m ρ c 0).trans (((dat1 (V5 m ρ) c).arrAt_in 0 rfl _).trans (A_eq1 (V5 m ρ) c 0))
    | ⟨1, _⟩ => exact (W6_arr m ρ c 1).trans (((dat1 (V5 m ρ) c).arrAt_in 1 rfl _).trans (A_eq1 (V5 m ρ) c 1))
    | ⟨2, _⟩ => exact (W6_arr m ρ c 2).trans (((dat1 (V5 m ρ) c).arrAt_in 2 rfl _).trans (A_eq1 (V5 m ρ) c 2))
    | ⟨3, _⟩ => exact (W6_arr m ρ c 3).trans (((dat1 (V5 m ρ) c).arrAt_in 3 rfl _).trans (A_eq1 (V5 m ρ) c 3))
    | ⟨4, _⟩ => exact absurd rfl hb
  · exact W6_of_ne m ρ c b fun w e => h ⟨w, e⟩

theorem keep2 (c : Dev nD) (b : Ref sig .tc) (hb : b ≠ main_v42) : W8 m ρ c (Proc.devRef .tc b) = W7 m ρ c (Proc.devRef .tc b) := by
  by_cases h : ∃ w, Pipeline.arrRef spec2 w = b
  · obtain ⟨w, rfl⟩ := h
    match w with
    | ⟨0, _⟩ => exact (W8_arr m ρ c 0).trans (((dat2 (V7 m ρ) c).arrAt_in 0 rfl _).trans (A_eq2 (V7 m ρ) c 0))
    | ⟨1, _⟩ => exact (W8_arr m ρ c 1).trans (((dat2 (V7 m ρ) c).arrAt_in 1 rfl _).trans (A_eq2 (V7 m ρ) c 1))
    | ⟨2, _⟩ => exact (W8_arr m ρ c 2).trans (((dat2 (V7 m ρ) c).arrAt_in 2 rfl _).trans (A_eq2 (V7 m ρ) c 2))
    | ⟨3, _⟩ => exact (W8_arr m ρ c 3).trans (((dat2 (V7 m ρ) c).arrAt_in 3 rfl _).trans (A_eq2 (V7 m ρ) c 3))
    | ⟨4, _⟩ => exact absurd rfl hb
  · exact W8_of_ne m ρ c b fun w e => h ⟨w, e⟩

theorem keep3 (c : Dev nD) (b : Ref sig .tc) (hb : b ≠ main_v67) : W16 m ρ c (Proc.devRef .tc b) = W15 m ρ c (Proc.devRef .tc b) := by
  by_cases h : ∃ w, Pipeline.arrRef spec3 w = b
  · obtain ⟨w, rfl⟩ := h
    match w with
    | ⟨0, _⟩ => exact (W16_arr m ρ c 0).trans (((dat3 (V15 m ρ) c).arrAt_in 0 rfl _).trans (A_eq3 (V15 m ρ) c 0))
    | ⟨1, _⟩ => exact (W16_arr m ρ c 1).trans (((dat3 (V15 m ρ) c).arrAt_in 1 rfl _).trans (A_eq3 (V15 m ρ) c 1))
    | ⟨2, _⟩ => exact (W16_arr m ρ c 2).trans (((dat3 (V15 m ρ) c).arrAt_in 2 rfl _).trans (A_eq3 (V15 m ρ) c 2))
    | ⟨3, _⟩ => exact (W16_arr m ρ c 3).trans (((dat3 (V15 m ρ) c).arrAt_in 3 rfl _).trans (A_eq3 (V15 m ρ) c 3))
    | ⟨4, _⟩ => exact (W16_arr m ρ c 4).trans (((dat3 (V15 m ρ) c).arrAt_in 4 rfl _).trans (A_eq3 (V15 m ρ) c 4))
    | ⟨5, _⟩ => exact absurd rfl hb
  · exact W16_of_ne m ρ c b fun w e => h ⟨w, e⟩

/-! ## The first stretch: the endpoint vectors, the degree-factor column, and the arguments untouched -/

theorem W3_src (c : Dev nD) : W3 m ρ c (Proc.devRef .tc main_v3) = HostT.srcV (argE m c) := by
  show StableHlo.after hostOps0_2 (StableHlo.after hostOps0_1 (StableHlo.after hostOps0 (W0 m ρ c))) (Proc.devRef .tc main_v3) = _
  after_results
  rfl

theorem W3_dst (c : Dev nD) : W3 m ρ c (Proc.devRef .tc main_v6) = HostT.dstV (argE m c) := by
  show StableHlo.after hostOps0_2 (StableHlo.after hostOps0_1 (StableHlo.after hostOps0 (W0 m ρ c))) (Proc.devRef .tc main_v6) = _
  after_results
  rfl

theorem W3_dis (c : Dev nD) :
    W3 m ρ c (Proc.devRef .tc main_v17) = shapeCast S50000x1 (HostT.disV (argE m c)) shapeCasts_S50000_S50000x1 := by
  show StableHlo.after hostOps0_2 (StableHlo.after hostOps0_1 (StableHlo.after hostOps0 (W0 m ρ c))) (Proc.devRef .tc main_v17) = _
  after_results_simp
  generalize hD : Host.scatterAdd (F := Ideal) (φ := .f32) scatter_S50000_S850000x1_S850000_n_0_0_1 _ _ _ = D
  have hD' : D = HostT.degV (argE m c) := hD.symm.trans (by
    unfold HostT.degV HostT.iD HostT.colOf HostT.dstV HostT.endpoints
    rfl)
  rw [hD']
  simp only [TRef.ofBuf, TRef.toBuf, cast_eq]
  rfl

/-- An argument (or any buffer no host operation of the first stretch writes) at the first region's entry. -/
theorem W3_arg (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h2).trans
    ((StableHlo.after_of_forall_not_mem (b := Proc.devRef .tc b) _ _ h1).trans
      (StableHlo.after_of_forall_not_mem (b := Proc.devRef .tc b) _ _ h0))

end Cert.KernelIdeal.KVal

end
-- ==== Proof.KBase2.lean ====
/-
  What the first region found in a buffer that nothing later writes is what every later boundary holds there: the host
  stretches between the regions write only their own results, and a region writes only its output array.
-/
import proofs.«401719_j47906065219800_3_alg».proof.Proof.KBase
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

/-- The degree factor as a function of the node. -/
abbrev disF (c : Dev nD) : Fin 50000 → EReal := vec (HostT.disV (argE m c))

section Carry

variable (c : Dev nD) (b : Ref sig .tc)

theorem W4_carry (hb0 : b ≠ main_v18) : W4 m ρ c (Proc.devRef .tc b) = W3 m ρ c (Proc.devRef .tc b) := keep0 m ρ c b hb0

theorem W5_carry (hb0 : b ≠ main_v18) (h1 : (∀ op ∈ (hostOps1 : List (HloOp τ sig (Elt Ideal))), Proc.devRef .tc b ∉ op.writes)) :
    W5 m ρ c (Proc.devRef .tc b) = W3 m ρ c (Proc.devRef .tc b) :=
  (StableHlo.after_of_forall_not_mem (b := Proc.devRef .tc b) _ _ h1).trans (keep0 m ρ c b hb0)

theorem W6_carry (hb0 : b ≠ main_v18) (hb1 : b ≠ main_v30) (h1 : (∀ op ∈ (hostOps1 : List (HloOp τ sig (Elt Ideal))), Proc.devRef .tc b ∉ op.writes)) :
    W6 m ρ c (Proc.devRef .tc b) = W3 m ρ c (Proc.devRef .tc b) :=
  (keep1 m ρ c b hb1).trans (W5_carry m ρ c b hb0 h1)

theorem W7_carry (hb0 : b ≠ main_v18) (hb1 : b ≠ main_v30) (h1 : (∀ op ∈ (hostOps1 : List (HloOp τ sig (Elt Ideal))), Proc.devRef .tc b ∉ op.writes)) (h2 : (∀ op ∈ (hostOps2 : List (HloOp τ sig (Elt Ideal))), Proc.devRef .tc b ∉ op.writes)) :
    W7 m ρ c (Proc.devRef .tc b) = W3 m ρ c (Proc.devRef .tc b) :=
  (StableHlo.after_of_forall_not_mem (b := Proc.devRef .tc b) _ _ h2).trans (W6_carry m ρ c b hb0 hb1 h1)

theorem W8_carry (hb0 : b ≠ main_v18) (hb1 : b ≠ main_v30) (hb2 : b ≠ main_v42) (h1 : (∀ op ∈ (hostOps1 : List (HloOp τ sig (Elt Ideal))), Proc.devRef .tc b ∉ op.writes)) (h2 : (∀ op ∈ (hostOps2 : List (HloOp τ sig (Elt Ideal))), Proc.devRef .tc b ∉ op.writes)) :
    W8 m ρ c (Proc.devRef .tc b) = W3 m ρ c (Proc.devRef .tc b) :=
  (keep2 m ρ c b hb2).trans (W7_carry m ρ c b hb0 hb1 h1 h2)

end Carry

/-! ## The endpoint vectors, the degree-factor column and the arguments where the later stretches and regions read them -/

theorem W4_src (c : Dev nD) : W4 m ρ c (Proc.devRef .tc main_v3) = HostT.srcV (argE m c) :=
  (W4_carry m ρ c main_v3 (by decide)).trans (W3_src m ρ c)
theorem W4_dst (c : Dev nD) : W4 m ρ c (Proc.devRef .tc main_v6) = HostT.dstV (argE m c) :=
  (W4_carry m ρ c main_v6 (by decide)).trans (W3_dst m ρ c)
theorem W6_src (c : Dev nD) : W6 m ρ c (Proc.devRef .tc main_v3) = HostT.srcV (argE m c) :=
  (W6_carry m ρ c main_v3 (by decide) (by decide) (by not_written hostOps1)).trans (W3_src m ρ c)
theorem W6_dst (c : Dev nD) : W6 m ρ c (Proc.devRef .tc main_v6) = HostT.dstV (argE m c) :=
  (W6_carry m ρ c main_v6 (by decide) (by decide) (by not_written hostOps1)).trans (W3_dst m ρ c)
theorem W8_src (c : Dev nD) : W8 m ρ c (Proc.devRef .tc main_v3) = HostT.srcV (argE m c) :=
  (W8_carry m ρ c main_v3 (by decide) (by decide) (by decide) (by not_written hostOps1) (by not_written hostOps2)).trans (W3_src m ρ c)
theorem W8_dst (c : Dev nD) : W8 m ρ c (Proc.devRef .tc main_v6) = HostT.dstV (argE m c) :=
  (W8_carry m ρ c main_v6 (by decide) (by decide) (by decide) (by not_written hostOps1) (by not_written hostOps2)).trans (W3_dst m ρ c)

theorem W5_dis (c : Dev nD) :
    W5 m ρ c (Proc.devRef .tc main_v17) = shapeCast S50000x1 (HostT.disV (argE m c)) shapeCasts_S50000_S50000x1 :=
  (W5_carry m ρ c main_v17 (by decide) (by not_written hostOps1)).trans (W3_dis m ρ c)
theorem W7_dis (c : Dev nD) :
    W7 m ρ c (Proc.devRef .tc main_v17) = shapeCast S50000x1 (HostT.disV (argE m c)) shapeCasts_S50000_S50000x1 :=
  (W7_carry m ρ c main_v17 (by decide) (by decide) (by not_written hostOps1) (by not_written hostOps2)).trans (W3_dis m ρ c)
theorem W8_dis (c : Dev nD) :
    W8 m ρ c (Proc.devRef .tc main_v17) = shapeCast S50000x1 (HostT.disV (argE m c)) shapeCasts_S50000_S50000x1 :=
  (W8_carry m ρ c main_v17 (by decide) (by decide) (by decide) (by not_written hostOps1) (by not_written hostOps2)).trans (W3_dis m ρ c)

/-- An argument at the first region's entry. -/
theorem W3_main (c : Dev nD) (b : Ref sig .tc)
    (h0 : (∀ op ∈ (hostOps0 : List (HloOp τ sig (Elt Ideal))), Proc.devRef .tc b ∉ op.writes)) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W3 m ρ c (Proc.devRef .tc b) = m ((c : Thread nD τ).loc b) := W3_arg m ρ c b h0 h1 h2

theorem W4_arg4 (c : Dev nD) : W4 m ρ c (Proc.devRef .tc main_arg4) = m ((c : Thread nD τ).loc main_arg4) :=
  (W4_carry m ρ c main_arg4 (by decide)).trans (W3_arg m ρ c main_arg4 (by not_written hostOps0) (by not_written hostOps0_1) (by not_written hostOps0_2))
theorem W5_arg5 (c : Dev nD) : W5 m ρ c (Proc.devRef .tc main_arg5) = m ((c : Thread nD τ).loc main_arg5) :=
  (W5_carry m ρ c main_arg5 (by decide) (by not_written hostOps1)).trans (W3_arg m ρ c main_arg5 (by not_written hostOps0) (by not_written hostOps0_1) (by not_written hostOps0_2))
theorem W6_arg6 (c : Dev nD) : W6 m ρ c (Proc.devRef .tc main_arg6) = m ((c : Thread nD τ).loc main_arg6) :=
  (W6_carry m ρ c main_arg6 (by decide) (by decide) (by not_written hostOps1)).trans (W3_arg m ρ c main_arg6 (by not_written hostOps0) (by not_written hostOps0_1) (by not_written hostOps0_2))
theorem W7_arg7 (c : Dev nD) : W7 m ρ c (Proc.devRef .tc main_arg7) = m ((c : Thread nD τ).loc main_arg7) :=
  (W7_carry m ρ c main_arg7 (by decide) (by decide) (by not_written hostOps1) (by not_written hostOps2)).trans (W3_arg m ρ c main_arg7 (by not_written hostOps0) (by not_written hostOps0_1) (by not_written hostOps0_2))
theorem W8_arg2 (c : Dev nD) : W8 m ρ c (Proc.devRef .tc main_arg2) = m ((c : Thread nD τ).loc main_arg2) :=
  (W8_carry m ρ c main_arg2 (by decide) (by decide) (by decide) (by not_written hostOps1) (by not_written hostOps2)).trans (W3_arg m ρ c main_arg2 (by not_written hostOps0) (by not_written hostOps0_1) (by not_written hostOps0_2))
theorem W8_arg8 (c : Dev nD) : W8 m ρ c (Proc.devRef .tc main_arg8) = m ((c : Thread nD τ).loc main_arg8) :=
  (W8_carry m ρ c main_arg8 (by decide) (by decide) (by decide) (by not_written hostOps1) (by not_written hostOps2)).trans (W3_arg m ρ c main_arg8 (by not_written hostOps0) (by not_written hostOps0_1) (by not_written hostOps0_2))

end Cert.KernelIdeal.KVal

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.LibColumn.lean ====
/-
  Column vectors read at an index, and a two-entry weight matrix built from them.

  A vector [a] viewed as a column [a, 1] reads its entry p at (p, 0); a column [a, 1] broadcast along a second axis
  to [a, b] reads, at (p, k), the column's entry p.  From these: the matrix whose row p holds (one − w p) at the
  column numbered by the word i p, w p at the column numbered by the next word, and zero elsewhere, when it is
  spelt with two selects over comparisons of a column-number iota against the broadcast words.  And the sum of
  an [a, b] matrix along its second axis, read at p: the sum of row p's entries.
-/
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Column

open Idealize.ShloMosaic Idealize.ShloMosaic.ValueIdx

variable {α : Type}

/-- An [a] array cast to [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, k), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A select on a word comparison for equality is a conditional on the equality. -/
theorem select_cmpi_eq {w : ℕ} (A B : BitVec w) (x y : α) :
    Scalar.select (IntOp.cmpi .eq A B) x y = if A = B then x else y := by
  unfold Scalar.select
  exact if_congr StableHlo.Predicate.cmpi_eq_iff rfl rfl

/-- THE WEIGHT MATRIX at (p, k): one − w p where column k is the word i p, w p where it is the next word, else zero. -/
theorem weights_apply {a b : ℕ} (i : IVec ⟨1, ![a]⟩ 32) (w : FVec Ideal ⟨1, ![a]⟩ .f32) (one zero : Ideal .f32)
    (hc : (⟨1, ![a]⟩ : Shape).ShapeCasts ⟨2, ![a, 1]⟩) (hc' : (⟨2, ![a, 1]⟩ : Shape).ShapeCasts ⟨2, ![a, 1]⟩)
    (hb : (⟨2, ![a, 1]⟩ : Shape).Broadcasts ⟨2, ![a, b]⟩) (hi : (⟨2, ![a, b]⟩ : Shape).Iotas .tc 32 [1])
    (p : Fin a) (k : Fin b) :
    select (cmpi .eq (iota .tc ⟨2, ![a, b]⟩ 32 [1] hi) (broadcastTo ⟨2, ![a, b]⟩ (shapeCast ⟨2, ![a, 1]⟩ i hc) hb))
        (broadcastTo ⟨2, ![a, b]⟩ (shapeCast ⟨2, ![a, 1]⟩
          (subf (broadcast ⟨2, ![a, 1]⟩ one) (shapeCast ⟨2, ![a, 1]⟩ w hc)) hc') hb)
        (select (cmpi .eq (iota .tc ⟨2, ![a, b]⟩ 32 [1] hi)
            (broadcastTo ⟨2, ![a, b]⟩ (addi (shapeCast ⟨2, ![a, 1]⟩ i hc) (broadcast ⟨2, ![a, 1]⟩ 1#32)) hb))
          (broadcastTo ⟨2, ![a, b]⟩ (shapeCast ⟨2, ![a, 1]⟩ (shapeCast ⟨2, ![a, 1]⟩ w hc) hc') hb)
          (broadcast ⟨2, ![a, b]⟩ zero)) (ix2 p k)
      = if BitVec.ofNat 32 k.val = i (ix1 p) then one - w (ix1 p)
        else if BitVec.ofNat 32 k.val = i (ix1 p) + 1#32 then w (ix1 p) else zero := by
  rw [select_apply, select_apply]
  show Scalar.select (IntOp.cmpi .eq (iota .tc ⟨2, ![a, b]⟩ 32 [1] hi (ix2 p k)) _) _
      (Scalar.select (IntOp.cmpi .eq (iota .tc ⟨2, ![a, b]⟩ 32 [1] hi (ix2 p k)) _) _ _) = _
  rw [select_cmpi_eq, select_cmpi_eq, iota_single_apply, broadcastTo_a1_ab_apply, broadcastTo_a1_ab_apply,
    broadcastTo_a1_ab_apply, broadcastTo_a1_ab_apply, shapeCast_self, shapeCast_self, shapeCast_a_a1_apply]
  show (if BitVec.ofNat 32 k.val = i (ix1 p) then one - shapeCast ⟨2, ![a, 1]⟩ w hc (ix2 p 0) else
      if BitVec.ofNat 32 k.val = shapeCast ⟨2, ![a, 1]⟩ i hc (ix2 p 0) + 1#32
      then shapeCast ⟨2, ![a, 1]⟩ w hc (ix2 p 0) else zero) = _
  rw [shapeCast_a_a1_apply, shapeCast_a_a1_apply]

/-- The index over p with lane c inserted on the second axis is (p, c). -/
theorem lift_lane {a b : ℕ} (h : (⟨2, ![a, b]⟩ : Shape).Reduces [1] ⟨1, ![a]⟩) (p : Fin a) (c : Fin b) :
    h.lift (ix1 p) c = ix2 p c := by
  funext ax; refine Fin.ext ?_
  show h.liftVal (ix1 p) c.val ax = (ix2 p c ax).val
  match ax with
  | ⟨0, _⟩ => simp [Shape.Reduces.liftVal]
  | ⟨1, _⟩ => simp [Shape.Reduces.liftVal]

/-- A sum along the second axis into a zero accumulator, read at p: the sum of row p. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ c : Fin b, src (ix2 p c) :=
  (Ideal.multiReduction_add_single src _ h hφ hacc (ix1 p)).trans
    (Finset.sum_congr rfl fun c _ => congrArg src (lift_lane h p c))

end Cert.Column

end
-- ==== Proof.Region0.lean ====
/-
  Region 0: the first projection, ten row blocks of 5000 nodes.

  At grid point t the body reads rows 5000·t … 5000·t + 4999 of x (a [5000, 64] block), all of W0 ([64, 128]) and
  rows 5000·t … 5000·t + 4999 of the degree-factor column ([5000, 1]); it contracts the block of x with W0 (both narrowed
  to bf16 first, which changes nothing over the extended reals) into a zero accumulator, scales row p of the product by the
  column's entry p, and stores the [5000, 128] result as rows 5000·t … 5000·t + 4999 of the output. Entry (p, q) of the
  block therefore depends on row 5000·t + p of x, column q of W0 and entry 5000·t + p of the column only, so the block is
  the restriction of ONE function of the whole arrays, and the ten blocks tile the [50000, 128] output: the array ends
  holding that function.
-/
import proofs.«401719_j47906065219800_3_alg».proof.Proof.Gen.KernelIdeal.Frame
import proofs.«401719_j47906065219800_3_alg».proof.Proof.LibMatmul
import proofs.«401719_j47906065219800_3_alg».proof.Proof.LibColumn
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The whole-array function -/

/-- Entry (v, j) of the projected array: row v of x against column j of W0, times the factor of node v. -/
def projectedAt (X : S50000x64.Idx → EReal) (W : S64x128.Idx → EReal) (D : S50000x1.Idx → EReal) (v : Fin 50000) (j : Fin 128) :
    EReal :=
  (∑ q : Fin 64, X (ix2 v q) * W (ix2 q j)) * D (ix2 v 0)

/-- The projected array as one function of its index. -/
def projected (X : S50000x64.Idx → EReal) (W : S64x128.Idx → EReal) (D : S50000x1.Idx → EReal) : S50000x128.Idx → EReal :=
  fun i => projectedAt X W D (i 0) (i 1)

/-! ## The body's arithmetic at one entry of a block -/

/-- The body's dimension numbers are those of the plain M×K by K×N product. -/
theorem dot_eq : dot_S5000x64_S64x128_S5000x128_1_0_0_1_n_n = DotDims.plain 5000 64 128 := rfl

/-- Entry (p, q) of what the body stores, from the three blocks it loads: the narrowing to bf16 is the identity, the
    product into the zero accumulator is the sum over the 64 contracted positions, the broadcast column is its entry p. -/
theorem payload_apply (x0 : Vec Ideal S5000x64 .f32) (x1 : Vec Ideal S64x128 .f32) (x2 : Vec Ideal S5000x1 .f32)
    (p : Fin 5000) (q : Fin 128) :
    k0_pay1 (F := Ideal) x0 x1 x2 (ix2 p q) = (∑ k : Fin 64, x0 (ix2 p k) * x1 (ix2 k q)) * x2 (ix2 p 0) := by
  unfold k0_pay1 matmul
  rw [mulf_apply, Cert.Column.broadcastTo_a1_ab_apply, shapeCast_self, dot_eq, Cert.Matmul.matmul_plain_apply]
  rfl

/-! ## The blocks as rows of the arrays -/

theorem zeroOffsets : (![0, 0] : Fin 2 → Nat) = fun _ => 0 := funext fun a => by fin_cases a <;> rfl

/-- The block index of every window at every grid point: the row-blocked windows (x, the column, the output) are at row
    block t, the weight matrix stays at its one block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of x is row 5000·t + p of x. -/
theorem xBlock (c : Dev nD) (X : S50000x64.Idx → EReal) (hX : V c (Pipeline.arrRef spec0 0) = X) (t : Fin cfg0.N)
    (p : Fin 5000) (k : Fin 64) (v : Fin 50000) (hv : v.val = 5000 * t.val + p.val) :
    (iblk0 V c 0 t : Vec Ideal S5000x64 .f32) (ix2 p k) = X (ix2 v k) := by
  obtain ⟨e0, e1, -⟩ := blockIndex t
  unfold iblk0
  rw [View.read_apply, hX]
  refine congrArg X (funext fun a => Fin.ext ?_)
  match a with
  | ⟨0, _⟩ => show win0_0.index t (0 : Fin 2) * 5000 + 1 * p.val = v.val; omega
  | ⟨1, _⟩ => show win0_0.index t (1 : Fin 2) * 64 + 1 * k.val = k.val; omega

/-- Every point's block of W0 is W0. -/
theorem wBlock (c : Dev nD) (W : S64x128.Idx → EReal) (hW : V c (Pipeline.arrRef spec0 1) = W) (t : Fin cfg0.N)
    (k : Fin 64) (q : Fin 128) :
    (iblk0 V c 1 t : Vec Ideal S64x128 .f32) (ix2 k q) = W (ix2 k q) := by
  obtain ⟨-, -, e0, e1, -⟩ := blockIndex t
  unfold iblk0
  rw [View.read_apply, hW]
  refine congrArg W (funext fun a => Fin.ext ?_)
  match a with
  | ⟨0, _⟩ => show win0_1.index t (0 : Fin 2) * 64 + 1 * k.val = k.val; omega
  | ⟨1, _⟩ => show win0_1.index t (1 : Fin 2) * 128 + 1 * q.val = q.val; omega

/-- Entry p of point t's block of the factor column is entry 5000·t + p of the column. -/
theorem dBlock (c : Dev nD) (D : S50000x1.Idx → EReal) (hD : V c (Pipeline.arrRef spec0 2) = D) (t : Fin cfg0.N)
    (p : Fin 5000) (v : Fin 50000) (hv : v.val = 5000 * t.val + p.val) :
    (iblk0 V c 2 t : Vec Ideal S5000x1 .f32) (ix2 p 0) = D (ix2 v 0) := by
  obtain ⟨-, -, -, -, e0, e1, -⟩ := blockIndex t
  unfold iblk0
  rw [View.read_apply, hD]
  refine congrArg D (funext fun a => Fin.ext ?_)
  match a with
  | ⟨0, _⟩ => show win0_2.index t (0 : Fin 2) * 5000 + 1 * p.val = v.val; omega
  | ⟨1, _⟩ => show win0_2.index t (1 : Fin 2) * 1 + 1 * 0 = 0; omega

/-- Entry (p, q) of what point t stores is entry (5000·t + p, q) of the projected array. -/
theorem block_eq (c : Dev nD) (X : S50000x64.Idx → EReal) (W : S64x128.Idx → EReal) (D : S50000x1.Idx → EReal)
    (hX : V c (Pipeline.arrRef spec0 0) = X) (hW : V c (Pipeline.arrRef spec0 1) = W) (hD : V c (Pipeline.arrRef spec0 2) = D)
    (t : Fin cfg0.N) (p : Fin 5000) (q : Fin 128) (v : Fin 50000) (j : Fin 128) (hv : v.val = 5000 * t.val + p.val)
    (hj : j = q) :
    k0_pay1 (F := Ideal) (iblk0 V c 0 t) (iblk0 V c 1 t) (iblk0 V c 2 t) (ix2 p q) = projectedAt X W D v j := by
  subst hj
  refine (payload_apply (iblk0 V c 0 t) (iblk0 V c 1 t) (iblk0 V c 2 t) p j).trans ?_
  unfold projectedAt
  rw [dBlock V c D hD t p v hv]
  refine congrArg (fun s : EReal => s * D (ix2 v 0)) (Finset.sum_congr rfl fun k _ => ?_)
  rw [xBlock V c X hX t p k v hv, wBlock V c W hW t k j]

/-! ## From the blocks to the array -/

/-- WHAT POINT t WRITES BACK is block t of the projected array. -/
theorem flushed_eq (c : Dev nD) (X : S50000x64.Idx → EReal) (W : S64x128.Idx → EReal) (D : S50000x1.Idx → EReal)
    (hX : V c (Pipeline.arrRef spec0 0) = X) (hW : V c (Pipeline.arrRef spec0 1) = W) (hD : V c (Pipeline.arrRef spec0 2) = D)
    (t : Fin cfg0.N) :
    (dat0 (F := Ideal) V c).flushed 3 t = ((cfg0.win 3).blk t).view.read (Elt Ideal) (projected X W D) := by
  show (cfg0.win 3).cut (grid0.coords t) ((dat0 (F := Ideal) V c).after 3 t) = _
  rw [after0_3]
  unfold out0_3
  rw [View.canon_unit_zero zeroOffsets]
  simp only [View.ld_unit_zero (S := S5000x64) zeroOffsets, View.ld_unit_zero (S := S64x128) zeroOffsets,
    View.ld_unit_zero (S := S5000x1) zeroOffsets]
  funext y
  have hp : (y 0).val < 5000 := (y 0).isLt
  have hq : (y 1).val < 128 := (y 1).isLt
  obtain ⟨-, -, -, -, -, -, e0, e1⟩ := blockIndex t
  have e : (win0 3).xinj (grid0.coords t) y = ix2 (⟨(y 0).val, hp⟩ : Fin 5000) (⟨(y 1).val, hq⟩ : Fin 128) :=
    funext fun a => match a with | ⟨0, _⟩ => rfl | ⟨1, _⟩ => rfl
  show k0_pay1 (F := Ideal) (iblk0 V c 0 t) (iblk0 V c 1 t) (iblk0 V c 2 t) ((win0 3).xinj (grid0.coords t) y)
    = projectedAt X W D ((((cfg0.win 3).blk t).view.emb y) 0) ((((cfg0.win 3).blk t).view.emb y) 1)
  refine (congrArg (k0_pay1 (F := Ideal) (iblk0 V c 0 t) (iblk0 V c 1 t) (iblk0 V c 2 t)) e).trans ?_
  refine block_eq V c X W D hX hW hD t _ _ _ _ ?_ ?_
  · show win0_3.index t (0 : Fin 2) * 5000 + 1 * (y 0).val = 5000 * t.val + (y 0).val; omega
  · refine Fin.ext ?_
    show win0_3.index t (1 : Fin 2) * 128 + 1 * (y 1).val = (y 1).val; omega

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row r of the output is written back by point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := blockIndex t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000; omega
  | ⟨1, _⟩ =>
    show win0_3.index t (1 : Fin 2) * 128 ≤ (i 1).val ∧ (i 1).val < win0_3.index t (1 : Fin 2) * 128 + 128; omega

/-- THE OUTPUT ARRAY after the ten points is the projected array. -/
theorem final (c : Dev nD) (X : S50000x64.Idx → EReal) (W : S64x128.Idx → EReal) (D : S50000x1.Idx → EReal)
    (hX : V c (Pipeline.arrRef spec0 0) = X) (hW : V c (Pipeline.arrRef spec0 1) = W) (hD : V c (Pipeline.arrRef spec0 2) = D) :
    (dat0 (F := Ideal) V c).arrAt 3 cfg0.N = projected X W D :=
  (dat0 (F := Ideal) V c).arrAt_eq_of_cover 3 (projected X W D) (fun t _ => flushed_eq V c X W D hX hW hD t) covered

/-- Region 0's output array after its ten grid points: row v of x contracted with column j of W0, scaled by the
    source-side degree factor of row v. -/
theorem value (c : Dev nD) (X : S50000x64.Idx → EReal) (W : S64x128.Idx → EReal) (D : S50000x1.Idx → EReal)
    (hX : V c (Pipeline.arrRef spec0 0) = X) (hW : V c (Pipeline.arrRef spec0 1) = W) (hD : V c (Pipeline.arrRef spec0 2) = D)
    (v : Fin 50000) (j : Fin 128) :
    (dat0 (F := Ideal) V c).arrAt 3 cfg0.N (ix2 v j) = (∑ q : Fin 64, X (ix2 v q) * W (ix2 q j)) * D (ix2 v 0) := by
  rw [final V c X W D hX hW hD]
  rfl

end Cert.KernelIdeal.Region0

end
-- ==== Proof.KLayer0.lean ====
/-
  The kernel's first layer: region 0 leaves each node's projected row scaled by the node's degree factor; the host
  operations after it gather those rows by source and add them up by destination.
-/
import proofs.«401719_j47906065219800_3_alg».proof.Proof.KBase2
import proofs.«401719_j47906065219800_3_alg».proof.Proof.Region0
import proofs.«401719_j47906065219800_3_alg».proof.Proof.LibScatter
import proofs.«401719_j47906065219800_3_alg».proof.Proof.LibColumn
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

/-- The argument arrays as matrices. -/
abbrev aX (c : Dev nD) : M 50000 64 := mat (m ((c : Thread nD τ).loc main_arg0))
abbrev aW0 (c : Dev nD) : M 64 128 := mat (m ((c : Thread nD τ).loc main_arg3))

/-- Region 0's output array, and the scattered sums the host forms from it. -/
abbrev H0 (c : Dev nD) : FVec Ideal (HostT.T2 50000 128) .f32 := W4 m ρ c (Proc.devRef .tc main_v18)
abbrev S0 (c : Dev nD) : FVec Ideal (HostT.T2 50000 128) .f32 := W5 m ρ c (Proc.devRef .tc main_v28)

/-- The zero array the scatters start from reads 0 everywhere. -/
theorem zeros_apply (i : (HostT.T2 50000 128).Idx) :
    (broadcastInDim (HostT.T2 50000 128) ![] (by decide) (constant (F := Ideal) HostT.T0 .f32 0x00000000#32)) i = 0 := by
  show Ideal.ofBits .f32 0x00000000#32 = 0
  exact Ideal.ofBits_zero_f32

/-- Gathering rows by source and adding them up by destination, read at (v, j): the sum over the edges landing on v of the
    source row's entry j. -/
theorem edgeSum_apply (E : IVec (HostT.T2 2 800000) 32) (H : FVec Ideal (HostT.T2 50000 128) .f32) (v : Fin 50000) (j : Fin 128) :
    Host.scatterAdd (F := Ideal) (φ := .f32) (rowScatter 50000 850000 128 (by decide))
        (broadcastInDim (HostT.T2 50000 128) ![] (by decide) (constant HostT.T0 .f32 0x00000000#32)) (HostT.iD E)
        (Host.gather (rowGather 50000 850000 128 (by decide)) H (HostT.iS E)) (ix2 v j)
      = ∑ e ∈ Finset.univ.filter (fun e : Fin 850000 => lands (HostT.iD E) e v.val), H (ix2 (srcRow (HostT.iS E) e) j) := by
  rw [scatterAdd_rows_apply, zeros_apply, zero_add]
  refine Finset.sum_congr rfl fun e _ => ?_
  rw [gather_rows_apply (by decide)]

theorem entry0_x (c : Dev nD) : V3 m ρ c (Pipeline.arrRef spec0 0) = m ((c : Thread nD τ).loc main_arg0) :=
  W3_arg m ρ c main_arg0 (by not_written hostOps0) (by not_written hostOps0_1) (by not_written hostOps0_2)

theorem entry0_w (c : Dev nD) : V3 m ρ c (Pipeline.arrRef spec0 1) = m ((c : Thread nD τ).loc main_arg3) :=
  W3_arg m ρ c main_arg3 (by not_written hostOps0) (by not_written hostOps0_1) (by not_written hostOps0_2)

/-- REGION 0's OUTPUT: row v of x·W0 scaled by dis v. -/
theorem h0_value (c : Dev nD) (v : Fin 50000) (j : Fin 128) :
    H0 m ρ c (ix2 v j) = mm (aX m c) (aW0 m c) v j * disF m c v := by
  show W4 m ρ c (Proc.devRef .tc main_v18) (ix2 v j) = _
  rw [show W4 m ρ c (Proc.devRef .tc main_v18) = (dat0 (V3 m ρ) c).arrAt 3 cfg0.N from W4_arr m ρ c 3]
  rw [Cert.KernelIdeal.Region0.value (V3 m ρ) c _ _ _ (entry0_x m ρ c) (entry0_w m ρ c) (W3_dis m ρ c) v j]
  rw [Cert.Column.shapeCast_a_a1_apply]
  rfl

set_option maxHeartbeats 1000000 in
/-- THE FIRST SCATTERED SUMS, as the host operations spell them. -/
theorem s0_array (c : Dev nD) :
    S0 m ρ c
      = Host.scatterAdd (F := Ideal) (φ := .f32) (rowScatter 50000 850000 128 (by decide))
          (broadcastInDim (HostT.T2 50000 128) ![] (by decide) (constant HostT.T0 .f32 0x00000000#32)) (HostT.iD (argE m c))
          (Host.gather (rowGather 50000 850000 128 (by decide)) (H0 m ρ c) (HostT.iS (argE m c))) := by
  show StableHlo.after hostOps1 (W4 m ρ c) (Proc.devRef .tc main_v28) = _
  after_results_simp
  rw [W4_src, W4_dst]
  rfl

/-- Over the edges landing on v, the source's scaled projected row. -/
theorem s0_value (c : Dev nD) (v : Fin 50000) (j : Fin 128) :
    S0 m ρ c (ix2 v j) = kScat (HostT.iS (argE m c)) (HostT.iD (argE m c)) (disF m c) (aX m c) (aW0 m c) v j := by
  rw [s0_array, edgeSum_apply]
  unfold kScat
  exact Finset.sum_congr rfl fun e _ => h0_value m ρ c _ j

end Cert.KernelIdeal.KVal

end
-- ==== Proof.Region1.lean ====
/-
  Region 1: a layer's epilogue fused with the next projection, ten row blocks of 5000 nodes.

  At grid point t the body reads rows 5000·t … 5000·t + 4999 of the scattered sums (a [5000, 128] block), the same rows
  of the degree-factor column ([5000, 1]), the bias row ([1, 128]) and all of the next weight matrix ([128, 128]). It
  scales row p of the sums by the column's entry p, adds the bias row, clips at zero, contracts the result with the weight
  matrix (both narrowed to bf16 first, which changes nothing over the extended reals) into a zero accumulator, scales row p
  of the product by the column's entry p again, and stores the [5000, 128] result as rows 5000·t … 5000·t + 4999 of the
  output. Entry (p, q) of the block depends on row 5000·t + p of the sums, entry 5000·t + p of the column, the bias row and
  column q of the weights only, so the block is the restriction of ONE function of the whole arrays, and the ten blocks
  tile the [50000, 128] output: the array ends holding that function.
-/
import proofs.«401719_j47906065219800_3_alg».proof.Proof.Gen.KernelIdeal.Frame
import proofs.«401719_j47906065219800_3_alg».proof.Proof.LibMatmul
import proofs.«401719_j47906065219800_3_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The whole-array function -/

/-- Entry (v, j) of the layer's output: row v of the sums rescaled by the factor of node v, biased and clipped at zero,
    against column j of the weights, times the factor of node v. -/
def layerAt (S : S50000x128.Idx → EReal) (D : S50000x1.Idx → EReal) (B : S1x128.Idx → EReal) (W : S128x128.Idx → EReal)
    (v : Fin 50000) (j : Fin 128) : EReal :=
  (∑ q : Fin 128, max (S (ix2 v q) * D (ix2 v 0) + B (ix2 0 q)) 0 * W (ix2 q j)) * D (ix2 v 0)

/-- The layer's output as one function of its index. -/
def layer (S : S50000x128.Idx → EReal) (D : S50000x1.Idx → EReal) (B : S1x128.Idx → EReal) (W : S128x128.Idx → EReal) :
    S50000x128.Idx → EReal :=
  fun i => layerAt S D B W (i 0) (i 1)

/-! ## The body's arithmetic at one entry of a block -/

/-- The body's dimension numbers are those of the plain M×K by K×N product. -/
theorem dot_eq : dot_S5000x128_S128x128_S5000x128_1_0_0_1_n_n = DotDims.plain 5000 128 128 := rfl

/-- Entry (p, k) of the clipped activations the body contracts (the casts between equal shapes dropped): the sums' entry
    times the column's entry p plus the bias row's entry k, clipped below at the zero literal. -/
theorem activation_apply (x0 : Vec Ideal S5000x128 .f32) (x1 : Vec Ideal S5000x1 .f32) (x2 : Vec Ideal S1x128 .f32)
    (p : Fin 5000) (k : Fin 128) :
    maximumf (addf (mulf x0 (broadcastTo S5000x128 x1 broadcasts_S5000x1_S5000x128))
        (broadcastTo S5000x128 x2 broadcasts_S1x128_S5000x128))
      (broadcast S5000x128 (FloatOps.ofBits (F := Ideal) .f32 0x00000000#32)) (ix2 p k)
      = max (x0 (ix2 p k) * x1 (ix2 p 0) + x2 (ix2 0 k)) 0 := by
  rw [maximumf_apply, addf_apply, mulf_apply, broadcast_apply, Cert.Column.broadcastTo_a1_ab_apply,
    broadcastTo_1b_ab_apply]
  show max _ (Ideal.ofBits .f32 0x00000000#32) = _
  rw [Ideal.ofBits_zero_f32]

/-- Entry (p, q) of what the body stores, from the blocks it loads (the column is loaded twice): the narrowing to bf16 is
    the identity, the product into the zero accumulator is the sum over the 128 contracted positions of the clipped
    activations against the weights, the broadcast column is its entry p. -/
theorem payload_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 (F := Ideal) x0 x1 x2 x3 x4 (ix2 p q)
      = (∑ k : Fin 128, max (x0 (ix2 p k) * x1 (ix2 p 0) + x2 (ix2 0 k)) 0 * x3 (ix2 k q)) * x4 (ix2 p 0) := by
  unfold k1_pay1 matmul
  simp only [shapeCast_self]
  rw [mulf_apply, Cert.Column.broadcastTo_a1_ab_apply, dot_eq, Cert.Matmul.matmul_plain_apply]
  refine congrArg (fun s : EReal => s * x4 (ix2 p 0)) (Finset.sum_congr rfl fun k _ => ?_)
  rw [truncf_apply, truncf_apply, activation_apply]

/-! ## The blocks as rows of the arrays -/

theorem zeroOffsets : (![0, 0] : Fin 2 → Nat) = fun _ => 0 := funext fun a => by fin_cases a <;> rfl

/-- The block index of every window at every grid point: the row-blocked windows (the sums, the column, the output) are at
    row block t, the bias row and the weight matrix stay at their one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of the sums is row 5000·t + p of the sums. -/
theorem sBlock (c : Dev nD) (S : S50000x128.Idx → EReal) (hS : V c (Pipeline.arrRef spec1 0) = S) (t : Fin cfg1.N)
    (p : Fin 5000) (k : Fin 128) (v : Fin 50000) (hv : v.val = 5000 * t.val + p.val) :
    (iblk1 V c 0 t : Vec Ideal S5000x128 .f32) (ix2 p k) = S (ix2 v k) := by
  obtain ⟨e0, e1, -⟩ := blockIndex t
  unfold iblk1
  rw [View.read_apply, hS]
  refine congrArg S (funext fun a => Fin.ext ?_)
  match a with
  | ⟨0, _⟩ => show win1_0.index t (0 : Fin 2) * 5000 + 1 * p.val = v.val; omega
  | ⟨1, _⟩ => show win1_0.index t (1 : Fin 2) * 128 + 1 * k.val = k.val; omega

/-- Entry p of point t's block of the factor column is entry 5000·t + p of the column. -/
theorem dBlock (c : Dev nD) (D : S50000x1.Idx → EReal) (hD : V c (Pipeline.arrRef spec1 1) = D) (t : Fin cfg1.N)
    (p : Fin 5000) (v : Fin 50000) (hv : v.val = 5000 * t.val + p.val) :
    (iblk1 V c 1 t : Vec Ideal S5000x1 .f32) (ix2 p 0) = D (ix2 v 0) := by
  obtain ⟨-, -, e0, e1, -⟩ := blockIndex t
  unfold iblk1
  rw [View.read_apply, hD]
  refine congrArg D (funext fun a => Fin.ext ?_)
  match a with
  | ⟨0, _⟩ => show win1_1.index t (0 : Fin 2) * 5000 + 1 * p.val = v.val; omega
  | ⟨1, _⟩ => show win1_1.index t (1 : Fin 2) * 1 + 1 * 0 = 0; omega

/-- Every point's block of the bias row is the bias row. -/
theorem bBlock (c : Dev nD) (B : S1x128.Idx → EReal) (hB : V c (Pipeline.arrRef spec1 2) = B) (t : Fin cfg1.N)
    (k : Fin 128) :
    (iblk1 V c 2 t : Vec Ideal S1x128 .f32) (ix2 0 k) = B (ix2 0 k) := by
  obtain ⟨-, -, -, -, e0, e1, -⟩ := blockIndex t
  unfold iblk1
  rw [View.read_apply, hB]
  refine congrArg B (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- Every point's block of the weight matrix is the weight matrix. -/
theorem wBlock (c : Dev nD) (W : S128x128.Idx → EReal) (hW : V c (Pipeline.arrRef spec1 3) = W) (t : Fin cfg1.N)
    (k : Fin 128) (q : Fin 128) :
    (iblk1 V c 3 t : Vec Ideal S128x128 .f32) (ix2 k q) = W (ix2 k q) := by
  obtain ⟨-, -, -, -, -, -, e0, e1, -⟩ := blockIndex t
  unfold iblk1
  rw [View.read_apply, hW]
  refine congrArg W (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Entry (p, q) of what point t stores is entry (5000·t + p, q) of the layer's output. -/
theorem block_eq (c : Dev nD) (S : S50000x128.Idx → EReal) (D : S50000x1.Idx → EReal) (B : S1x128.Idx → EReal)
    (W : S128x128.Idx → EReal) (hS : V c (Pipeline.arrRef spec1 0) = S) (hD : V c (Pipeline.arrRef spec1 1) = D)
    (hB : V c (Pipeline.arrRef spec1 2) = B) (hW : V c (Pipeline.arrRef spec1 3) = W)
    (t : Fin cfg1.N) (p : Fin 5000) (q : Fin 128) (v : Fin 50000) (j : Fin 128) (hv : v.val = 5000 * t.val + p.val)
    (hj : j = q) :
    k1_pay1 (F := Ideal) (iblk1 V c 0 t) (iblk1 V c 1 t) (iblk1 V c 2 t) (iblk1 V c 3 t) (iblk1 V c 1 t) (ix2 p q)
      = layerAt S D B W v j := by
  subst hj
  refine (payload_apply (iblk1 V c 0 t) (iblk1 V c 1 t) (iblk1 V c 2 t) (iblk1 V c 3 t) (iblk1 V c 1 t) p j).trans ?_
  unfold layerAt
  rw [dBlock V c D hD t p v hv]
  refine congrArg (fun s : EReal => s * D (ix2 v 0)) (Finset.sum_congr rfl fun k _ => ?_)
  rw [sBlock V c S hS t p k v hv, bBlock V c B hB t k, wBlock V c W hW t k j]

/-! ## From the blocks to the array -/

/-- WHAT POINT t WRITES BACK is block t of the layer's output. -/
theorem flushed_eq (c : Dev nD) (S : S50000x128.Idx → EReal) (D : S50000x1.Idx → EReal) (B : S1x128.Idx → EReal)
    (W : S128x128.Idx → EReal) (hS : V c (Pipeline.arrRef spec1 0) = S) (hD : V c (Pipeline.arrRef spec1 1) = D)
    (hB : V c (Pipeline.arrRef spec1 2) = B) (hW : V c (Pipeline.arrRef spec1 3) = W) (t : Fin cfg1.N) :
    (dat1 (F := Ideal) V c).flushed 4 t = ((cfg1.win 4).blk t).view.read (Elt Ideal) (layer S D B W) := by
  show (cfg1.win 4).cut (grid1.coords t) ((dat1 (F := Ideal) V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets, View.ld_unit_zero (S := S128x128) zeroOffsets]
  funext y
  have hp : (y 0).val < 5000 := (y 0).isLt
  have hq : (y 1).val < 128 := (y 1).isLt
  obtain ⟨-, -, -, -, -, -, -, -, e0, e1⟩ := blockIndex t
  have e : (win1 4).xinj (grid1.coords t) y = ix2 (⟨(y 0).val, hp⟩ : Fin 5000) (⟨(y 1).val, hq⟩ : Fin 128) :=
    funext fun a => match a with | ⟨0, _⟩ => rfl | ⟨1, _⟩ => rfl
  show k1_pay1 (F := Ideal) (iblk1 V c 0 t) (iblk1 V c 1 t) (iblk1 V c 2 t) (iblk1 V c 3 t) (iblk1 V c 1 t)
      ((win1 4).xinj (grid1.coords t) y)
    = layerAt S D B W ((((cfg1.win 4).blk t).view.emb y) 0) ((((cfg1.win 4).blk t).view.emb y) 1)
  refine (congrArg (k1_pay1 (F := Ideal) (iblk1 V c 0 t) (iblk1 V c 1 t) (iblk1 V c 2 t) (iblk1 V c 3 t)
    (iblk1 V c 1 t)) e).trans ?_
  refine block_eq V c S D B W hS hD hB hW t _ _ _ _ ?_ ?_
  · show win1_4.index t (0 : Fin 2) * 5000 + 1 * (y 0).val = 5000 * t.val + (y 0).val; omega
  · refine Fin.ext ?_
    show win1_4.index t (1 : Fin 2) * 128 + 1 * (y 1).val = (y 1).val; omega

/-- An index of the output array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v30).slice (win1_4.rect t)).set ↔ _
  rw [View.set_slice_whole, Rect.mem_set_unit]
  exact Iff.rfl

/-- Row r of the output is written back by point r / 5000. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := blockIndex t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000; omega
  | ⟨1, _⟩ =>
    show win1_4.index t (1 : Fin 2) * 128 ≤ (i 1).val ∧ (i 1).val < win1_4.index t (1 : Fin 2) * 128 + 128; omega

/-- THE OUTPUT ARRAY after the ten points is the layer's output. -/
theorem final (c : Dev nD) (S : S50000x128.Idx → EReal) (D : S50000x1.Idx → EReal) (B : S1x128.Idx → EReal)
    (W : S128x128.Idx → EReal) (hS : V c (Pipeline.arrRef spec1 0) = S) (hD : V c (Pipeline.arrRef spec1 1) = D)
    (hB : V c (Pipeline.arrRef spec1 2) = B) (hW : V c (Pipeline.arrRef spec1 3) = W) :
    (dat1 (F := Ideal) V c).arrAt 4 cfg1.N = layer S D B W :=
  (dat1 (F := Ideal) V c).arrAt_eq_of_cover 4 (layer S D B W) (fun t _ => flushed_eq V c S D B W hS hD hB hW t) covered

/-- Region 1's output array: the previous layer's scattered sums rescaled by the destination factor, biased and clipped at
    zero, then contracted with the next weight matrix and scaled by the source factor of the row. -/
theorem value (c : Dev nD) (S : S50000x128.Idx → EReal) (D : S50000x1.Idx → EReal) (B : S1x128.Idx → EReal) (W : S128x128.Idx → EReal)
    (hS : V c (Pipeline.arrRef spec1 0) = S) (hD : V c (Pipeline.arrRef spec1 1) = D) (hB : V c (Pipeline.arrRef spec1 2) = B)
    (hW : V c (Pipeline.arrRef spec1 3) = W) (v : Fin 50000) (j : Fin 128) :
    (dat1 (F := Ideal) V c).arrAt 4 cfg1.N (ix2 v j)
      = (∑ q : Fin 128, max (S (ix2 v q) * D (ix2 v 0) + B (ix2 0 q)) 0 * W (ix2 q j)) * D (ix2 v 0) := by
  rw [final V c S D B W hS hD hB hW]
  rfl

end Cert.KernelIdeal.Region1

end
-- ==== Proof.KLayer1.lean ====
/-
  The kernel's layer 1: region 1 rescales the scattered sums of the layer before by the destination's degree factor, adds
  the bias, clips at zero, projects by the next weight matrix and scales by the source's factor; the host operations
  after it gather those rows by source and add them up by destination.
-/
import proofs.«401719_j47906065219800_3_alg».proof.Proof.KLayer0
import proofs.«401719_j47906065219800_3_alg».proof.Proof.Region1
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

/-- A vector [b] cast to a row [1, b] reads, at (u, q), the operand at q. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

abbrev aB0 (c : Dev nD) : Fin 128 → EReal := vec (m ((c : Thread nD τ).loc main_arg4))
abbrev aW1 (c : Dev nD) : M 128 128 := mat (m ((c : Thread nD τ).loc main_arg5))

/-- The clipped activations region 1 forms from the scattered sums before it. -/
abbrev act1 (c : Dev nD) : M 50000 128 := kAct (disF m c) (kScat (HostT.iS (argE m c)) (HostT.iD (argE m c)) (disF m c) (aX m c) (aW0 m c)) (aB0 m c)

/-- Region 1's output array, and the scattered sums the host forms from it. -/
abbrev H1 (c : Dev nD) : FVec Ideal (HostT.T2 50000 128) .f32 := W6 m ρ c (Proc.devRef .tc main_v30)
abbrev S1 (c : Dev nD) : FVec Ideal (HostT.T2 50000 128) .f32 := W7 m ρ c (Proc.devRef .tc main_v40)

theorem entry1_b (c : Dev nD) :
    V5 m ρ c (Pipeline.arrRef spec1 2) = shapeCast S1x128 (m ((c : Thread nD τ).loc main_arg4)) shapeCasts_S128_S1x128 := by
  show StableHlo.after hostOps1 (W4 m ρ c) (Proc.devRef .tc main_v29) = _
  after_results
  rw [W4_arg4]
  rfl

/-- REGION 1's OUTPUT: row v of (clipped activations)·W scaled by dis v. -/
theorem h1_value (c : Dev nD) (v : Fin 50000) (j : Fin 128) :
    H1 m ρ c (ix2 v j) = mm (act1 m c) (aW1 m c) v j * disF m c v := by
  show W6 m ρ c (Proc.devRef .tc main_v30) (ix2 v j) = _
  rw [show W6 m ρ c (Proc.devRef .tc main_v30) = (dat1 (V5 m ρ) c).arrAt 4 cfg1.N from W6_arr m ρ c 4]
  rw [Cert.KernelIdeal.Region1.value (V5 m ρ) c (S0 m ρ c) _ _ _ rfl (W5_dis m ρ c) (entry1_b m ρ c)
    (W5_arg5 m ρ c) v j]
  rw [Cert.Column.shapeCast_a_a1_apply]
  show (∑ q : Fin 128, _) * _ = (∑ q : Fin 128, _) * _
  refine congrArg₂ (· * ·) (Finset.sum_congr rfl fun q _ => ?_) rfl
  rw [shapeCast_b_1b_apply, s0_value]
  rfl

set_option maxHeartbeats 1000000 in
/-- THE NEXT SCATTERED SUMS, as the host operations spell them. -/
theorem s1_array (c : Dev nD) :
    S1 m ρ c
      = Host.scatterAdd (F := Ideal) (φ := .f32) (rowScatter 50000 850000 128 (by decide))
          (broadcastInDim (HostT.T2 50000 128) ![] (by decide) (constant HostT.T0 .f32 0x00000000#32)) (HostT.iD (argE m c))
          (Host.gather (rowGather 50000 850000 128 (by decide)) (H1 m ρ c) (HostT.iS (argE m c))) := by
  show StableHlo.after hostOps2 (W6 m ρ c) (Proc.devRef .tc main_v40) = _
  after_results_simp
  rw [W6_src, W6_dst]
  rfl

/-- Over the edges landing on v, the source's scaled projected row of this layer. -/
theorem s1_value (c : Dev nD) (v : Fin 50000) (j : Fin 128) :
    S1 m ρ c (ix2 v j) = kScat (HostT.iS (argE m c)) (HostT.iD (argE m c)) (disF m c) (act1 m c) (aW1 m c) v j := by
  rw [s1_array, edgeSum_apply]
  unfold kScat
  exact Finset.sum_congr rfl fun e _ => h1_value m ρ c _ j

end Cert.KernelIdeal.KVal

end
-- ==== Proof.Region2.lean ====
/-
  Region 2: a layer's epilogue fused with the next projection, ten row blocks of 5000 nodes.

  At grid point t the body reads rows 5000·t … 5000·t + 4999 of the scattered sums (a [5000, 128] block), the same rows
  of the degree-factor column ([5000, 1]), the bias row ([1, 128]) and all of the next weight matrix ([128, 128]). It
  scales row p of the sums by the column's entry p, adds the bias row, clips at zero, contracts the result with the weight
  matrix (both narrowed to bf16 first, which changes nothing over the extended reals) into a zero accumulator, scales row p
  of the product by the column's entry p again, and stores the [5000, 128] result as rows 5000·t … 5000·t + 4999 of the
  output. Entry (p, q) of the block depends on row 5000·t + p of the sums, entry 5000·t + p of the column, the bias row and
  column q of the weights only, so the block is the restriction of ONE function of the whole arrays, and the ten blocks
  tile the [50000, 128] output: the array ends holding that function.
-/
import proofs.«401719_j47906065219800_3_alg».proof.Proof.Gen.KernelIdeal.Frame
import proofs.«401719_j47906065219800_3_alg».proof.Proof.LibMatmul
import proofs.«401719_j47906065219800_3_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The whole-array function -/

/-- Entry (v, j) of the layer's output: row v of the sums rescaled by the factor of node v, biased and clipped at zero,
    against column j of the weights, times the factor of node v. -/
def layerAt (S : S50000x128.Idx → EReal) (D : S50000x1.Idx → EReal) (B : S1x128.Idx → EReal) (W : S128x128.Idx → EReal)
    (v : Fin 50000) (j : Fin 128) : EReal :=
  (∑ q : Fin 128, max (S (ix2 v q) * D (ix2 v 0) + B (ix2 0 q)) 0 * W (ix2 q j)) * D (ix2 v 0)

/-- The layer's output as one function of its index. -/
def layer (S : S50000x128.Idx → EReal) (D : S50000x1.Idx → EReal) (B : S1x128.Idx → EReal) (W : S128x128.Idx → EReal) :
    S50000x128.Idx → EReal :=
  fun i => layerAt S D B W (i 0) (i 1)

/-! ## The body's arithmetic at one entry of a block -/

/-- The body's dimension numbers are those of the plain M×K by K×N product. -/
theorem dot_eq : dot_S5000x128_S128x128_S5000x128_1_0_0_1_n_n = DotDims.plain 5000 128 128 := rfl

/-- Entry (p, k) of the clipped activations the body contracts (the casts between equal shapes dropped): the sums' entry
    times the column's entry p plus the bias row's entry k, clipped below at the zero literal. -/
theorem activation_apply (x0 : Vec Ideal S5000x128 .f32) (x1 : Vec Ideal S5000x1 .f32) (x2 : Vec Ideal S1x128 .f32)
    (p : Fin 5000) (k : Fin 128) :
    maximumf (addf (mulf x0 (broadcastTo S5000x128 x1 broadcasts_S5000x1_S5000x128))
        (broadcastTo S5000x128 x2 broadcasts_S1x128_S5000x128))
      (broadcast S5000x128 (FloatOps.ofBits (F := Ideal) .f32 0x00000000#32)) (ix2 p k)
      = max (x0 (ix2 p k) * x1 (ix2 p 0) + x2 (ix2 0 k)) 0 := by
  rw [maximumf_apply, addf_apply, mulf_apply, broadcast_apply, Cert.Column.broadcastTo_a1_ab_apply,
    broadcastTo_1b_ab_apply]
  show max _ (Ideal.ofBits .f32 0x00000000#32) = _
  rw [Ideal.ofBits_zero_f32]

/-- Entry (p, q) of what the body stores, from the blocks it loads (the column is loaded twice): the narrowing to bf16 is
    the identity, the product into the zero accumulator is the sum over the 128 contracted positions of the clipped
    activations against the weights, the broadcast column is its entry p. -/
theorem payload_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k2_pay1 (F := Ideal) x0 x1 x2 x3 x4 (ix2 p q)
      = (∑ k : Fin 128, max (x0 (ix2 p k) * x1 (ix2 p 0) + x2 (ix2 0 k)) 0 * x3 (ix2 k q)) * x4 (ix2 p 0) := by
  unfold k2_pay1 matmul
  simp only [shapeCast_self]
  rw [mulf_apply, Cert.Column.broadcastTo_a1_ab_apply, dot_eq, Cert.Matmul.matmul_plain_apply]
  refine congrArg (fun s : EReal => s * x4 (ix2 p 0)) (Finset.sum_congr rfl fun k _ => ?_)
  rw [truncf_apply, truncf_apply, activation_apply]

/-! ## The blocks as rows of the arrays -/

theorem zeroOffsets : (![0, 0] : Fin 2 → Nat) = fun _ => 0 := funext fun a => by fin_cases a <;> rfl

/-- The block index of every window at every grid point: the row-blocked windows (the sums, the column, the output) are at
    row block t, the bias row and the weight matrix stay at their one block. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of point t's block of the sums is row 5000·t + p of the sums. -/
theorem sBlock (c : Dev nD) (S : S50000x128.Idx → EReal) (hS : V c (Pipeline.arrRef spec2 0) = S) (t : Fin cfg2.N)
    (p : Fin 5000) (k : Fin 128) (v : Fin 50000) (hv : v.val = 5000 * t.val + p.val) :
    (iblk2 V c 0 t : Vec Ideal S5000x128 .f32) (ix2 p k) = S (ix2 v k) := by
  obtain ⟨e0, e1, -⟩ := blockIndex t
  unfold iblk2
  rw [View.read_apply, hS]
  refine congrArg S (funext fun a => Fin.ext ?_)
  match a with
  | ⟨0, _⟩ => show win2_0.index t (0 : Fin 2) * 5000 + 1 * p.val = v.val; omega
  | ⟨1, _⟩ => show win2_0.index t (1 : Fin 2) * 128 + 1 * k.val = k.val; omega

/-- Entry p of point t's block of the factor column is entry 5000·t + p of the column. -/
theorem dBlock (c : Dev nD) (D : S50000x1.Idx → EReal) (hD : V c (Pipeline.arrRef spec2 1) = D) (t : Fin cfg2.N)
    (p : Fin 5000) (v : Fin 50000) (hv : v.val = 5000 * t.val + p.val) :
    (iblk2 V c 1 t : Vec Ideal S5000x1 .f32) (ix2 p 0) = D (ix2 v 0) := by
  obtain ⟨-, -, e0, e1, -⟩ := blockIndex t
  unfold iblk2
  rw [View.read_apply, hD]
  refine congrArg D (funext fun a => Fin.ext ?_)
  match a with
  | ⟨0, _⟩ => show win2_1.index t (0 : Fin 2) * 5000 + 1 * p.val = v.val; omega
  | ⟨1, _⟩ => show win2_1.index t (1 : Fin 2) * 1 + 1 * 0 = 0; omega

/-- Every point's block of the bias row is the bias row. -/
theorem bBlock (c : Dev nD) (B : S1x128.Idx → EReal) (hB : V c (Pipeline.arrRef spec2 2) = B) (t : Fin cfg2.N)
    (k : Fin 128) :
    (iblk2 V c 2 t : Vec Ideal S1x128 .f32) (ix2 0 k) = B (ix2 0 k) := by
  obtain ⟨-, -, -, -, e0, e1, -⟩ := blockIndex t
  unfold iblk2
  rw [View.read_apply, hB]
  refine congrArg B (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- Every point's block of the weight matrix is the weight matrix. -/
theorem wBlock (c : Dev nD) (W : S128x128.Idx → EReal) (hW : V c (Pipeline.arrRef spec2 3) = W) (t : Fin cfg2.N)
    (k : Fin 128) (q : Fin 128) :
    (iblk2 V c 3 t : Vec Ideal S128x128 .f32) (ix2 k q) = W (ix2 k q) := by
  obtain ⟨-, -, -, -, -, -, e0, e1, -⟩ := blockIndex t
  unfold iblk2
  rw [View.read_apply, hW]
  refine congrArg W (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Entry (p, q) of what point t stores is entry (5000·t + p, q) of the layer's output. -/
theorem block_eq (c : Dev nD) (S : S50000x128.Idx → EReal) (D : S50000x1.Idx → EReal) (B : S1x128.Idx → EReal)
    (W : S128x128.Idx → EReal) (hS : V c (Pipeline.arrRef spec2 0) = S) (hD : V c (Pipeline.arrRef spec2 1) = D)
    (hB : V c (Pipeline.arrRef spec2 2) = B) (hW : V c (Pipeline.arrRef spec2 3) = W)
    (t : Fin cfg2.N) (p : Fin 5000) (q : Fin 128) (v : Fin 50000) (j : Fin 128) (hv : v.val = 5000 * t.val + p.val)
    (hj : j = q) :
    k2_pay1 (F := Ideal) (iblk2 V c 0 t) (iblk2 V c 1 t) (iblk2 V c 2 t) (iblk2 V c 3 t) (iblk2 V c 1 t) (ix2 p q)
      = layerAt S D B W v j := by
  subst hj
  refine (payload_apply (iblk2 V c 0 t) (iblk2 V c 1 t) (iblk2 V c 2 t) (iblk2 V c 3 t) (iblk2 V c 1 t) p j).trans ?_
  unfold layerAt
  rw [dBlock V c D hD t p v hv]
  refine congrArg (fun s : EReal => s * D (ix2 v 0)) (Finset.sum_congr rfl fun k _ => ?_)
  rw [sBlock V c S hS t p k v hv, bBlock V c B hB t k, wBlock V c W hW t k j]

/-! ## From the blocks to the array -/

/-- WHAT POINT t WRITES BACK is block t of the layer's output. -/
theorem flushed_eq (c : Dev nD) (S : S50000x128.Idx → EReal) (D : S50000x1.Idx → EReal) (B : S1x128.Idx → EReal)
    (W : S128x128.Idx → EReal) (hS : V c (Pipeline.arrRef spec2 0) = S) (hD : V c (Pipeline.arrRef spec2 1) = D)
    (hB : V c (Pipeline.arrRef spec2 2) = B) (hW : V c (Pipeline.arrRef spec2 3) = W) (t : Fin cfg2.N) :
    (dat2 (F := Ideal) V c).flushed 4 t = ((cfg2.win 4).blk t).view.read (Elt Ideal) (layer S D B W) := by
  show (cfg2.win 4).cut (grid2.coords t) ((dat2 (F := Ideal) V c).after 4 t) = _
  rw [after2_4]
  unfold out2_4
  rw [View.canon_unit_zero zeroOffsets]
  simp only [View.ld_unit_zero (S := S5000x128) zeroOffsets, View.ld_unit_zero (S := S5000x1) zeroOffsets,
    View.ld_unit_zero (S := S1x128) zeroOffsets, View.ld_unit_zero (S := S128x128) zeroOffsets]
  funext y
  have hp : (y 0).val < 5000 := (y 0).isLt
  have hq : (y 1).val < 128 := (y 1).isLt
  obtain ⟨-, -, -, -, -, -, -, -, e0, e1⟩ := blockIndex t
  have e : (win2 4).xinj (grid2.coords t) y = ix2 (⟨(y 0).val, hp⟩ : Fin 5000) (⟨(y 1).val, hq⟩ : Fin 128) :=
    funext fun a => match a with | ⟨0, _⟩ => rfl | ⟨1, _⟩ => rfl
  show k2_pay1 (F := Ideal) (iblk2 V c 0 t) (iblk2 V c 1 t) (iblk2 V c 2 t) (iblk2 V c 3 t) (iblk2 V c 1 t)
      ((win2 4).xinj (grid2.coords t) y)
    = layerAt S D B W ((((cfg2.win 4).blk t).view.emb y) 0) ((((cfg2.win 4).blk t).view.emb y) 1)
  refine (congrArg (k2_pay1 (F := Ideal) (iblk2 V c 0 t) (iblk2 V c 1 t) (iblk2 V c 2 t) (iblk2 V c 3 t)
    (iblk2 V c 1 t)) e).trans ?_
  refine block_eq V c S D B W hS hD hB hW t _ _ _ _ ?_ ?_
  · show win2_4.index t (0 : Fin 2) * 5000 + 1 * (y 0).val = 5000 * t.val + (y 0).val; omega
  · refine Fin.ext ?_
    show win2_4.index t (1 : Fin 2) * 128 + 1 * (y 1).val = (y 1).val; omega

/-- An index of the output array is in point t's block iff each coordinate is in the block's range on its axis. -/
theorem mem_block (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v42).slice (win2_4.rect t)).set ↔ _
  rw [View.set_slice_whole, Rect.mem_set_unit]
  exact Iff.rfl

/-- Row r of the output is written back by point r / 5000. -/
theorem covered (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := blockIndex t
  refine ⟨t, flush2_4 t, ?_⟩
  rw [mem_block]
  intro a
  match a with
  | ⟨0, _⟩ =>
    show win2_4.index t (0 : Fin 2) * 5000 ≤ (i 0).val ∧ (i 0).val < win2_4.index t (0 : Fin 2) * 5000 + 5000; omega
  | ⟨1, _⟩ =>
    show win2_4.index t (1 : Fin 2) * 128 ≤ (i 1).val ∧ (i 1).val < win2_4.index t (1 : Fin 2) * 128 + 128; omega

/-- THE OUTPUT ARRAY after the ten points is the layer's output. -/
theorem final (c : Dev nD) (S : S50000x128.Idx → EReal) (D : S50000x1.Idx → EReal) (B : S1x128.Idx → EReal)
    (W : S128x128.Idx → EReal) (hS : V c (Pipeline.arrRef spec2 0) = S) (hD : V c (Pipeline.arrRef spec2 1) = D)
    (hB : V c (Pipeline.arrRef spec2 2) = B) (hW : V c (Pipeline.arrRef spec2 3) = W) :
    (dat2 (F := Ideal) V c).arrAt 4 cfg2.N = layer S D B W :=
  (dat2 (F := Ideal) V c).arrAt_eq_of_cover 4 (layer S D B W) (fun t _ => flushed_eq V c S D B W hS hD hB hW t) covered

/-- Region 2's output array: the previous layer's scattered sums rescaled by the destination factor, biased and clipped at
    zero, then contracted with the next weight matrix and scaled by the source factor of the row. -/
theorem value (c : Dev nD) (S : S50000x128.Idx → EReal) (D : S50000x1.Idx → EReal) (B : S1x128.Idx → EReal) (W : S128x128.Idx → EReal)
    (hS : V c (Pipeline.arrRef spec2 0) = S) (hD : V c (Pipeline.arrRef spec2 1) = D) (hB : V c (Pipeline.arrRef spec2 2) = B)
    (hW : V c (Pipeline.arrRef spec2 3) = W) (v : Fin 50000) (j : Fin 128) :
    (dat2 (F := Ideal) V c).arrAt 4 cfg2.N (ix2 v j)
      = (∑ q : Fin 128, max (S (ix2 v q) * D (ix2 v 0) + B (ix2 0 q)) 0 * W (ix2 q j)) * D (ix2 v 0) := by
  rw [final V c S D B W hS hD hB hW]
  rfl

end Cert.KernelIdeal.Region2

end
-- ==== Proof.KLayer2.lean ====
/-
  The kernel's layer 2: region 2 rescales the scattered sums of the layer before by the destination's degree factor, adds
  the bias, clips at zero, projects by the next weight matrix and scales by the source's factor; the host operations
  after it gather those rows by source and add them up by destination.
-/
import proofs.«401719_j47906065219800_3_alg».proof.Proof.KLayer1
import proofs.«401719_j47906065219800_3_alg».proof.Proof.Region2
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

abbrev aB1 (c : Dev nD) : Fin 128 → EReal := vec (m ((c : Thread nD τ).loc main_arg6))
abbrev aW2 (c : Dev nD) : M 128 128 := mat (m ((c : Thread nD τ).loc main_arg7))

/-- The clipped activations region 2 forms from the scattered sums before it. -/
abbrev act2 (c : Dev nD) : M 50000 128 := kAct (disF m c) (kScat (HostT.iS (argE m c)) (HostT.iD (argE m c)) (disF m c) (act1 m c) (aW1 m c)) (aB1 m c)

/-- Region 2's output array, and the scattered sums the host forms from it. -/
abbrev H2 (c : Dev nD) : FVec Ideal (HostT.T2 50000 128) .f32 := W8 m ρ c (Proc.devRef .tc main_v42)
abbrev S2 (c : Dev nD) : FVec Ideal (HostT.T2 50000 128) .f32 := W9 m ρ c (Proc.devRef .tc main_v52)

theorem entry2_b (c : Dev nD) :
    V7 m ρ c (Pipeline.arrRef spec2 2) = shapeCast S1x128 (m ((c : Thread nD τ).loc main_arg6)) shapeCasts_S128_S1x128 := by
  show StableHlo.after hostOps2 (W6 m ρ c) (Proc.devRef .tc main_v41) = _
  after_results
  rw [W6_arg6]
  rfl

/-- REGION 2's OUTPUT: row v of (clipped activations)·W scaled by dis v. -/
theorem h2_value (c : Dev nD) (v : Fin 50000) (j : Fin 128) :
    H2 m ρ c (ix2 v j) = mm (act2 m c) (aW2 m c) v j * disF m c v := by
  show W8 m ρ c (Proc.devRef .tc main_v42) (ix2 v j) = _
  rw [show W8 m ρ c (Proc.devRef .tc main_v42) = (dat2 (V7 m ρ) c).arrAt 4 cfg2.N from W8_arr m ρ c 4]
  rw [Cert.KernelIdeal.Region2.value (V7 m ρ) c (S1 m ρ c) _ _ _ rfl (W7_dis m ρ c) (entry2_b m ρ c)
    (W7_arg7 m ρ c) v j]
  rw [Cert.Column.shapeCast_a_a1_apply]
  show (∑ q : Fin 128, _) * _ = (∑ q : Fin 128, _) * _
  refine congrArg₂ (· * ·) (Finset.sum_congr rfl fun q _ => ?_) rfl
  rw [shapeCast_b_1b_apply, s1_value]
  rfl

set_option maxHeartbeats 1000000 in
/-- THE NEXT SCATTERED SUMS, as the host operations spell them. -/
theorem s2_array (c : Dev nD) :
    S2 m ρ c
      = Host.scatterAdd (F := Ideal) (φ := .f32) (rowScatter 50000 850000 128 (by decide))
          (broadcastInDim (HostT.T2 50000 128) ![] (by decide) (constant HostT.T0 .f32 0x00000000#32)) (HostT.iD (argE m c))
          (Host.gather (rowGather 50000 850000 128 (by decide)) (H2 m ρ c) (HostT.iS (argE m c))) := by
  show StableHlo.after hostOps3 (W8 m ρ c) (Proc.devRef .tc main_v52) = _
  after_results_simp
  rw [W8_src, W8_dst]
  rfl

/-- Over the edges landing on v, the source's scaled projected row of this layer. -/
theorem s2_value (c : Dev nD) (v : Fin 50000) (j : Fin 128) :
    S2 m ρ c (ix2 v j) = kScat (HostT.iS (argE m c)) (HostT.iD (argE m c)) (disF m c) (act2 m c) (aW2 m c) v j := by
  rw [s2_array, edgeSum_apply]
  unfold kScat
  exact Finset.sum_congr rfl fun e _ => h2_value m ρ c _ j

end Cert.KernelIdeal.KVal

end
-- ==== Proof.Region3a.lean ====
/-
  Region 3 (the mean pool), its body's pieces and payloads.

  At every grid point the body adds, into the [256,128] accumulator, the product of a [256,2048] membership matrix
  (entry (g, n) is one where the batch word of the block's column n is the word of g, else zero) with the block's 2048
  rescaled, biased rows. The first point resets the accumulator to zero before it adds; the last point scales the
  finished accumulator's row g by the reciprocal-count column's entry g. This module reads what each of the three
  control cases leaves in the buffer as a payload of the point's blocks, and reads each payload at an index.
-/
import proofs.«401719_j47906065219800_3_alg».proof.Proof.Gen.KernelIdeal.Frame
import proofs.«401719_j47906065219800_3_alg».proof.Proof.LibColumn
import proofs.«401719_j47906065219800_3_alg».proof.Proof.LibMatmul
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.Tactic

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

section Pieces
variable {F : FTy → Type} [FloatOps F]

theorem hz : (![0, 0] : Fin 2 → Nat) = fun _ => 0 := funext fun a => by fin_cases a <;> rfl

/-- A middle point: the buffer holding xo5 ends holding the accumulation payload of the point's blocks over xo5. -/
theorem out_B (c : Dev nD) (i : grid3.Coords) (arg1 : Memref sig .tc .vmem S1x2048 .i32) (harg1 : arg1.IsWhole) (arg2 : Memref sig .tc .vmem S2048x128 .f32) (harg2 : arg2.IsWhole) (arg3 : Memref sig .tc .vmem S2048x1 .f32) (harg3 : arg3.IsWhole) (arg4 : Memref sig .tc .vmem S1x128 .f32) (harg4 : arg4.IsWhole) (arg5 : Memref sig .tc .vmem S256x1 .f32) (harg5 : arg5.IsWhole) (arg6 : Memref sig .tc .vmem S256x128 .f32) (harg6 : arg6.IsWhole) (hc0 : ¬cond3_0 i) (hc1 : ¬cond3_1 i)
    (x0 : Vec F S1x2048 .i32) (x1 : Vec F S2048x128 .f32) (x2 : Vec F S2048x1 .f32) (x3 : Vec F S1x128 .f32) (x4 : Vec F S256x1 .f32) (xo5 : Vec F S256x128 .f32) :
    out3_B_5 c i arg1 harg1 arg2 harg2 arg3 harg3 arg4 harg4 arg5 harg5 arg6 harg6 hc0 hc1 x0 x1 x2 x3 x4 xo5 = k3_pay2 x1 x2 x3 x0 xo5 := by
  unfold out3_B_5
  rw [View.read_writes_eq_canon _ _ _ (cover3_B_5 c i arg1 harg1 arg2 harg2 arg3 harg3 arg4 harg4 arg5 harg5 arg6 harg6 hc0 hc1 x0 x1 x2 x3 x4 xo5)]
  unfold kernelRun3_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S1x2048) hz, View.ld_unit_zero (S := S2048x128) hz, View.ld_unit_zero (S := S2048x1) hz,
    View.ld_unit_zero (S := S1x128) hz, View.ld_unit_zero (S := S256x1) hz, View.ld_unit_zero (S := S256x128) hz]

/-- The first point: the buffer is reset to the zero block, read back, and ends holding the accumulation payload over it. -/
theorem out_A (c : Dev nD) (i : grid3.Coords) (arg1 : Memref sig .tc .vmem S1x2048 .i32) (harg1 : arg1.IsWhole) (arg2 : Memref sig .tc .vmem S2048x128 .f32) (harg2 : arg2.IsWhole) (arg3 : Memref sig .tc .vmem S2048x1 .f32) (harg3 : arg3.IsWhole) (arg4 : Memref sig .tc .vmem S1x128 .f32) (harg4 : arg4.IsWhole) (arg5 : Memref sig .tc .vmem S256x1 .f32) (harg5 : arg5.IsWhole) (arg6 : Memref sig .tc .vmem S256x128 .f32) (harg6 : arg6.IsWhole) (hc0 : cond3_0 i) (hc1 : ¬cond3_1 i)
    (x0 : Vec F S1x2048 .i32) (x1 : Vec F S2048x128 .f32) (x2 : Vec F S2048x1 .f32) (x3 : Vec F S1x128 .f32) (x4 : Vec F S256x1 .f32) :
    out3_A_5 c i arg1 harg1 arg2 harg2 arg3 harg3 arg4 harg4 arg5 harg5 arg6 harg6 hc0 hc1 x0 x1 x2 x3 x4 = k3_pay2 x1 x2 x3 x0 (k3_pay1 (F := F)) := by
  unfold out3_A_5
  rw [View.read_writes_eq_canon _ _ _ (cover3_A_5 c i arg1 harg1 arg2 harg2 arg3 harg3 arg4 harg4 arg5 harg5 arg6 harg6 hc0 hc1 x0 x1 x2 x3 x4)]
  unfold kernelRun3_A
  dsimp only
  sl_unfold_words
  rw [View.canon_cons_unit_zero (S := S256x128) hz, View.readCov_unit_zero (S := S256x128) _ hz]
  simp only [View.readAt_eq_ld, harg1.read_unread, harg2.read_unread, harg3.read_unread, harg4.read_unread, harg5.read_unread, harg6.read_unread,
    View.ld_unit_zero (S := S1x2048) hz, View.ld_unit_zero (S := S2048x128) hz, View.ld_unit_zero (S := S2048x1) hz,
    View.ld_unit_zero (S := S1x128) hz, View.ld_unit_zero (S := S256x1) hz, View.ld_unit_zero (S := S256x128) hz]

/-- The last point: the accumulation payload over xo5, read back and scaled by the column x4. -/
theorem out_C (c : Dev nD) (i : grid3.Coords) (arg1 : Memref sig .tc .vmem S1x2048 .i32) (harg1 : arg1.IsWhole) (arg2 : Memref sig .tc .vmem S2048x128 .f32) (harg2 : arg2.IsWhole) (arg3 : Memref sig .tc .vmem S2048x1 .f32) (harg3 : arg3.IsWhole) (arg4 : Memref sig .tc .vmem S1x128 .f32) (harg4 : arg4.IsWhole) (arg5 : Memref sig .tc .vmem S256x1 .f32) (harg5 : arg5.IsWhole) (arg6 : Memref sig .tc .vmem S256x128 .f32) (harg6 : arg6.IsWhole) (hc0 : ¬cond3_0 i) (hc1 : cond3_1 i)
    (x0 : Vec F S1x2048 .i32) (x1 : Vec F S2048x128 .f32) (x2 : Vec F S2048x1 .f32) (x3 : Vec F S1x128 .f32) (x4 : Vec F S256x1 .f32) (xo5 : Vec F S256x128 .f32) :
    out3_C_5 c i arg1 harg1 arg2 harg2 arg3 harg3 arg4 harg4 arg5 harg5 arg6 harg6 hc0 hc1 x0 x1 x2 x3 x4 xo5 = k3_pay3 (k3_pay2 x1 x2 x3 x0 xo5) x4 := by
  unfold out3_C_5
  rw [View.read_writes_eq_canon _ _ _ (cover3_C_5 c i arg1 harg1 arg2 harg2 arg3 harg3 arg4 harg4 arg5 harg5 arg6 harg6 hc0 hc1 x0 x1 x2 x3 x4 xo5)]
  unfold kernelRun3_C
  dsimp only
  sl_unfold_words
  rw [View.canon_cons_unit_zero (S := S256x128) hz, View.readCov_unit_zero (S := S256x128) _ hz]
  simp only [View.readAt_eq_ld, harg1.read_unread, harg2.read_unread, harg3.read_unread, harg4.read_unread, harg5.read_unread, harg6.read_unread,
    View.ld_unit_zero (S := S1x2048) hz, View.ld_unit_zero (S := S2048x128) hz, View.ld_unit_zero (S := S2048x1) hz,
    View.ld_unit_zero (S := S1x128) hz, View.ld_unit_zero (S := S256x1) hz, View.ld_unit_zero (S := S256x128) hz]

end Pieces

section Payloads

/-- The contraction record of the pooling product is the plain 256 x 2048 by 2048 x 128 one. -/
theorem dot_eq : dot_S256x2048_S2048x128_S256x128_1_0_0_1_n_n = DotDims.plain 256 2048 128 := rfl

/-- The rescaled, biased row block at (r, j): row r of the sums times row r's factor, plus the bias at j. -/
theorem rows_apply (v3 : Vec Ideal S2048x128 .f32) (v5 : Vec Ideal S2048x1 .f32) (v9 : Vec Ideal S1x128 .f32)
    (h1 : S2048x128.ShapeCasts S2048x128) (h2 : S2048x1.ShapeCasts S2048x1) (h3 : S2048x1.Broadcasts S2048x128)
    (h4 : S1x128.ShapeCasts S1x128) (h5 : S1x128.Broadcasts S2048x128) (h6 : FTy.bf16.bits < FTy.f32.bits)
    (r : Fin 2048) (j : Fin 128) :
    (truncf .bf16 (addf (mulf (shapeCast S2048x128 v3 h1) (broadcastTo S2048x128 (shapeCast S2048x1 v5 h2) h3))
        (broadcastTo S2048x128 (shapeCast S1x128 v9 h4) h5)) h6 : FVec Ideal S2048x128 .bf16) (ix2 r j)
      = v3 (ix2 r j) * v5 (ix2 r 0) + v9 (ix2 0 j) := by
  rw [shapeCast_self, shapeCast_self, shapeCast_self]
  show v3 (ix2 r j) * broadcastTo S2048x128 v5 h3 (ix2 r j) + broadcastTo S2048x128 v9 h5 (ix2 r j) = _
  rw [Cert.Column.broadcastTo_a1_ab_apply, broadcastTo_1b_ab_apply]

/-- The membership matrix at (g, n): one where the batch word of column n is the word of g, else zero. -/
theorem onehot_apply (v15 : Vec Ideal S1x2048 .i32) (h1 : S256x2048.Iotas .tc 32 [0]) (h2 : S1x2048.ShapeCasts S1x2048)
    (h3 : S1x2048.Broadcasts S256x2048) (h4 : 1 < 32) (h5 : FTy.bf16.bits < FTy.f32.bits) (g : Fin 256) (n : Fin 2048) :
    (truncf .bf16 (sitofp .f32 (extui 32 (cmpi .eq (iota .tc S256x2048 32 [0] h1)
        (broadcastTo S256x2048 (shapeCast S1x2048 v15 h2) h3)) h4) : FVec Ideal S256x2048 .f32) h5 : FVec Ideal S256x2048 .bf16) (ix2 g n)
      = if v15 (ix2 0 n) = BitVec.ofNat 32 g.val then (1 : EReal) else 0 := by
  rw [shapeCast_self]
  show ((((IntOp.cmpi .eq (iota .tc S256x2048 32 [0] h1 (ix2 g n)) (broadcastTo S256x2048 v15 h3 (ix2 g n))).setWidth 32).toInt : ℝ) : EReal) = _
  rw [iota_single_apply, broadcastTo_1b_ab_apply]
  show ((((IntOp.cmpi .eq (BitVec.ofNat 32 g.val) (v15 (ix2 0 n))).setWidth 32).toInt : ℝ) : EReal) = _
  by_cases h : v15 (ix2 0 n) = BitVec.ofNat 32 g.val
  · rw [if_pos h, StableHlo.Predicate.cmpi_eq_iff.mpr h.symm]
    show (((1 : ℤ) : ℝ) : EReal) = 1
    simp
  · rw [if_neg h, eq_zero_of_ne_one (fun hc => h (StableHlo.Predicate.cmpi_eq_iff.mp hc).symm)]
    show (((0 : ℤ) : ℝ) : EReal) = 0
    simp

/-- THE ACCUMULATION PAYLOAD at (g, j): what the buffer held there, plus the sum over the block's 2048 rows of the
    membership entry times the rescaled, biased row entry. -/
theorem pay2_apply (v3 : Vec Ideal S2048x128 .f32) (v5 : Vec Ideal S2048x1 .f32) (v9 : Vec Ideal S1x128 .f32)
    (v15 : Vec Ideal S1x2048 .i32) (v22 : Vec Ideal S256x128 .f32) (g : Fin 256) (j : Fin 128) :
    k3_pay2 v3 v5 v9 v15 v22 (ix2 g j)
      = v22 (ix2 g j) + ∑ r : Fin 2048, (if v15 (ix2 0 r) = BitVec.ofNat 32 g.val then (1 : EReal) else 0)
            * (v3 (ix2 r j) * v5 (ix2 r 0) + v9 (ix2 0 j)) := by
  unfold k3_pay2
  rw [shapeCast_self, dot_eq]
  refine congrArg (fun z : EReal => v22 (ix2 g j) + z) ?_
  refine (Cert.Matmul.matmul_plain_apply none _ _ g j).trans ?_
  refine Finset.sum_congr rfl fun r _ => ?_
  rw [onehot_apply, rows_apply]

/-- The reset payload is zero everywhere. -/
theorem pay1_apply (i : S256x128.Idx) : (k3_pay1 (F := Ideal)) i = 0 := by
  unfold k3_pay1
  show Ideal.ofBits .f32 0x00000000#32 = 0
  exact Ideal.ofBits_zero_f32

/-- The scaling payload at (g, j): the buffer's entry times the column's entry at g. -/
theorem pay3_apply (v30 : Vec Ideal S256x128 .f32) (v32 : Vec Ideal S256x1 .f32) (g : Fin 256) (j : Fin 128) :
    k3_pay3 v30 v32 (ix2 g j) = v30 (ix2 g j) * v32 (ix2 g 0) := by
  unfold k3_pay3
  rw [shapeCast_self, shapeCast_self]
  show v30 (ix2 g j) * broadcastTo S256x128 v32 _ (ix2 g j) = _
  rw [Cert.Column.broadcastTo_a1_ab_apply]

end Payloads

end Cert.KernelIdeal.Region3

end
-- ==== Proof.Region3b.lean ====
/-
  Region 3 (the mean pool), its blocks and its grid steps.

  Grid point t reads columns 2048 t to 2048 t + 2047 of the padded batch row and the same rows of the padded scattered sums
  and of the padded factor column; the bias row, the reciprocal-count column and the [256,128] accumulator are whole at every
  point. So what point t adds to the accumulator at (g, j) is the sum, over those 2048 rows n, of the membership entry of
  (g, n) times the rescaled, biased row entry (n, j). The first point leaves that sum alone, a middle point adds it to what
  the point before left, and the last point adds it and scales row g by the reciprocal count of g.
-/
import proofs.«401719_j47906065219800_3_alg».proof.Proof.Region3a

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

section Value

variable (V : (c : Dev nD) → (b : Ref sig .tc) → Buf (Elt Ideal) ((c : Thread nD τ).loc b)) (c : Dev nD)

/-- The five input arrays of the region, as the region finds them, at their literal types: the padded batch row, the padded
    scattered sums, the padded factor column, the bias row, the reciprocal-count column. -/
abbrev aBt : S1x51200.Idx → BitVec 32 := V c (Pipeline.arrRef spec3 0)
abbrev aS : S51200x128.Idx → EReal := V c (Pipeline.arrRef spec3 1)
abbrev aD : S51200x1.Idx → EReal := V c (Pipeline.arrRef spec3 2)
abbrev aB : S1x128.Idx → EReal := V c (Pipeline.arrRef spec3 3)
abbrev aI : S256x1.Idx → EReal := V c (Pipeline.arrRef spec3 4)

/-- Row 2048 t + r of the padded node arrays: the row that block t's row r is. -/
def rowOf (t r : ℕ) : Fin 51200 := ⟨(2048 * t + r) % 51200, Nat.mod_lt _ (by decide)⟩

/-- The windows' block indices at a point: the batch row moves along its columns, the sums and the factor column along
    their rows, with the point; the bias, the reciprocal counts and the accumulator stay at block (0, 0). -/
theorem idx_facts : ∀ t : Fin cfg3.N,
    win3_0.index t 0 = 0 ∧ win3_0.index t 1 = t.val ∧ win3_1.index t 0 = t.val ∧ win3_1.index t 1 = 0
    ∧ win3_2.index t 0 = t.val ∧ win3_2.index t 1 = 0 ∧ win3_3.index t 0 = 0 ∧ win3_3.index t 1 = 0
    ∧ win3_4.index t 0 = 0 ∧ win3_4.index t 1 = 0 ∧ win3_5.index t 0 = 0 ∧ win3_5.index t 1 = 0 :=
  (by decide +kernel : ∀ t : Fin grid3.N,
    win3_0.index t 0 = 0 ∧ win3_0.index t 1 = t.val ∧ win3_1.index t 0 = t.val ∧ win3_1.index t 1 = 0
    ∧ win3_2.index t 0 = t.val ∧ win3_2.index t 1 = 0 ∧ win3_3.index t 0 = 0 ∧ win3_3.index t 1 = 0
    ∧ win3_4.index t 0 = 0 ∧ win3_4.index t 1 = 0 ∧ win3_5.index t 0 = 0 ∧ win3_5.index t 1 = 0)

/-- Block t of the batch row reads, at column r, the row's column 2048 t + r. -/
theorem blk0_apply (t : Fin cfg3.N) (r : Fin 2048) :
    (iblk3 V c 0 t : Vec Ideal S1x2048 .i32) (ix2 0 r) = aBt V c (ix2 0 (rowOf t.val r.val)) := by
  have hN : t.val < 25 := lt_of_lt_of_eq t.isLt (show cfg3.N = 25 from N_3)
  obtain ⟨h0, h1, -⟩ := idx_facts t
  unfold iblk3
  rw [View.read_apply]
  show aBt V c _ = aBt V c _
  refine congrArg (aBt V c) (funext fun a => Fin.ext ?_)
  match a with
  | ⟨0, _⟩ => show win3_0.index t 0 * 1 + 1 * 0 = 0; rw [h0]
  | ⟨1, _⟩ => show win3_0.index t 1 * 2048 + 1 * r.val = (2048 * t.val + r.val) % 51200; rw [h1]; omega

/-- Block t of the scattered sums reads, at (r, j), the sums' row 2048 t + r at j. -/
theorem blk1_apply (t : Fin cfg3.N) (r : Fin 2048) (j : Fin 128) :
    (iblk3 V c 1 t : Vec Ideal S2048x128 .f32) (ix2 r j) = aS V c (ix2 (rowOf t.val r.val) j) := by
  have hN : t.val < 25 := lt_of_lt_of_eq t.isLt (show cfg3.N = 25 from N_3)
  obtain ⟨-, -, h0, h1, -⟩ := idx_facts t
  unfold iblk3
  rw [View.read_apply]
  show aS V c _ = aS V c _
  refine congrArg (aS V c) (funext fun a => Fin.ext ?_)
  match a with
  | ⟨0, _⟩ => show win3_1.index t 0 * 2048 + 1 * r.val = (2048 * t.val + r.val) % 51200; rw [h0]; omega
  | ⟨1, _⟩ => show win3_1.index t 1 * 128 + 1 * j.val = j.val; rw [h1]; omega

/-- Block t of the factor column reads, at row r, the column's row 2048 t + r. -/
theorem blk2_apply (t : Fin cfg3.N) (r : Fin 2048) :
    (iblk3 V c 2 t : Vec Ideal S2048x1 .f32) (ix2 r 0) = aD V c (ix2 (rowOf t.val r.val) 0) := by
  have hN : t.val < 25 := lt_of_lt_of_eq t.isLt (show cfg3.N = 25 from N_3)
  obtain ⟨-, -, -, -, h0, h1, -⟩ := idx_facts t
  unfold iblk3
  rw [View.read_apply]
  show aD V c _ = aD V c _
  refine congrArg (aD V c) (funext fun a => Fin.ext ?_)
  match a with
  | ⟨0, _⟩ => show win3_2.index t 0 * 2048 + 1 * r.val = (2048 * t.val + r.val) % 51200; rw [h0]; omega
  | ⟨1, _⟩ => show win3_2.index t 1 * 1 + 1 * 0 = 0; rw [h1]

/-- The bias row's one block is the row. -/
theorem blk3_apply (t : Fin cfg3.N) (j : Fin 128) :
    (iblk3 V c 3 t : Vec Ideal S1x128 .f32) (ix2 0 j) = aB V c (ix2 0 j) := by
  have hN : t.val < 25 := lt_of_lt_of_eq t.isLt (show cfg3.N = 25 from N_3)
  obtain ⟨-, -, -, -, -, -, h0, h1, -⟩ := idx_facts t
  unfold iblk3
  rw [View.read_apply]
  show aB V c _ = aB V c _
  refine congrArg (aB V c) (funext fun a => Fin.ext ?_)
  match a with
  | ⟨0, _⟩ => show win3_3.index t 0 * 1 + 1 * 0 = 0; rw [h0]
  | ⟨1, _⟩ => show win3_3.index t 1 * 128 + 1 * j.val = j.val; rw [h1]; omega

/-- The reciprocal-count column's one block is the column. -/
theorem blk4_apply (t : Fin cfg3.N) (g : Fin 256) :
    (iblk3 V c 4 t : Vec Ideal S256x1 .f32) (ix2 g 0) = aI V c (ix2 g 0) := by
  have hN : t.val < 25 := lt_of_lt_of_eq t.isLt (show cfg3.N = 25 from N_3)
  obtain ⟨-, -, -, -, -, -, -, -, h0, h1, -⟩ := idx_facts t
  unfold iblk3
  rw [View.read_apply]
  show aI V c _ = aI V c _
  refine congrArg (aI V c) (funext fun a => Fin.ext ?_)
  match a with
  | ⟨0, _⟩ => show win3_4.index t 0 * 256 + 1 * g.val = g.val; rw [h0]; omega
  | ⟨1, _⟩ => show win3_4.index t 1 * 1 + 1 * 0 = 0; rw [h1]

/-- Node row n's contribution to graph g at lane j: its rescaled, biased row entry where its batch word is g's, else zero. -/
def term (Bt : S1x51200.Idx → BitVec 32) (S : S51200x128.Idx → EReal) (D : S51200x1.Idx → EReal) (B : S1x128.Idx → EReal)
    (g : Fin 256) (j : Fin 128) (n : Fin 51200) : EReal :=
  (if Bt (ix2 0 n) = BitVec.ofNat 32 g.val then (1 : EReal) else 0) * (S (ix2 n j) * D (ix2 n 0) + B (ix2 0 j))

/-- What grid point t adds to graph g at lane j: the contributions of block t's 2048 rows. -/
def blockSum (Bt : S1x51200.Idx → BitVec 32) (S : S51200x128.Idx → EReal) (D : S51200x1.Idx → EReal) (B : S1x128.Idx → EReal)
    (t : ℕ) (g : Fin 256) (j : Fin 128) : EReal := ∑ r : Fin 2048, term Bt S D B g j (rowOf t r.val)

/-- The accumulation payload of point t's blocks over any buffer contents: the contents plus what point t adds. -/
theorem acc_apply (t : Fin cfg3.N) (xo : Vec Ideal S256x128 .f32) (g : Fin 256) (j : Fin 128) :
    k3_pay2 (iblk3 V c 1 t) (iblk3 V c 2 t) (iblk3 V c 3 t) (iblk3 V c 0 t) xo (ix2 g j)
      = xo (ix2 g j) + blockSum (aBt V c) (aS V c) (aD V c) (aB V c) t.val g j := by
  refine (pay2_apply (iblk3 V c 1 t) (iblk3 V c 2 t) (iblk3 V c 3 t) (iblk3 V c 0 t) xo g j).trans ?_
  refine congrArg (fun z : EReal => xo (ix2 g j) + z) ?_
  refine Finset.sum_congr rfl fun r _ => ?_
  rw [blk0_apply V c t r, blk1_apply V c t r j, blk2_apply V c t r, blk3_apply V c t j]
  rfl

/-- After the first point the accumulator holds what that point adds. -/
theorem step_A (t : Fin cfg3.N) (h0 : t.val % 25 = 0) (h1 : ¬t.val % 25 = 24) (g : Fin 256) (j : Fin 128) :
    outsAt3 V c t.val t.isLt (ix2 g j) = blockSum (aBt V c) (aS V c) (aD V c) (aB V c) t.val g j := by
  rw [outsAt3_A V c t h0 h1]
  refine (congrFun (out_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (fun h => h1 ((hcond3_1 t).mp h)) (iblk3 V c 0 t) (iblk3 V c 1 t) (iblk3 V c 2 t) (iblk3 V c 3 t) (iblk3 V c 4 t)) (ix2 g j)).trans ?_
  refine (acc_apply V c t (k3_pay1 (F := Ideal)) g j).trans ?_
  rw [pay1_apply, zero_add]

/-- After a middle point the accumulator holds what it held after the point before, plus what this point adds. -/
theorem step_B (t : Fin cfg3.N) (h0 : ¬t.val % 25 = 0) (h1 : ¬t.val % 25 = 24) (g : Fin 256) (j : Fin 128) :
    outsAt3 V c t.val t.isLt (ix2 g j)
      = (outsAt3 V c (t.val - 1) (Nat.lt_of_le_of_lt (Nat.sub_le _ _) t.isLt)) (ix2 g j) + blockSum (aBt V c) (aS V c) (aD V c) (aB V c) t.val g j := by
  rw [outsAt3_B V c t h0 h1]
  refine (congrFun (out_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt))) (ix2 g j)).trans ?_
  exact acc_apply V c t (outsAt3 V c (t.val - 1) (Nat.lt_of_le_of_lt (Nat.sub_le _ _) t.isLt)) g j

/-- After the last point the accumulator holds the same sum, scaled by the graph's reciprocal count. -/
theorem step_C (t : Fin cfg3.N) (h0 : ¬t.val % 25 = 0) (h1 : t.val % 25 = 24) (g : Fin 256) (j : Fin 128) :
    outsAt3 V c t.val t.isLt (ix2 g j)
      = ((outsAt3 V c (t.val - 1) (Nat.lt_of_le_of_lt (Nat.sub_le _ _) t.isLt)) (ix2 g j) + blockSum (aBt V c) (aS V c) (aD V c) (aB V c) t.val g j) * aI V c (ix2 g 0) := by
  rw [outsAt3_C V c t h0 h1]
  refine (congrFun (out_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt))) (ix2 g j)).trans ?_
  refine (pay3_apply _ (iblk3 V c 4 t) g j).trans ?_
  rw [blk4_apply V c t g, acc_apply V c t (outsAt3 V c (t.val - 1) (Nat.lt_of_le_of_lt (Nat.sub_le _ _) t.isLt)) g j]

end Value

end Cert.KernelIdeal.Region3

end
-- ==== Proof.Region3.lean ====
/-
  Region 3 (the mean pool), its output array.

  By induction on the grid point the [256,128] accumulator holds, after point n before the last, what points 0 to n add:
  at (g, j) the sum over the first 2048 (n + 1) padded node rows of the membership entry times the rescaled, biased row
  entry. The 25 blocks of 2048 rows are the 51200 rows, so after the last point, which also scales row g by the reciprocal
  count of g, the accumulator is the pooled array; its one write-back, after the last point, covers the output array.
-/
import proofs.«401719_j47906065219800_3_alg».proof.Proof.Gen.KernelIdeal.Frame
import proofs.«401719_j47906065219800_3_alg».proof.Proof.Region3b
import Idealize.ShloMosaic.Lib.ValueIdx
import Idealize.ShloMosaic.Lib.Pipeline.Value
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

section Final

variable (V : (c : Dev nD) → (b : Ref sig .tc) → Buf (Elt Ideal) ((c : Thread nD τ).loc b))
variable (c : Dev nD)

/-- THE INVARIANT: after point n, before the last, the accumulator holds what points 0 to n add. -/
theorem outsAt_eq (g : Fin 256) (j : Fin 128) : ∀ (n : ℕ) (h : n < cfg3.N), n < 24 →
      outsAt3 V c n h (ix2 g j) = ∑ t ∈ Finset.range (n + 1), blockSum (aBt V c) (aS V c) (aD V c) (aB V c) t g j
  | 0, h, _ => by
    rw [Finset.sum_range_one]
    exact step_A V c ⟨0, h⟩ (Nat.zero_mod 25) (by dsimp only; omega) g j
  | n + 1, h, hlt => by
    have h0 : ¬(⟨n + 1, h⟩ : Fin cfg3.N).val % 25 = 0 := by dsimp only; omega
    have h1 : ¬(⟨n + 1, h⟩ : Fin cfg3.N).val % 25 = 24 := by dsimp only; omega
    rw [Finset.sum_range_succ, ← outsAt_eq g j n (Nat.lt_of_succ_lt h) (by omega)]
    exact step_B V c ⟨n + 1, h⟩ h0 h1 g j

/-- The 25 blocks of 2048 rows are the 51200 rows. -/
theorem sum_blocks (g : Fin 256) (j : Fin 128) :
    ∑ t ∈ Finset.range 25, blockSum (aBt V c) (aS V c) (aD V c) (aB V c) t g j = ∑ n : Fin 51200, term (aBt V c) (aS V c) (aD V c) (aB V c) g j n := by
  rw [Finset.sum_range]
  unfold blockSum
  rw [← Fintype.sum_prod_type' (f := fun (t : Fin 25) (r : Fin 2048) => term (aBt V c) (aS V c) (aD V c) (aB V c) g j (rowOf t.val r.val))]
  refine Fintype.sum_equiv (finProdFinEquiv : Fin 25 × Fin 2048 ≃ Fin 51200) _ _ fun p => ?_
  refine congrArg (term (aBt V c) (aS V c) (aD V c) (aB V c) g j) (Fin.ext ?_)
  show (2048 * p.1.val + p.2.val) % 51200 = p.2.val + 2048 * p.1.val
  have := p.1.isLt; have := p.2.isLt; omega

/-- After the last point the accumulator holds every row's contribution, scaled by the reciprocal count. -/
theorem last_eq (t : Fin cfg3.N) (h24 : t.val % 25 = 24) (g : Fin 256) (j : Fin 128) :
    outsAt3 V c t.val t.isLt (ix2 g j) = (∑ n : Fin 51200, term (aBt V c) (aS V c) (aD V c) (aB V c) g j n) * aI V c (ix2 g 0) := by
  have hN : t.val < 25 := lt_of_lt_of_eq t.isLt (show cfg3.N = 25 from N_3)
  have ht : t.val = 24 := by omega
  rw [step_C V c t (by omega) h24 g j,
    outsAt_eq V c g j (t.val - 1) (Nat.lt_of_le_of_lt (Nat.sub_le _ _) t.isLt) (by omega), ← sum_blocks]
  rw [show t.val - 1 + 1 = 24 by omega, ht]
  exact congrArg (fun z : EReal => z * aI V c (ix2 g 0)) (Finset.sum_range_succ (fun t => blockSum (aBt V c) (aS V c) (aD V c) (aB V c) t g j) 24).symm

/-- The pooled array: graph g's row is the sum of its nodes' rescaled, biased rows times its reciprocal count. -/
def pooled : S256x128.Idx → EReal :=
  fun i => (∑ n : Fin 51200, term (aBt V c) (aS V c) (aD V c) (aB V c) (i 0) (i 1) n) * aI V c (ix2 (i 0) 0)

/-- The one write-back, after the last point, writes the pooled array: the accumulator's block is the whole array. -/
theorem flushed_eq (t : Fin cfg3.N) (hf : (cfg3.win 5).flush t = true) :
    (dat3 V c).flushed 5 t = ((cfg3.win 5).blk t).view.read (Elt Ideal) (pooled V c) := by
  have h24 : t.val % 25 = 24 := (flush3_5 t).mp hf
  obtain ⟨-, -, -, -, -, -, -, -, -, -, i0, i1⟩ := idx_facts t
  show (cfg3.win 5).cut (grid3.coords t) ((dat3 V c).after 5 t) = _
  rw [after3_5]
  refine funext fun (y : S256x128.Idx) => ?_
  obtain ⟨g, j, rfl⟩ : ∃ (g : Fin 256) (j : Fin 128), y = ix2 g j := ⟨y 0, y 1, eq_ix2 y⟩
  rw [View.read_apply]
  show outsAt3 V c t.val t.isLt (ix2 g j) = pooled V c (((cfg3.win 5).blk t).view.emb (ix2 g j))
  have he : ((cfg3.win 5).blk t).view.emb (ix2 g j) = (ix2 g j : S256x128.Idx) := by
    funext a
    apply Fin.ext
    match a with
    | ⟨0, _⟩ => show win3_5.index t 0 * 256 + 1 * g.val = g.val; rw [i0]; omega
    | ⟨1, _⟩ => show win3_5.index t 1 * 128 + 1 * j.val = j.val; rw [i1]; omega
  rw [he]
  exact last_eq V c t h24 g j

/-- The last grid point. -/
abbrev tLast : Fin cfg3.N := ⟨24, by rw [show cfg3.N = 25 from N_3]; decide⟩

/-- So the output array ends holding the pooled array: the last point's block covers it. -/
theorem final : (dat3 V c).arrAt 5 cfg3.N = pooled V c :=
  (dat3 V c).arrAt_eq_of_cover 5 (pooled V c) (flushed_eq V c) fun i =>
    ⟨tLast, (flush3_5 tLast).mpr (by decide), by
      show i ∈ ((View.whole main_v67).slice (win3_5.rect tLast)).set
      rw [View.set_slice_whole, Rect.mem_set_unit]
      intro a
      have h0 : (i 0 : Nat) < 256 := (i 0).isLt
      have h1 : (i 1 : Nat) < 128 := (i 1).isLt
      match a with
      | ⟨0, _⟩ =>
        show win3_5.index tLast 0 * win3_5.size 0 ≤ (i 0 : Nat) ∧ (i 0 : Nat) < win3_5.index tLast 0 * win3_5.size 0 + win3_5.xsize (grid3.coords tLast) 0
        rw [show win3_5.index tLast 0 * win3_5.size 0 = 0 from by decide +kernel, show win3_5.xsize (grid3.coords tLast) 0 = 256 from by decide +kernel]; omega
      | ⟨1, _⟩ =>
        show win3_5.index tLast 1 * win3_5.size 1 ≤ (i 1 : Nat) ∧ (i 1 : Nat) < win3_5.index tLast 1 * win3_5.size 1 + win3_5.xsize (grid3.coords tLast) 1
        rw [show win3_5.index tLast 1 * win3_5.size 1 = 0 from by decide +kernel, show win3_5.xsize (grid3.coords tLast) 1 = 128 from by decide +kernel]; omega⟩

end Final

variable (V : (c : Dev nD) → (b : Ref sig .tc) → Buf (Elt Ideal) ((c : Thread nD τ).loc b))

/-- Region 3's output array after its 25 grid points: for graph g, the sum over all 51200 (padded) node rows whose batch id
    is g of the rescaled, biased layer-2 row, times the graph's reciprocal count. -/
theorem value (c : Dev nD) (Bt : S1x51200.Idx → BitVec 32) (S : S51200x128.Idx → EReal) (D : S51200x1.Idx → EReal)
    (B : S1x128.Idx → EReal) (I : S256x1.Idx → EReal)
    (hBt : V c (Pipeline.arrRef spec3 0) = Bt) (hS : V c (Pipeline.arrRef spec3 1) = S) (hD : V c (Pipeline.arrRef spec3 2) = D)
    (hB : V c (Pipeline.arrRef spec3 3) = B) (hI : V c (Pipeline.arrRef spec3 4) = I) (g : Fin 256) (j : Fin 128) :
    (dat3 (F := Ideal) V c).arrAt 5 cfg3.N (ix2 g j)
      = (∑ n : Fin 51200, (if Bt (ix2 0 n) = BitVec.ofNat 32 g.val then (1 : EReal) else 0)
            * (S (ix2 n j) * D (ix2 n 0) + B (ix2 0 j))) * I (ix2 g 0) := by
  subst hBt hS hD hB hI
  exact congrFun (final V c) (ix2 g j)

end Cert.KernelIdeal.Region3

end
-- ==== Proof.KPoolPad.lean ====
/-
  The mean pool over padded rows.

  The kernel pads the 50000 node rows to 51200 before it pools: the batch vector with a word no graph carries, the
  scattered sums and the degree-factor column with zeros. A padded array read at row n is the operand's row n for
  n < 50000 and the padding value behind; so in the sum over the 51200 rows of (batch word = g) * (rescaled, biased row)
  the 1200 padded rows contribute zero times something, which is zero for every extended real, and the first 50000 rows
  contribute the rows of the nodes whose batch word is g. Multiplied by the reciprocal of the clipped count that is the
  kernel's mean pool.
-/
import proofs.«401719_j47906065219800_3_alg».proof.Proof.Spec
import proofs.«401719_j47906065219800_3_alg».proof.Proof.HostTerms
import proofs.«401719_j47906065219800_3_alg».proof.Proof.LibColumn
import Idealize.ShloMosaic.Lib.KernelVsHost
import Idealize.ShloMosaic.Lib.ValueIdx
import Idealize.ShloMosaic.Lib.ValueLayout

noncomputable section

namespace Cert.PoolPad

open Idealize.ShloMosaic Idealize.ShloMosaic.ValueIdx Cert.Scatter Cert.Spec Cert.HostT

/-! ## A padded array read at a row -/

section Padded

variable {α : Type}

/-- A vector of 50000 entries with 1200 copies of the padding value behind it, read at n. -/
theorem padVec_apply (x : (T1 50000).Idx → α) {u : Shape} (v : u.Idx → α)
    (h : (T1 50000).Pads (![0] : Fin 1 → Nat) ![1200] ![0] (T1 51200)) (hu : 0 < u.numel) (n : Fin 51200) :
    pad (T1 51200) ![0] ![1200] ![0] x v h hu (ix1 n)
      = if hn : n.val < 50000 then x (ix1 ⟨n.val, hn⟩) else v (Shape.Idx.first hu) := by
  by_cases hn : n.val < 50000
  · rw [dif_pos hn]
    refine pad_apply_of_inside _ _ _ x v h hu (ix1 n) (ix1 ⟨n.val, hn⟩) fun a => ?_
    match a with
    | ⟨0, _⟩ => show n.val = 0 + n.val * (0 + 1); omega
  · rw [dif_neg hn]
    refine pad_apply_of_not_inside _ _ _ x v h hu (ix1 n) 0 fun hin => hn ?_
    have h3 : (n.val - 0) / (0 + 1) < 50000 := hin.2.2
    omega

/-- A matrix of 50000 rows with 1200 rows of the padding value behind it, read at (n, k). -/
theorem padRows_apply {C : Nat} (x : (T2 50000 C).Idx → α) {u : Shape} (v : u.Idx → α)
    (h : (T2 50000 C).Pads (![0, 0] : Fin 2 → Nat) ![1200, 0] ![0, 0] (T2 51200 C)) (hu : 0 < u.numel)
    (n : Fin 51200) (k : Fin C) :
    pad (T2 51200 C) ![0, 0] ![1200, 0] ![0, 0] x v h hu (ix2 n k)
      = if hn : n.val < 50000 then x (ix2 ⟨n.val, hn⟩ k) else v (Shape.Idx.first hu) := by
  by_cases hn : n.val < 50000
  · rw [dif_pos hn]
    refine pad_apply_of_inside _ _ _ x v h hu (ix2 n k) (ix2 ⟨n.val, hn⟩ k) fun a => ?_
    match a with
    | ⟨0, _⟩ => show n.val = 0 + n.val * (0 + 1); omega
    | ⟨1, _⟩ => show k.val = 0 + k.val * (0 + 1); omega
  · rw [dif_neg hn]
    refine pad_apply_of_not_inside _ _ _ x v h hu (ix2 n k) 0 fun hin => hn ?_
    have h3 : (n.val - 0) / (0 + 1) < 50000 := hin.2.2
    omega

end Padded

/-! ## Words -/

/-- The word of a number below 256 reads, signed, as that number. -/
theorem toInt_ofNat_small (g : Fin 256) : (BitVec.ofNat 32 g.val).toInt = (g.val : Int) := by
  have hg := g.isLt
  rw [BitVec.toInt_eq_toNat_of_lt (by rw [BitVec.toNat_ofNat]; omega), BitVec.toNat_ofNat]
  omega

/-- A 32-bit word reads, signed, as a number below 256 exactly when it is that number's word. -/
theorem toInt_eq_iff (w : BitVec 32) (g : Fin 256) : w.toInt = (g.val : Int) ↔ w = BitVec.ofNat 32 g.val :=
  ⟨fun h => BitVec.eq_of_toInt_eq (h.trans (toInt_ofNat_small g).symm), fun h => h ▸ toInt_ofNat_small g⟩

/-- The padding word, all ones, is no graph's number. -/
theorem padWord_ne (g : Fin 256) : (4294967295#32 : BitVec 32) ≠ BitVec.ofNat 32 g.val := fun h => by
  have hg := g.isLt
  have h' := congrArg BitVec.toNat h
  have h4 : (4294967295#32 : BitVec 32).toNat = 4294967295 := rfl
  rw [h4, BitVec.toNat_ofNat] at h'
  omega

/-- Node n lands on graph g exactly when its batch word is g's word. -/
theorem lands_btCol_iff (Bv : IVec (T1 50000) 32) (n : Fin 50000) (g : Fin 256) :
    lands (btCol Bv) n g.val ↔ Bv (ix1 n) = BitVec.ofNat 32 g.val := by
  unfold lands
  rw [btCol, colOf_apply]
  exact toInt_eq_iff _ g

/-! ## The sum over the padded rows -/

/-- THE PADDED ROWS DROP OUT: the sum over all 51200 rows of the indicator of graph g times the rescaled, biased row is
    the sum, over the nodes whose batch word is g, of their rescaled, biased rows. -/
theorem pooled_rows (Bv : IVec (T1 50000) 32) (S2 : M 50000 128) (dis : Fin 50000 → EReal) (b : Fin 128 → EReal)
    (Bt : (T2 1 51200).Idx → BitVec 32) (S : (T2 51200 128).Idx → EReal) (D : (T2 51200 1).Idx → EReal)
    (B : (T2 1 128).Idx → EReal)
    (hBt : ∀ n : Fin 51200, Bt (ix2 0 n) = if h : n.val < 50000 then Bv (ix1 ⟨n.val, h⟩) else 4294967295#32)
    (hS : ∀ (n : Fin 51200) (j : Fin 128), S (ix2 n j) = if h : n.val < 50000 then S2 ⟨n.val, h⟩ j else 0)
    (hD : ∀ n : Fin 51200, D (ix2 n 0) = if h : n.val < 50000 then dis ⟨n.val, h⟩ else 0)
    (hB : ∀ j : Fin 128, B (ix2 0 j) = b j) (g : Fin 256) (j : Fin 128) :
    (∑ n : Fin 51200, (if Bt (ix2 0 n) = BitVec.ofNat 32 g.val then (1 : EReal) else 0)
        * (S (ix2 n j) * D (ix2 n 0) + B (ix2 0 j)))
      = gsum (btCol Bv) (kLin dis S2 b) g j := by
  have eBt : ∀ n : Fin 50000, Bt (ix2 0 (Fin.castAdd 1200 n)) = Bv (ix1 n) := fun n =>
    (hBt _).trans (dif_pos (show (Fin.castAdd 1200 n).val < 50000 from n.isLt))
  have eS : ∀ n : Fin 50000, S (ix2 (Fin.castAdd 1200 n) j) = S2 n j := fun n =>
    (hS _ _).trans (dif_pos (show (Fin.castAdd 1200 n).val < 50000 from n.isLt))
  have eD : ∀ n : Fin 50000, D (ix2 (Fin.castAdd 1200 n) 0) = dis n := fun n =>
    (hD _).trans (dif_pos (show (Fin.castAdd 1200 n).val < 50000 from n.isLt))
  have tBt : ∀ k : Fin 1200, Bt (ix2 0 (Fin.natAdd 50000 k)) = 4294967295#32 := fun k =>
    (hBt _).trans (dif_neg (show ¬(50000 + k.val < 50000) by omega))
  refine (Fin.sum_univ_add (a := 50000) (b := 1200) (fun n : Fin 51200 =>
    (if Bt (ix2 0 n) = BitVec.ofNat 32 g.val then (1 : EReal) else 0) * (S (ix2 n j) * D (ix2 n 0) + B (ix2 0 j)))).trans ?_
  rw [Finset.sum_eq_zero (s := (Finset.univ : Finset (Fin 1200))) (fun k _ => by
    show (if Bt (ix2 0 (Fin.natAdd 50000 k)) = BitVec.ofNat 32 g.val then (1 : EReal) else 0) * _ = 0
    rw [tBt, if_neg (padWord_ne g), zero_mul]), add_zero]
  unfold gsum kLin
  rw [Finset.sum_filter]
  refine Finset.sum_congr rfl fun n _ => ?_
  show (if Bt (ix2 0 (Fin.castAdd 1200 n)) = BitVec.ofNat 32 g.val then (1 : EReal) else 0)
      * (S (ix2 (Fin.castAdd 1200 n) j) * D (ix2 (Fin.castAdd 1200 n) 0) + B (ix2 0 j))
    = if lands (btCol Bv) n g.val then S2 n j * dis n + b j else 0
  rw [eBt, eS, eD, hB]
  by_cases hc : Bv (ix1 n) = BitVec.ofNat 32 g.val
  · rw [if_pos hc, if_pos ((lands_btCol_iff Bv n g).mpr hc), one_mul]
  · rw [if_neg hc, if_neg (fun hl => hc ((lands_btCol_iff Bv n g).mp hl)), zero_mul]

/-- The reciprocal of the clipped count, read off its column at g. -/
theorem recipCount_apply (cv one one' : FVec Ideal (T1 256) .f32) (h1 : ∀ i, one i = 1)
    (h1' : ∀ i, one' i = 1) (hc : (T1 256).ShapeCasts (T2 256 1)) (g : Fin 256) :
    shapeCast (T2 256 1) (Host.divf one (maximumf cv one')) hc (ix2 g 0)
      = Ideal.div 1 (max (cv (ix1 g)) 1) := by
  refine (Cert.Column.shapeCast_a_a1_apply _ hc g 0).trans ?_
  show Ideal.div (one (ix1 g)) (max (cv (ix1 g)) (one' (ix1 g))) = _
  rw [h1, h1']

/-- THE KERNEL'S MEAN POOL FROM THE PADDED ARRAYS: the padded sum times the reciprocal of the clipped count. -/
theorem pool_of_padded (Bv : IVec (T1 50000) 32) (S2 : M 50000 128) (dis : Fin 50000 → EReal) (b : Fin 128 → EReal)
    (Bt : (T2 1 51200).Idx → BitVec 32) (S : (T2 51200 128).Idx → EReal) (D : (T2 51200 1).Idx → EReal)
    (B : (T2 1 128).Idx → EReal) (I : (T2 256 1).Idx → EReal)
    (hBt : ∀ n : Fin 51200, Bt (ix2 0 n) = if h : n.val < 50000 then Bv (ix1 ⟨n.val, h⟩) else 4294967295#32)
    (hS : ∀ (n : Fin 51200) (j : Fin 128), S (ix2 n j) = if h : n.val < 50000 then S2 ⟨n.val, h⟩ j else 0)
    (hD : ∀ n : Fin 51200, D (ix2 n 0) = if h : n.val < 50000 then dis ⟨n.val, h⟩ else 0)
    (hB : ∀ j : Fin 128, B (ix2 0 j) = b j)
    (hI : ∀ g : Fin 256, I (ix2 g 0) = Ideal.div 1 (max (cntV Bv (ix1 g)) 1)) (g : Fin 256) (j : Fin 128) :
    (∑ n : Fin 51200, (if Bt (ix2 0 n) = BitVec.ofNat 32 g.val then (1 : EReal) else 0)
        * (S (ix2 n j) * D (ix2 n 0) + B (ix2 0 j))) * I (ix2 g 0)
      = kPool (btCol Bv) (kLin dis S2 b) g j := by
  rw [pooled_rows Bv S2 dis b Bt S D B hBt hS hD hB g j, hI, cntV_apply]
  rfl

end Cert.PoolPad

end
-- ==== Proof.KPool.lean ====
/-
  The kernel's mean pool: the host operations before region 3 pad the batch vector with a word no graph carries, and the
  layer-2 sums and the degree-factor column with zeros; region 3 adds, for graph g, the rescaled and biased rows of the
  nodes whose batch word is g, and multiplies by the reciprocal of the clipped count.
-/
import proofs.«401719_j47906065219800_3_alg».proof.Proof.KBase2
import proofs.«401719_j47906065219800_3_alg».proof.Proof.Region3
import proofs.«401719_j47906065219800_3_alg».proof.Proof.LibScatter
import proofs.«401719_j47906065219800_3_alg».proof.Proof.LibColumn
import proofs.«401719_j47906065219800_3_alg».proof.Proof.KPoolPad
import Idealize.ShloMosaic.Lib.IdealHost
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

/-! ## What region 3 finds in its five input arrays -/

/-- The padded batch row: the batch vector with 1200 copies of the all-ones word behind it, as one row. -/
theorem entry3_bt (c : Dev nD) :
    V15 m ρ c (Pipeline.arrRef spec3 0)
      = shapeCast S1x51200 (pad S51200 ![0] ![1200] ![0] (argB m c) (id (constantI S_ 32 4294967295#32))
          pads_S50000_S51200_012000 h_S_) shapeCasts_S51200_S1x51200 := by
  show StableHlo.after hostOps3_6 (StableHlo.after hostOps3_5 (StableHlo.after hostOps3_4 (StableHlo.after hostOps3_3
      (StableHlo.after hostOps3_2 (StableHlo.after hostOps3_1 (StableHlo.after hostOps3 (W8 m ρ c))))))) (Proc.devRef .tc main_v54) = _
  after_results_simp
  simp only [TRef.ofBuf, TRef.toBuf, cast_eq]
  rw [W8_arg2]
  rfl

/-- The padded scattered sums: 1200 rows of the converted zero word behind the last scattered sums. -/
theorem entry3_s (c : Dev nD) :
    V15 m ρ c (Pipeline.arrRef spec3 1)
      = pad S51200x128 ![0, 0] ![1200, 0] ![0, 0] (W9 m ρ c (Proc.devRef .tc main_v52) : FVec Ideal S50000x128 .f32)
          (sitofp (F := Ideal) .f32 (constantI S_ 32 0#32)) pads_S50000x128_S51200x128_012000_000 h_S_ := by
  show StableHlo.after hostOps3_6 (StableHlo.after hostOps3_5 (StableHlo.after hostOps3_4 (StableHlo.after hostOps3_3
      (StableHlo.after hostOps3_2 (StableHlo.after hostOps3_1 (W9 m ρ c)))))) (Proc.devRef .tc main_v55) = _
  generalize W9 m ρ c = X
  after_results_simp
  simp only [TRef.ofBuf, TRef.toBuf, cast_eq]

/-- The padded degree-factor column. -/
theorem entry3_d (c : Dev nD) :
    V15 m ρ c (Pipeline.arrRef spec3 2)
      = pad S51200x1 ![0, 0] ![1200, 0] ![0, 0] (shapeCast S50000x1 (HostT.disV (argE m c)) shapeCasts_S50000_S50000x1)
          (sitofp (F := Ideal) .f32 (constantI S_ 32 0#32)) pads_S50000x1_S51200x1_012000_000 h_S_ := by
  show StableHlo.after hostOps3_6 (StableHlo.after hostOps3_5 (StableHlo.after hostOps3_4 (StableHlo.after hostOps3_3
      (StableHlo.after hostOps3_2 (StableHlo.after hostOps3_1 (StableHlo.after hostOps3 (W8 m ρ c))))))) (Proc.devRef .tc main_v56) = _
  after_results_simp
  simp only [TRef.ofBuf, TRef.toBuf, cast_eq]
  rw [W8_dis]

/-- The last layer's bias as one row. -/
theorem entry3_b (c : Dev nD) :
    V15 m ρ c (Pipeline.arrRef spec3 3) = shapeCast S1x128 (m ((c : Thread nD τ).loc main_arg8)) shapeCasts_S128_S1x128 := by
  show StableHlo.after hostOps3_6 (StableHlo.after hostOps3_5 (StableHlo.after hostOps3_4 (StableHlo.after hostOps3_3
      (StableHlo.after hostOps3_2 (StableHlo.after hostOps3_1 (StableHlo.after hostOps3 (W8 m ρ c))))))) (Proc.devRef .tc main_v66) = _
  after_results_simp
  rw [W8_arg8]
  rfl

/-- The reciprocal of the clipped count as one column. -/
theorem entry3_i (c : Dev nD) :
    V15 m ρ c (Pipeline.arrRef spec3 4)
      = shapeCast S256x1 (Host.divf (broadcastInDim S256 ![] bcast_S_S256 (constant S_ .f32 0x3F800000#32))
          (maximumf (HostT.cntV (argB m c)) (broadcastInDim S256 ![] bcast_S_S256 (constant S_ .f32 0x3F800000#32))))
          shapeCasts_S256_S256x1 := by
  show StableHlo.after hostOps3_6 (StableHlo.after hostOps3_5 (StableHlo.after hostOps3_4 (StableHlo.after hostOps3_3
      (StableHlo.after hostOps3_2 (StableHlo.after hostOps3_1 (StableHlo.after hostOps3 (W8 m ρ c))))))) (Proc.devRef .tc main_v65) = _
  after_results_simp
  rw [W8_arg2]
  generalize hD : Host.scatterAdd (F := Ideal) (φ := .f32) scatter_S256_S50000x1_S50000_n_0_0_1 _ _ _ = D
  have hD' : D = HostT.cntV (argB m c) := hD.symm.trans (by
    unfold HostT.cntV HostT.btCol HostT.colOf
    rfl)
  rw [hD']
  rfl

/-- A splat of the word of one reads one everywhere. -/
theorem ones_apply (i : S256.Idx) :
    (broadcastInDim S256 ![] bcast_S_S256 (constant (F := Ideal) S_ .f32 0x3F800000#32) : FVec Ideal S256 .f32) i = 1 := by
  rw [broadcastInDim_scalar_apply, constant_apply, Ideal.ofBits_one_f32]

/-- The converted zero word is zero. -/
theorem zeroPad_apply (i : S_.Idx) : (sitofp (F := Ideal) .f32 (constantI S_ 32 0#32) : FVec Ideal S_ .f32) i = 0 := by
  show ((((0#32 : BitVec 32).toInt : ℤ) : ℝ) : EReal) = 0
  simp

/-- THE POOLED ROWS. `S2` is what the last scattered sums hold (after the stretch of host operations that computes them). -/
theorem pool_value (c : Dev nD) (S2 : M 50000 128)
    (hS2 : ∀ (v : Fin 50000) (j : Fin 128), W9 m ρ c (Proc.devRef .tc main_v52) (ix2 v j) = S2 v j)
    (g : Fin 256) (j : Fin 128) :
    W16 m ρ c (Proc.devRef .tc main_v67) (ix2 g j)
      = kPool (HostT.btCol (argB m c)) (kLin (disF m c) S2 (vec (m ((c : Thread nD τ).loc main_arg8)))) g j := by
  rw [show W16 m ρ c (Proc.devRef .tc main_v67) = (dat3 (V15 m ρ) c).arrAt 5 cfg3.N from W16_arr m ρ c 5]
  rw [Cert.KernelIdeal.Region3.value (V15 m ρ) c _ _ _ _ _ (entry3_bt m ρ c) (entry3_s m ρ c) (entry3_d m ρ c)
    (entry3_b m ρ c) (entry3_i m ρ c) g j]
  refine Cert.PoolPad.pool_of_padded (argB m c) S2 (disF m c) (vec (m ((c : Thread nD τ).loc main_arg8))) _ _ _ _ _
    (fun n => ?_) (fun n k => ?_) (fun n => ?_) (fun k => ?_) (fun g' => ?_) g j
  · rw [shapeCast_a_1a_apply, Cert.PoolPad.padVec_apply]
    rfl
  · rw [Cert.PoolPad.padRows_apply]
    by_cases hn : n.val < 50000
    · rw [dif_pos hn, dif_pos hn]; exact hS2 _ _
    · rw [dif_neg hn, dif_neg hn]; exact zeroPad_apply _
  · rw [Cert.PoolPad.padRows_apply]
    by_cases hn : n.val < 50000
    · rw [dif_pos hn, dif_pos hn]; exact Cert.Column.shapeCast_a_a1_apply _ _ _ _
    · rw [dif_neg hn, dif_neg hn]; exact zeroPad_apply _
  · exact shapeCast_a_1a_apply _ _ _ _
  · exact Cert.PoolPad.recipCount_apply _ _ _ ones_apply ones_apply _ g'

end Cert.KernelIdeal.KVal

end
-- ==== Proof.Region4.lean ====
import proofs.«401719_j47906065219800_3_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout
import proofs.«401719_j47906065219800_3_alg».proof.Proof.LibMatmul

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two products' dimension numbers are those of a plain rows-by-columns product. -/
theorem dot1_eq : dot_S256x128_S128x512_S256x512_1_0_0_1_n_n = DotDims.plain 256 128 512 := rfl
theorem dot2_eq : dot_S256x512_S512x256_S256x256_1_0_0_1_n_n = DotDims.plain 256 512 256 := rfl

/-- The head at output (g, o), as a function of its five operands: the hidden layer's affine map clipped at zero, then the
    output layer's affine map. -/
def headAt (x0 : S256x128.Idx → EReal) (x1 : S128x512.Idx → EReal) (x2 : S1x512.Idx → EReal) (x3 : S512x256.Idx → EReal)
    (x4 : S1x256.Idx → EReal) (g : Fin 256) (o : Fin 256) : EReal :=
  (∑ p : Fin 512, max ((∑ q : Fin 128, x0 (ix2 g q) * x1 (ix2 q p)) + x2 (ix2 0 p)) 0 * x3 (ix2 p o)) + x4 (ix2 0 o)

/-- THE BODY'S STORED VALUE AT (g, o): narrowing to the half format is the identity on extended reals, each product into
    the zero constant is the plain sum of products, each bias row is read at its one row, and the zero literal is zero. -/
theorem pay_apply (x0 : FVec Ideal S256x128 .f32) (x1 : FVec Ideal S128x512 .f32) (x2 : FVec Ideal S1x512 .f32)
    (x3 : FVec Ideal S512x256 .f32) (x4 : FVec Ideal S1x256 .f32) (g : Fin 256) (o : Fin 256) :
    k4_pay1 (F := Ideal) x0 x1 x2 x3 x4 (ix2 g o) = headAt x0 x1 x2 x3 x4 g o := by
  unfold headAt
  dsimp only [k4_pay1, matmul]
  simp only [shapeCast_self]
  rw [addf_apply, dot2_eq, Cert.Matmul.matmul_plain_apply, broadcastTo_1b_ab_apply]
  refine congrArg (fun s : EReal => s + x4 (ix2 0 o)) (Finset.sum_congr rfl fun p _ => ?_)
  rw [truncf_apply, truncf_apply, maximumf_apply, addf_apply, broadcast_apply, dot1_eq, Cert.Matmul.matmul_plain_apply,
    broadcastTo_1b_ab_apply, show (FloatOps.ofBits FTy.f32 0x00000000#32 : Ideal .f32) = 0 from Ideal.ofBits_zero_f32]
  simp only [truncf_apply]

/-- The zero offsets, spelt as the printed accesses spell them. -/
theorem origin_eq : (![0, 0] : Fin 2 → Nat) = fun _ => 0 := funext fun a => by fin_cases a <;> rfl

/-- The one grid point: every window's block index is zero on both axes (decided over the grid). -/
theorem index_zero : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The head as one function of the output array's index. -/
def headArr (x0 : S256x128.Idx → EReal) (x1 : S128x512.Idx → EReal) (x2 : S1x512.Idx → EReal) (x3 : S512x256.Idx → EReal)
    (x4 : S1x256.Idx → EReal) : S256x256.Idx → EReal := fun i => headAt x0 x1 x2 x3 x4 (i 0) (i 1)

section Blocks

variable (c : Dev nD) (t : Fin cfg4.N)

/-- Window 0's block at the point is the whole pooled array. -/
theorem blk0_apply (G : S256x128.Idx → EReal) (hG : V c (Pipeline.arrRef spec4 0) = G) (x : S256x128.Idx) :
    (iblk4 (F := Ideal) V c 0 t : FVec Ideal S256x128 .f32) x = G x := by
  obtain ⟨e0, e1, -⟩ := index_zero t
  subst hG
  unfold iblk4
  show V c (Pipeline.arrRef spec4 0) (((cfg4.win 0).blk t).view.emb x) = V c (Pipeline.arrRef spec4 0) x
  refine congrArg (V c (Pipeline.arrRef spec4 0)) (funext fun a => Fin.ext ?_)
  match a with
  | ⟨0, _⟩ => show win4_0.index t (0 : Fin 2) * 256 + 1 * (x 0).val = (x 0).val; omega
  | ⟨1, _⟩ => show win4_0.index t (1 : Fin 2) * 128 + 1 * (x 1).val = (x 1).val; omega

/-- Window 1's block at the point is the whole hidden-layer weight matrix. -/
theorem blk1_apply (W1 : S128x512.Idx → EReal) (h : V c (Pipeline.arrRef spec4 1) = W1) (x : S128x512.Idx) :
    (iblk4 (F := Ideal) V c 1 t : FVec Ideal S128x512 .f32) x = W1 x := by
  obtain ⟨-, -, e0, e1, -⟩ := index_zero t
  subst h
  unfold iblk4
  show V c (Pipeline.arrRef spec4 1) (((cfg4.win 1).blk t).view.emb x) = V c (Pipeline.arrRef spec4 1) x
  refine congrArg (V c (Pipeline.arrRef spec4 1)) (funext fun a => Fin.ext ?_)
  match a with
  | ⟨0, _⟩ => show win4_1.index t (0 : Fin 2) * 128 + 1 * (x 0).val = (x 0).val; omega
  | ⟨1, _⟩ => show win4_1.index t (1 : Fin 2) * 512 + 1 * (x 1).val = (x 1).val; omega

/-- Window 2's block at the point is the whole hidden-layer bias row. -/
theorem blk2_apply (B1 : S1x512.Idx → EReal) (h : V c (Pipeline.arrRef spec4 2) = B1) (x : S1x512.Idx) :
    (iblk4 (F := Ideal) V c 2 t : FVec Ideal S1x512 .f32) x = B1 x := by
  obtain ⟨-, -, -, -, e0, e1, -⟩ := index_zero t
  subst h
  unfold iblk4
  show V c (Pipeline.arrRef spec4 2) (((cfg4.win 2).blk t).view.emb x) = V c (Pipeline.arrRef spec4 2) x
  refine congrArg (V c (Pipeline.arrRef spec4 2)) (funext fun a => Fin.ext ?_)
  match a with
  | ⟨0, _⟩ => show win4_2.index t (0 : Fin 2) * 1 + 1 * (x 0).val = (x 0).val; omega
  | ⟨1, _⟩ => show win4_2.index t (1 : Fin 2) * 512 + 1 * (x 1).val = (x 1).val; omega

/-- Window 3's block at the point is the whole output-layer weight matrix. -/
theorem blk3_apply (W2 : S512x256.Idx → EReal) (h : V c (Pipeline.arrRef spec4 3) = W2) (x : S512x256.Idx) :
    (iblk4 (F := Ideal) V c 3 t : FVec Ideal S512x256 .f32) x = W2 x := by
  obtain ⟨-, -, -, -, -, -, e0, e1, -⟩ := index_zero t
  subst h
  unfold iblk4
  show V c (Pipeline.arrRef spec4 3) (((cfg4.win 3).blk t).view.emb x) = V c (Pipeline.arrRef spec4 3) x
  refine congrArg (V c (Pipeline.arrRef spec4 3)) (funext fun a => Fin.ext ?_)
  match a with
  | ⟨0, _⟩ => show win4_3.index t (0 : Fin 2) * 512 + 1 * (x 0).val = (x 0).val; omega
  | ⟨1, _⟩ => show win4_3.index t (1 : Fin 2) * 256 + 1 * (x 1).val = (x 1).val; omega

/-- Window 4's block at the point is the whole output-layer bias row. -/
theorem blk4_apply (B2 : S1x256.Idx → EReal) (h : V c (Pipeline.arrRef spec4 4) = B2) (x : S1x256.Idx) :
    (iblk4 (F := Ideal) V c 4 t : FVec Ideal S1x256 .f32) x = B2 x := by
  obtain ⟨-, -, -, -, -, -, -, -, e0, e1, -⟩ := index_zero t
  subst h
  unfold iblk4
  show V c (Pipeline.arrRef spec4 4) (((cfg4.win 4).blk t).view.emb x) = V c (Pipeline.arrRef spec4 4) x
  refine congrArg (V c (Pipeline.arrRef spec4 4)) (funext fun a => Fin.ext ?_)
  match a with
  | ⟨0, _⟩ => show win4_4.index t (0 : Fin 2) * 1 + 1 * (x 0).val = (x 0).val; omega
  | ⟨1, _⟩ => show win4_4.index t (1 : Fin 2) * 256 + 1 * (x 1).val = (x 1).val; omega

/-- WHAT THE POINT WRITES BACK is its block of the head of the five arrays as the region finds them. -/
theorem flushed_eq (G : S256x128.Idx → EReal) (W1 : S128x512.Idx → EReal) (B1 : S1x512.Idx → EReal)
    (W2 : S512x256.Idx → EReal) (B2 : S1x256.Idx → EReal)
    (hG : V c (Pipeline.arrRef spec4 0) = G) (hW1 : V c (Pipeline.arrRef spec4 1) = W1) (hB1 : V c (Pipeline.arrRef spec4 2) = B1)
    (hW2 : V c (Pipeline.arrRef spec4 3) = W2) (hB2 : V c (Pipeline.arrRef spec4 4) = B2) :
    (dat4 (F := Ideal) V c).flushed 5 t = ((cfg4.win 5).blk t).view.read (Elt Ideal) (headArr G W1 B1 W2 B2) := by
  show (cfg4.win 5).cut (grid4.coords t) ((dat4 (F := Ideal) V c).after 5 t) = _
  rw [after4_5]
  unfold out4_5
  rw [View.canon_unit_zero origin_eq]
  simp only [View.ld_unit_zero (S := S256x128) origin_eq, View.ld_unit_zero (S := S128x512) origin_eq,
    View.ld_unit_zero (S := S1x512) origin_eq, View.ld_unit_zero (S := S512x256) origin_eq,
    View.ld_unit_zero (S := S1x256) origin_eq]
  obtain ⟨-, -, -, -, -, -, -, -, -, -, e0, e1⟩ := index_zero t
  funext j
  obtain ⟨g, o, rfl⟩ : ∃ (g : Fin 256) (o : Fin 256), j = ix2 g o := ⟨j 0, j 1, eq_ix2 j⟩
  show k4_pay1 (F := Ideal) (iblk4 V c 0 t) (iblk4 V c 1 t) (iblk4 V c 2 t) (iblk4 V c 3 t) (iblk4 V c 4 t) (ix2 g o)
      = headArr G W1 B1 W2 B2 (((cfg4.win 5).blk t).view.emb (ix2 g o))
  have hemb : ((cfg4.win 5).blk t).view.emb (ix2 g o) = (ix2 g o : S256x256.Idx) := by
    funext a; apply Fin.ext
    match a with
    | ⟨0, _⟩ => show win4_5.index t (0 : Fin 2) * 256 + 1 * g.val = g.val; omega
    | ⟨1, _⟩ => show win4_5.index t (1 : Fin 2) * 256 + 1 * o.val = o.val; omega
  rw [hemb]
  refine (pay_apply _ _ _ _ _ g o).trans ?_
  show headAt _ _ _ _ _ g o = headAt G W1 B1 W2 B2 g o
  unfold headAt
  simp only [blk0_apply V c t G hG, blk1_apply V c t W1 hW1, blk2_apply V c t B1 hB1, blk3_apply V c t W2 hW2,
    blk4_apply V c t B2 hB2]

/-- An index of the output array is in the point's block iff each coordinate is in the block's range on its axis. -/
theorem mem_blk (i : S256x256.Idx) :
    i ∈ ((cfg4.win 5).blk t).view.set ↔ ∀ a : Fin 2, win4_5.index t a * S256x256.size a ≤ (i a).val
      ∧ (i a).val < win4_5.index t a * S256x256.size a + S256x256.size a := by
  show i ∈ ((View.whole main_v70).slice (win4_5.rect t)).set ↔ _
  rw [View.set_slice_whole, Rect.mem_set_unit]
  exact Iff.rfl

/-- The one block is the whole output array. -/
theorem covered (i : S256x256.Idx) : ∃ t : Fin cfg4.N, (cfg4.win 5).flush t = true ∧ i ∈ ((cfg4.win 5).blk t).view.set := by
  obtain ⟨-, -, -, -, -, -, -, -, -, -, e0, e1⟩ := index_zero t4_0
  have h0 : (i 0).val < 256 := (i 0).isLt
  have h1 : (i 1).val < 256 := (i 1).isLt
  refine ⟨t4_0, flush4_5 t4_0, ?_⟩
  rw [mem_blk]
  intro a
  match a with
  | ⟨0, _⟩ => show win4_5.index t4_0 (0 : Fin 2) * 256 ≤ (i 0).val ∧ (i 0).val < win4_5.index t4_0 (0 : Fin 2) * 256 + 256; omega
  | ⟨1, _⟩ => show win4_5.index t4_0 (1 : Fin 2) * 256 ≤ (i 1).val ∧ (i 1).val < win4_5.index t4_0 (1 : Fin 2) * 256 + 256; omega

end Blocks

/-- Region 4's output array (one grid point): the two-layer head, a clipped affine map followed by an affine map. -/
theorem value (c : Dev nD) (G : S256x128.Idx → EReal) (W1 : S128x512.Idx → EReal) (B1 : S1x512.Idx → EReal)
    (W2 : S512x256.Idx → EReal) (B2 : S1x256.Idx → EReal)
    (hG : V c (Pipeline.arrRef spec4 0) = G) (hW1 : V c (Pipeline.arrRef spec4 1) = W1) (hB1 : V c (Pipeline.arrRef spec4 2) = B1)
    (hW2 : V c (Pipeline.arrRef spec4 3) = W2) (hB2 : V c (Pipeline.arrRef spec4 4) = B2) (g : Fin 256) (o : Fin 256) :
    (dat4 (F := Ideal) V c).arrAt 5 cfg4.N (ix2 g o)
      = (∑ p : Fin 512, max ((∑ q : Fin 128, G (ix2 g q) * W1 (ix2 q p)) + B1 (ix2 0 p)) 0 * W2 (ix2 p o)) + B2 (ix2 0 o) := by
  have hfin : (dat4 (F := Ideal) V c).arrAt 5 cfg4.N = headArr G W1 B1 W2 B2 :=
    (dat4 (F := Ideal) V c).arrAt_eq_of_cover 5 (headArr G W1 B1 W2 B2)
      (fun t _ => flushed_eq V c t G W1 B1 W2 B2 hG hW1 hB1 hW2 hB2) (covered)
  rw [hfin]
  rfl

end Cert.KernelIdeal.Region4

end
-- ==== Proof.KHead.lean ====
/-
  The kernel's head: region 4 reads the pooled rows and the four head arguments (the two bias vectors as rows) and leaves
  the two-layer head's value in the result buffer.
-/
import proofs.«401719_j47906065219800_3_alg».proof.Proof.KLayer1
import proofs.«401719_j47906065219800_3_alg».proof.Proof.Region4
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

abbrev aWm1 (c : Dev nD) : M 128 512 := mat (m ((c : Thread nD τ).loc main_arg9))
abbrev aBm1 (c : Dev nD) : Fin 512 → EReal := vec (m ((c : Thread nD τ).loc main_arg10))
abbrev aWm2 (c : Dev nD) : M 512 256 := mat (m ((c : Thread nD τ).loc main_arg11))
abbrev aBm2 (c : Dev nD) : Fin 256 → EReal := vec (m ((c : Thread nD τ).loc main_arg12))

/-- Region 4 keeps every buffer but its output array. -/
theorem keep4 (c : Dev nD) (b : Ref sig .tc) (hb : b ≠ main_v70) : W18 m ρ c (Proc.devRef .tc b) = W17 m ρ c (Proc.devRef .tc b) := by
  by_cases h : ∃ w, Pipeline.arrRef spec4 w = b
  · obtain ⟨w, rfl⟩ := h
    match w with
    | ⟨0, _⟩ => exact (W18_arr m ρ c 0).trans (((dat4 (V17 m ρ) c).arrAt_in 0 rfl _).trans (A_eq4 (V17 m ρ) c 0))
    | ⟨1, _⟩ => exact (W18_arr m ρ c 1).trans (((dat4 (V17 m ρ) c).arrAt_in 1 rfl _).trans (A_eq4 (V17 m ρ) c 1))
    | ⟨2, _⟩ => exact (W18_arr m ρ c 2).trans (((dat4 (V17 m ρ) c).arrAt_in 2 rfl _).trans (A_eq4 (V17 m ρ) c 2))
    | ⟨3, _⟩ => exact (W18_arr m ρ c 3).trans (((dat4 (V17 m ρ) c).arrAt_in 3 rfl _).trans (A_eq4 (V17 m ρ) c 3))
    | ⟨4, _⟩ => exact (W18_arr m ρ c 4).trans (((dat4 (V17 m ρ) c).arrAt_in 4 rfl _).trans (A_eq4 (V17 m ρ) c 4))
    | ⟨5, _⟩ => exact absurd rfl hb
  · exact W18_of_ne m ρ c b fun w e => h ⟨w, e⟩

/-- An argument at region 4's entry is as launched. -/
theorem W17_of_W18 (c : Dev nD) (b : Ref sig .tc) (hb : b ≠ main_v70)
    (hW : W18 m ρ c (Proc.devRef .tc b) = m ((c : Thread nD τ).loc b)) :
    W17 m ρ c (Proc.devRef .tc b) = m ((c : Thread nD τ).loc b) := (keep4 m ρ c b hb).symm.trans hW

/-- And before the last stretch of host operations, when that stretch does not write it. -/
theorem W16_of_W18 (c : Dev nD) (b : Ref sig .tc) (hb : b ≠ main_v70)
    (h4 : ∀ op ∈ (hostOps4 : List (HloOp τ sig (Elt Ideal))), Proc.devRef .tc b ∉ op.writes)
    (hW : W18 m ρ c (Proc.devRef .tc b) = m ((c : Thread nD τ).loc b)) :
    W16 m ρ c (Proc.devRef .tc b) = m ((c : Thread nD τ).loc b) :=
  (StableHlo.after_of_forall_not_mem (b := Proc.devRef .tc b) _ _ h4).symm.trans (W17_of_W18 m ρ c b hb hW)

theorem entry4_g (c : Dev nD) : V17 m ρ c (Pipeline.arrRef spec4 0) = W16 m ρ c (Proc.devRef .tc main_v67) :=
  StableHlo.after_of_forall_not_mem (b := Proc.devRef .tc main_v67) _ _ (by not_written hostOps4)

theorem entry4_w1 (c : Dev nD) : V17 m ρ c (Pipeline.arrRef spec4 1) = m ((c : Thread nD τ).loc main_arg9) :=
  W17_of_W18 m ρ c main_arg9 (by decide) (W18_main_arg9 m ρ c)

theorem entry4_w2 (c : Dev nD) : V17 m ρ c (Pipeline.arrRef spec4 3) = m ((c : Thread nD τ).loc main_arg11) :=
  W17_of_W18 m ρ c main_arg11 (by decide) (W18_main_arg11 m ρ c)

theorem entry4_b1 (c : Dev nD) :
    V17 m ρ c (Pipeline.arrRef spec4 2) = shapeCast S1x512 (m ((c : Thread nD τ).loc main_arg10)) shapeCasts_S512_S1x512 := by
  show StableHlo.after hostOps4 (W16 m ρ c) (Proc.devRef .tc main_v68) = _
  after_results
  rw [W16_of_W18 m ρ c main_arg10 (by decide) (by not_written hostOps4) (W18_main_arg10 m ρ c)]
  rfl

theorem entry4_b2 (c : Dev nD) :
    V17 m ρ c (Pipeline.arrRef spec4 4) = shapeCast S1x256 (m ((c : Thread nD τ).loc main_arg12)) shapeCasts_S256_S1x256 := by
  show StableHlo.after hostOps4 (W16 m ρ c) (Proc.devRef .tc main_v69) = _
  after_results
  rw [W16_of_W18 m ρ c main_arg12 (by decide) (by not_written hostOps4) (W18_main_arg12 m ρ c)]
  rfl

/-- THE RESULT BUFFER: the head of what region 3 left in the pooled rows. -/
theorem out_value (c : Dev nD) (P : M 256 128)
    (hP : ∀ (g : Fin 256) (j : Fin 128), W16 m ρ c (Proc.devRef .tc main_v67) (ix2 g j) = P g j) (g o : Fin 256) :
    W18 m ρ c (Proc.devRef .tc main_v70) (ix2 g o) = head P (aWm1 m c) (aBm1 m c) (aWm2 m c) (aBm2 m c) g o := by
  rw [show W18 m ρ c (Proc.devRef .tc main_v70) = (dat4 (V17 m ρ) c).arrAt 5 cfg4.N from W18_arr m ρ c 5]
  rw [Cert.KernelIdeal.Region4.value (V17 m ρ) c _ _ _ _ _ (entry4_g m ρ c) (entry4_w1 m ρ c) (entry4_b1 m ρ c) (entry4_w2 m ρ c)
    (entry4_b2 m ρ c) g o]
  unfold head mm
  simp only [shapeCast_b_1b_apply, hP]

end Cert.KernelIdeal.KVal

end
-- ==== Proof.KValue.lean ====
/-
  The kernel program's result buffer, end to end: the head of the mean pool of the three layers, as kernelOut of the
  arguments.
-/
import proofs.«401719_j47906065219800_3_alg».proof.Proof.KLayer2
import proofs.«401719_j47906065219800_3_alg».proof.Proof.KPool
import proofs.«401719_j47906065219800_3_alg».proof.Proof.KHead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Scatter Cert.Spec

variable (m : (ℓ : Loc nD τ sig) → Buf (Elt Ideal) ℓ) (ρ : Dev nD → PrngReg)

abbrev aB2 (c : Dev nD) : Fin 128 → EReal := vec (m ((c : Thread nD τ).loc main_arg8))

/-- THE KERNEL'S RESULT at (g, o) is kernelOut of the arguments. -/
theorem kernel_value (c : Dev nD) (g o : Fin 256) :
    W18 m ρ c (Proc.devRef .tc main_v70) (ix2 g o)
      = kernelOut (HostT.iS (argE m c)) (HostT.iD (argE m c)) (disF m c) (HostT.btCol (argB m c))
          (aX m c) (aW0 m c) (aB0 m c) (aW1 m c) (aB1 m c) (aW2 m c) (aB2 m c) (aWm1 m c) (aBm1 m c) (aWm2 m c) (aBm2 m c) g o := by
  unfold kernelOut
  exact out_value m ρ c _ (fun g j => pool_value m ρ c _ (fun v j => s2_value m ρ c v j) g j) g o

end Cert.KernelIdeal.KVal

end
-- ==== Proof.RefIdx.lean ====
/-
  The reference's index columns, degree factor, batch column and counts are the shared host terms of the edge list and the batch vector.
-/
import proofs.«401719_j47906065219800_3_alg».proof.Defs
import proofs.«401719_j47906065219800_3_alg».proof.Proof.RefRun
import proofs.«401719_j47906065219800_3_alg».proof.Proof.RefRead
import proofs.«401719_j47906065219800_3_alg».proof.Proof.Views
import proofs.«401719_j47906065219800_3_alg».proof.Proof.HostTerms
import proofs.«401719_j47906065219800_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Scatter Cert.Spec

variable (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x512, .f32⟩ : BufTy).Contents (Elt Ideal)) (x10 : (⟨S512, .f32⟩ : BufTy).Contents (Elt Ideal)) (x11 : (⟨S512x256, .f32⟩ : BufTy).Contents (Elt Ideal)) (x12 : (⟨S256, .f32⟩ : BufTy).Contents (Elt Ideal))

/-! ## The index columns, the degree factor and the counts are the shared host terms

Each stage applies to the edge list (or the batch vector) the same library operations, in the same order, as the shared
term: a slice, a reshape and a concatenation with the node numbers; the move of negative words up by the number of nodes; a
broadcast to a column; for the degree factor a scatter of ones onto zeros, a comparison with zero, a reciprocal square root
of the larger of the degree and one, and a select. The two sides differ only in how a shape is spelt and in which proof of a
side condition they carry, so each equality holds by unfolding the definitions. -/

theorem src_v22 : val_main_v22 (F := Ideal) x1 = HostT.iS x1 := rfl
theorem src_v39 : val_main_v39 (F := Ideal) x1 = HostT.iS x1 := rfl
theorem src_v57 : val_main_v57 (F := Ideal) x1 = HostT.iS x1 := rfl
theorem src_v75 : val_main_v75 (F := Ideal) x1 = HostT.iS x1 := rfl
theorem dstn_v29 : val_main_v29 (F := Ideal) x1 = HostT.iDn x1 := rfl
theorem dst_v9 : val_main_v9 (F := Ideal) x1 = HostT.iD x1 := rfl
theorem dst_v44 : val_main_v44 (F := Ideal) x1 = HostT.iD x1 := rfl
theorem dst_v62 : val_main_v62 (F := Ideal) x1 = HostT.iD x1 := rfl
theorem dst_v80 : val_main_v80 (F := Ideal) x1 = HostT.iD x1 := rfl
theorem dis_v16 : val_main_v16 (F := Ideal) x1 = HostT.disV x1 := rfl
theorem bt_v87 : val_main_v87 (F := Ideal) x2 = HostT.btCol x2 := rfl
theorem bt_v90 : val_main_v90 (F := Ideal) x2 = HostT.btCol x2 := rfl
theorem cnt_v88 : val_main_v88 (F := Ideal) x2 = HostT.cntV x2 := rfl

/-- The degree factor as a function of the node. -/
abbrev disF : Fin 50000 → EReal := vec (HostT.disV x1)

end Cert.ReferenceIdeal.RefValue

end
-- ==== Proof.RefConv.lean ====
/-
  The reference's three convolution layers, each as rConv of the clipped layer before, read at an index.
-/
import proofs.«401719_j47906065219800_3_alg».proof.Proof.RefIdx
import proofs.«401719_j47906065219800_3_alg».proof.Defs
import proofs.«401719_j47906065219800_3_alg».proof.Proof.RefRun
import proofs.«401719_j47906065219800_3_alg».proof.Proof.RefRead
import proofs.«401719_j47906065219800_3_alg».proof.Proof.Views
import proofs.«401719_j47906065219800_3_alg».proof.Proof.HostTerms
import proofs.«401719_j47906065219800_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Scatter Cert.Spec

variable (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x512, .f32⟩ : BufTy).Contents (Elt Ideal)) (x10 : (⟨S512, .f32⟩ : BufTy).Contents (Elt Ideal)) (x11 : (⟨S512x256, .f32⟩ : BufTy).Contents (Elt Ideal)) (x12 : (⟨S256, .f32⟩ : BufTy).Contents (Elt Ideal))

/-! ## The program's records are the row and scalar scatters and gathers -/

private theorem scatterRows_eq :
    scatter_S50000x128_S850000x1_S850000x128_1_0_0_1
      = rowScatter 50000 850000 128 Gen.scatter_S50000x128_S850000x1_S850000x128_1_0_0_1_wf := rfl

private theorem gatherRows_eq :
    gather_S50000x128_S850000x1_S850000x128_1_0_n_n_0_1_1128
      = rowGather 50000 850000 128 Gen.gather_S50000x128_S850000x1_S850000x128_1_0_n_n_0_1_1128_wf := rfl

private theorem gatherVec_eq :
    gather_S50000_S850000x1_S850000_n_0_n_n_0_1_1
      = vecGather 50000 850000 Gen.gather_S50000_S850000x1_S850000_n_0_n_n_0_1_1_wf := rfl

/-! ## The pieces of a layer, read at an index -/

/-- The norm of edge e: the degree factor at the node its source column reads times the degree factor at the node its
    destination column reads. -/
private theorem norm_apply (e : Fin 850000) :
    val_main_v31 (F := Ideal) x1 (ix1 e)
      = disF x1 (srcRow (HostT.iS x1) e) * disF x1 (gRow 50000 pos50000 (HostT.iDn x1) e) := by
  rw [val_main_v31_apply, Ideal.mulf_def]
  unfold val_main_v23 val_main_v30
  rw [gatherVec_eq, src_v22, dstn_v29, dis_v16, gather_vec_apply pos50000, gather_vec_apply pos50000]

/-- A bias vector broadcast over the rows reads, at (v, j), the vector at j. -/
private theorem bias_apply (b : FVec Ideal S128 .f32) (v : Fin 50000) (j : Fin 128) :
    broadcastInDim S50000x128 ![0, 1] bcast_S1x128_S50000x128_0_1 (broadcastInDim S1x128 ![1] bcast_S128_S1x128_1 b) (ix2 v j)
      = b (ix1 j) := by
  have h1 : broadcastInDim S50000x128 ![0, 1] bcast_S1x128_S50000x128_0_1 (broadcastInDim S1x128 ![1] bcast_S128_S1x128_1 b) (ix2 v j)
      = broadcastInDim S1x128 ![1] bcast_S128_S1x128_1 b (ix2 (0 : Fin 1) j) :=
    broadcastInDim_apply _ bcast_S1x128_S50000x128_0_1 _ (ix2 v j) (ix2 (0 : Fin 1) j) (fun a => match a with
      | ⟨0, _⟩ => by show 0 = if (1 : Nat) = 1 then 0 else v.val; rw [if_pos rfl]
      | ⟨1, _⟩ => by show j.val = if (128 : Nat) = 1 then 0 else j.val; rw [if_neg (by decide)])
  have h2 : broadcastInDim S1x128 ![1] bcast_S128_S1x128_1 b (ix2 (0 : Fin 1) j) = b (ix1 j) :=
    broadcastInDim_apply _ bcast_S128_S1x128_1 b (ix2 (0 : Fin 1) j) (ix1 j) (fun a => match a with
      | ⟨0, _⟩ => by show j.val = if (128 : Nat) = 1 then 0 else j.val; rw [if_neg (by decide)])
  exact h1.trans h2

/-- One layer's scatter read at (v, j), over any norm vector, any projected array and any two index columns: the zero
    operand contributes nothing, and update row e is the norm at e times row (gather row of e) of the projected array. -/
private theorem scat_apply (nrm : FVec Ideal S850000 .f32) (P : FVec Ideal S50000x128 .f32) (iSc iDc : IVec S850000x1 32)
    (v : Fin 50000) (j : Fin 128) :
    Host.scatterAdd (F := Ideal) scatter_S50000x128_S850000x1_S850000x128_1_0_0_1
        (broadcastInDim S50000x128 ![] bcast_S_S50000x128 (constant (F := Ideal) S_ .f32 0x00000000#32)) iDc
        (mulf (F := Ideal) (broadcastInDim S850000x128 ![0, 1] bcast_S850000x1_S850000x128_0_1
                (broadcastInDim S850000x1 ![0] bcast_S850000_S850000x1_0 nrm))
              (Host.gather gather_S50000x128_S850000x1_S850000x128_1_0_n_n_0_1_1128 P iSc)) (ix2 v j)
      = ∑ e ∈ Finset.univ.filter (fun e : Fin 850000 => lands iDc e v.val),
          nrm (ix1 e) * P (ix2 (gRow 50000 pos50000 iSc e) j) := by
  rw [scatterRows_eq, gatherRows_eq]
  refine (scatterAdd_rows_apply _ _ _ _ v j).trans ?_
  rw [broadcastInDim_scalar_apply, constant_apply, Ideal.ofBits_zero_f32, zero_add]
  refine Finset.sum_congr rfl fun e _ => ?_
  rw [mulf_apply, gather_rows_apply pos50000]
  refine congrArg (fun t : EReal => t * P (ix2 (gRow 50000 pos50000 iSc e) j)) ?_
  have h1 : broadcastInDim S850000x128 ![0, 1] bcast_S850000x1_S850000x128_0_1
        (broadcastInDim S850000x1 ![0] bcast_S850000_S850000x1_0 nrm) (ix2 e j)
      = broadcastInDim S850000x1 ![0] bcast_S850000_S850000x1_0 nrm (ix2 e (0 : Fin 1)) :=
    broadcastInDim_apply _ bcast_S850000x1_S850000x128_0_1 _ (ix2 e j) (ix2 e (0 : Fin 1)) (fun a => match a with
      | ⟨0, _⟩ => by show e.val = if (850000 : Nat) = 1 then 0 else e.val; rw [if_neg (by decide)]
      | ⟨1, _⟩ => by show 0 = if (1 : Nat) = 1 then 0 else j.val; rw [if_pos rfl])
  have h2 : broadcastInDim S850000x1 ![0] bcast_S850000_S850000x1_0 nrm (ix2 e (0 : Fin 1)) = nrm (ix1 e) :=
    broadcastInDim_apply _ bcast_S850000_S850000x1_0 nrm (ix2 e (0 : Fin 1)) (ix1 e) (fun a => match a with
      | ⟨0, _⟩ => by show e.val = if (850000 : Nat) = 1 then 0 else e.val; rw [if_neg (by decide)])
  exact h1.trans h2

/-- The first projection read at (u, j): the matrix product of the features with the weights. -/
private theorem dot64_apply (X : FVec Ideal S50000x64 .f32) (W : FVec Ideal S64x128 .f32) (u : Fin 50000) (j : Fin 128) :
    Host.dotGeneral dot_S50000x64_S64x128_S50000x128_1_0_0_1_n_n none X W (ix2 u j) = mm (mat X) (mat W) u j :=
  Cert.Matmul.dotGeneral_plain_apply none .single X W u j

/-- A later projection read at (u, j): the matrix product of the clipped layer before with the weights. -/
private theorem dot128_relu_apply (A : FVec Ideal S50000x128 .f32) (W : FVec Ideal S128x128 .f32) (u : Fin 50000) (j : Fin 128) :
    Host.dotGeneral dot_S50000x128_S128x128_S50000x128_1_0_0_1_n_n none
        (maximumf (F := Ideal) A (broadcastInDim S50000x128 ![] bcast_S_S50000x128 (constant (F := Ideal) S_ .f32 0x00000000#32))) W (ix2 u j)
      = mm (relu (mat A)) (mat W) u j := by
  refine (Cert.Matmul.dotGeneral_plain_apply none .single _ W u j).trans ?_
  show _ = ∑ q : Fin 128, relu (mat A) u q * mat W q j
  refine Finset.sum_congr rfl fun k _ => ?_
  rw [maximumf_apply, broadcastInDim_scalar_apply, constant_apply, Ideal.ofBits_zero_f32]
  rfl

/-! ## The three convolution layers -/

/-- Layer 0 (before clipping). -/
theorem conv1 (v : Fin 50000) (j : Fin 128) :
    val_main_v48 (F := Ideal) x0 x1 x3 x4 (ix2 v j)
      = rConv (HostT.iS x1) (HostT.iD x1) (HostT.iDn x1) (disF x1) (mat x0) (mat x3) (vec x4) v j := by
  rw [val_main_v48_apply, Ideal.addf_def]
  unfold val_main_v45 val_main_v43 val_main_cst_9 val_main_v42 val_main_v41 val_main_v33 val_main_v40 val_main_v47 val_main_v46
  rw [dst_v44, src_v39, scat_apply, bias_apply]
  unfold rConv
  refine congrArg (fun t : EReal => t + x4 (ix1 j)) (Finset.sum_congr rfl fun e _ => ?_)
  unfold val_main_v32
  rw [norm_apply, dot64_apply]

/-- Layer 1 (before clipping), over layer 0's stage as an array. -/
theorem conv2 (v : Fin 50000) (j : Fin 128) :
    val_main_v66 (F := Ideal) x0 x1 x3 x4 x5 x6 (ix2 v j)
      = rConv (HostT.iS x1) (HostT.iD x1) (HostT.iDn x1) (disF x1) (relu (mat (val_main_v48 (F := Ideal) x0 x1 x3 x4))) (mat x5) (vec x6) v j := by
  rw [val_main_v66_apply, Ideal.addf_def]
  unfold val_main_v63 val_main_v61 val_main_cst_12 val_main_v60 val_main_v59 val_main_v51 val_main_v58 val_main_v65 val_main_v64
  rw [dst_v62, src_v57, scat_apply, bias_apply]
  unfold rConv
  refine congrArg (fun t : EReal => t + x6 (ix1 j)) (Finset.sum_congr rfl fun e _ => ?_)
  unfold val_main_v50 val_main_v49 val_main_call1_v0 val_main_call1_cst
  generalize val_main_v48 (F := Ideal) x0 x1 x3 x4 = A
  rw [norm_apply, dot128_relu_apply]

/-- Layer 2 (never clipped), over layer 1's stage as an array. -/
theorem conv3 (v : Fin 50000) (j : Fin 128) :
    val_main_v84 (F := Ideal) x0 x1 x3 x4 x5 x6 x7 x8 (ix2 v j)
      = rConv (HostT.iS x1) (HostT.iD x1) (HostT.iDn x1) (disF x1) (relu (mat (val_main_v66 (F := Ideal) x0 x1 x3 x4 x5 x6))) (mat x7) (vec x8) v j := by
  rw [val_main_v84_apply, Ideal.addf_def]
  unfold val_main_v81 val_main_v79 val_main_cst_15 val_main_v78 val_main_v77 val_main_v69 val_main_v76 val_main_v83 val_main_v82
  rw [dst_v80, src_v75, scat_apply, bias_apply]
  unfold rConv
  refine congrArg (fun t : EReal => t + x8 (ix1 j)) (Finset.sum_congr rfl fun e _ => ?_)
  unfold val_main_v68 val_main_v67 val_main_call2_v0 val_main_call2_cst
  generalize val_main_v66 (F := Ideal) x0 x1 x3 x4 x5 x6 = A
  rw [norm_apply, dot128_relu_apply]

end Cert.ReferenceIdeal.RefValue

end
-- ==== Proof.RefTail.lean ====
/-
  The reference's mean pool and two-layer head over the last convolution layer's stage, read at an index.
-/
import proofs.«401719_j47906065219800_3_alg».proof.Proof.RefIdx
import proofs.«401719_j47906065219800_3_alg».proof.Defs
import proofs.«401719_j47906065219800_3_alg».proof.Proof.RefRun
import proofs.«401719_j47906065219800_3_alg».proof.Proof.RefRead
import proofs.«401719_j47906065219800_3_alg».proof.Proof.Views
import proofs.«401719_j47906065219800_3_alg».proof.Proof.HostTerms
import proofs.«401719_j47906065219800_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Scatter Cert.Spec

variable (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x512, .f32⟩ : BufTy).Contents (Elt Ideal)) (x10 : (⟨S512, .f32⟩ : BufTy).Contents (Elt Ideal)) (x11 : (⟨S512x256, .f32⟩ : BufTy).Contents (Elt Ideal)) (x12 : (⟨S256, .f32⟩ : BufTy).Contents (Elt Ideal))

/-! ## The mean pool and the head -/

/-- The record of the pooled sums' scatter is the row scatter along axis 0. -/
theorem sd_pool : scatter_S256x128_S50000x1_S50000x128_1_0_0_1
    = rowScatter 256 50000 128 scatter_S256x128_S50000x1_S50000x128_1_0_0_1_wf := rfl

/-- The clipped count of graph g, as every column of its broadcast reads it. -/
theorem clip_apply (g : Fin 256) (j : Fin 128) :
    val_main_v95 (F := Ideal) x2 (ix2 g j) = max (cnt (HostT.btCol x2) g) 1 := by
  have hi : idx_main_v94 (idx_main_v95 (ix2 g j)) = ix1 g := by
    funext a; match a with | ⟨0, _⟩ => rfl
  rw [val_main_v95_apply, val_main_v94_apply, hi, val_main_v93_apply, Ideal.maximumf_def, cnt_v88, HostT.cntV_apply,
    val_main_v92_apply, val_main_cst_19_apply, Ideal.ofBits_def, Ideal.ofBits_one_f32]
  rfl

/-- The mean pool: a graph's sum of the last layer's rows divided by its clipped count. -/
theorem pool_apply (g : Fin 256) (j : Fin 128) :
    val_main_v96 (F := Ideal) x0 x1 x2 x3 x4 x5 x6 x7 x8 (ix2 g j)
      = rPool (HostT.btCol x2) (mat (val_main_v84 (F := Ideal) x0 x1 x3 x4 x5 x6 x7 x8)) g j := by
  rw [val_main_v96_apply, Ideal.hostDivf_def, clip_apply]
  unfold val_main_v91
  rw [bt_v90]
  generalize val_main_v84 (F := Ideal) x0 x1 x3 x4 x5 x6 x7 x8 = A
  rw [sd_pool]
  refine (congrArg (fun t : EReal => Ideal.div t (max (cnt (HostT.btCol x2) g) 1))
    (scatterAdd_rows_apply _ _ _ _ g j)).trans ?_
  rw [val_main_v89_apply, val_main_cst_18_apply, Ideal.ofBits_def, Ideal.ofBits_zero_f32, zero_add]
  rfl

theorem tail (g : Fin 256) (o : Fin 256) :
    val_main_v105 (F := Ideal) x0 x1 x2 x3 x4 x5 x6 x7 x8 x9 x10 x11 x12 (ix2 g o)
      = head (rPool (HostT.btCol x2) (mat (val_main_v84 (F := Ideal) x0 x1 x3 x4 x5 x6 x7 x8))) (mat x9) (vec x10) (mat x11) (vec x12) g o := by
  have hP : ∀ q : Fin 128, val_main_v96 (F := Ideal) x0 x1 x2 x3 x4 x5 x6 x7 x8 (ix2 g q)
      = rPool (HostT.btCol x2) (mat (val_main_v84 (F := Ideal) x0 x1 x3 x4 x5 x6 x7 x8)) g q :=
    fun q => pool_apply x0 x1 x2 x3 x4 x5 x6 x7 x8 g q
  generalize rPool (HostT.btCol x2) (mat (val_main_v84 (F := Ideal) x0 x1 x3 x4 x5 x6 x7 x8)) = G at hP ⊢
  have hb2 : idx_main_v103 (idx_main_v104 (ix2 g o)) = ix1 o := by
    funext a; match a with | ⟨0, _⟩ => rfl
  rw [val_main_v105_apply, Ideal.addf_def, val_main_v104_apply, val_main_v103_apply, hb2, val_main_v102_apply]
  unfold head
  refine congrArg (fun t : EReal => t + x12 (ix1 o)) ?_
  refine Finset.sum_congr rfl fun p _ => ?_
  have hl : lidx_main_v102 (ix2 g o) p = ix2 g p := by
    funext a; match a with | ⟨0, _⟩ => rfl | ⟨1, _⟩ => rfl
  have hr : ridx_main_v102 (ix2 g o) p = ix2 p o := by
    funext a; match a with | ⟨0, _⟩ => rfl | ⟨1, _⟩ => rfl
  have hb1 : idx_main_v98 (idx_main_v99 (ix2 g p)) = ix1 p := by
    funext a; match a with | ⟨0, _⟩ => rfl
  rw [hl, hr, val_main_v101_apply, Ideal.maximumf_def, val_main_call3_v0_apply, val_main_call3_cst_apply, Ideal.ofBits_def,
    Ideal.ofBits_zero_f32, val_main_v100_apply, Ideal.addf_def, val_main_v99_apply, val_main_v98_apply, hb1, val_main_v97_apply]
  refine congrArg (fun t : EReal => max (t + x10 (ix1 p)) 0 * x11 (ix2 p o)) ?_
  refine Finset.sum_congr rfl fun q _ => ?_
  have hl' : lidx_main_v97 (ix2 g p) q = ix2 g q := by
    funext a; match a with | ⟨0, _⟩ => rfl | ⟨1, _⟩ => rfl
  have hr' : ridx_main_v97 (ix2 g p) q = ix2 q p := by
    funext a; match a with | ⟨0, _⟩ => rfl | ⟨1, _⟩ => rfl
  rw [hl', hr', hP]

end Cert.ReferenceIdeal.RefValue

end
-- ==== Proof.RefValue.lean ====
/-
  The reference's result as refOut of the arguments: the three layers and the tail composed.
-/
import proofs.«401719_j47906065219800_3_alg».proof.Proof.RefConv
import proofs.«401719_j47906065219800_3_alg».proof.Proof.RefTail
import proofs.«401719_j47906065219800_3_alg».proof.Defs
import proofs.«401719_j47906065219800_3_alg».proof.Proof.RefRun
import proofs.«401719_j47906065219800_3_alg».proof.Proof.RefRead
import proofs.«401719_j47906065219800_3_alg».proof.Proof.Views
import proofs.«401719_j47906065219800_3_alg».proof.Proof.HostTerms
import proofs.«401719_j47906065219800_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Scatter Cert.Spec

variable (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x512, .f32⟩ : BufTy).Contents (Elt Ideal)) (x10 : (⟨S512, .f32⟩ : BufTy).Contents (Elt Ideal)) (x11 : (⟨S512x256, .f32⟩ : BufTy).Contents (Elt Ideal)) (x12 : (⟨S256, .f32⟩ : BufTy).Contents (Elt Ideal))

/-! ## End to end -/

/-- THE REFERENCE'S RESULT at (g, o) is refOut of the arguments. -/
theorem value (g : Fin 256) (o : Fin 256) :
    val_main_v105 (F := Ideal) x0 x1 x2 x3 x4 x5 x6 x7 x8 x9 x10 x11 x12 (ix2 g o)
      = refOut (HostT.iS x1) (HostT.iD x1) (HostT.iDn x1) (disF x1) (HostT.btCol x2)
          (mat x0) (mat x3) (vec x4) (mat x5) (vec x6) (mat x7) (vec x8) (mat x9) (vec x10) (mat x11) (vec x12) g o := by
  rw [tail]
  unfold refOut
  have e3 : mat (val_main_v84 (F := Ideal) x0 x1 x3 x4 x5 x6 x7 x8)
      = rConv (HostT.iS x1) (HostT.iD x1) (HostT.iDn x1) (disF x1) (relu (mat (val_main_v66 (F := Ideal) x0 x1 x3 x4 x5 x6))) (mat x7) (vec x8) :=
    funext fun v => funext fun j => conv3 x0 x1 x3 x4 x5 x6 x7 x8 v j
  have e2 : mat (val_main_v66 (F := Ideal) x0 x1 x3 x4 x5 x6)
      = rConv (HostT.iS x1) (HostT.iD x1) (HostT.iDn x1) (disF x1) (relu (mat (val_main_v48 (F := Ideal) x0 x1 x3 x4))) (mat x5) (vec x6) :=
    funext fun v => funext fun j => conv2 x0 x1 x3 x4 x5 x6 v j
  have e1 : mat (val_main_v48 (F := Ideal) x0 x1 x3 x4)
      = rConv (HostT.iS x1) (HostT.iD x1) (HostT.iDn x1) (disF x1) (mat x0) (mat x3) (vec x4) :=
    funext fun v => funext fun j => conv1 x0 x1 x3 x4 v j
  rw [e3, e2, e1]

end Cert.ReferenceIdeal.RefValue

end
-- ==== Proof.lean ====
/-
  A three-layer graph convolution with a mean pool and a two-layer head, as five TensorCore kernels around host gathers and
  scatter-adds, against the plain reference.

  Both programs compute, from the edge list, the same degree factor dis = deg^(-1/2) (deg counts the edges, self-loops
  included, whose destination word is the node). A layer of the reference sums, over the edges landing on node v,
  (dis (src e) * dis (dst e)) times the source's projected row; the kernel scales each projected row by dis of its own node
  inside the projection kernel, lets the host sum the gathered rows by destination, and scales the sum by dis v in the next
  kernel's epilogue. The two agree on the extended reals because an edge landing on v has dst e = v, and dis v is a
  non-negative real, which distributes over any sum of extended reals. Destination and batch words outside their ranges are
  dropped by both programs' scatter-adds, and the kernel's one-hot test never matches them either. The mean pool divides by the
  clipped count in the reference and multiplies by its reciprocal in the kernel: the clipped count is a real at least one.
  The head is the same formula on both sides. No precondition is used: the equality holds at every extended real input.
-/
import proofs.«401719_j47906065219800_3_alg».proof.Defs
import proofs.«401719_j47906065219800_3_alg».proof.Proof.Gen.Kernel
import proofs.«401719_j47906065219800_3_alg».proof.Proof.Gen.Kernel.Skeleton
import proofs.«401719_j47906065219800_3_alg».proof.Proof.Gen.Kernel.Launch
import proofs.«401719_j47906065219800_3_alg».proof.Proof.Gen.Kernel.Points
import proofs.«401719_j47906065219800_3_alg».proof.Proof.Gen.Kernel.Frame
import proofs.«401719_j47906065219800_3_alg».proof.Proof.Gen.KernelIdeal
import proofs.«401719_j47906065219800_3_alg».proof.Proof.Gen.KernelIdeal.Skeleton
import proofs.«401719_j47906065219800_3_alg».proof.Proof.Gen.KernelIdeal.Launch
import proofs.«401719_j47906065219800_3_alg».proof.Proof.Gen.KernelIdeal.Points
import proofs.«401719_j47906065219800_3_alg».proof.Proof.Gen.KernelIdeal.Frame
import proofs.«401719_j47906065219800_3_alg».proof.Proof.Gen.ReferenceIdeal
import proofs.«401719_j47906065219800_3_alg».proof.Proof.Gen.Pre_finite_inputs
import proofs.«401719_j47906065219800_3_alg».proof.Proof.KernelRun
import proofs.«401719_j47906065219800_3_alg».proof.Proof.KValue
import proofs.«401719_j47906065219800_3_alg».proof.Proof.RefValue
import Idealize.ShloMosaic.Adequacy
import Idealize.ShloMosaic.Init

noncomputable section

namespace Cert.Proof

open Idealize.ShloMosaic Idealize.ShloMosaic.ValueIdx Idealize.SL.Sem Cert.Spec

/-- The reference's frame is its run with the result dropped. -/
theorem frame_ref : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- From memories agreeing on the arguments both idealized programs end with the same result array: each is its layer
    function of the arguments (the kernel's read off its frame run region by region, the reference's off its run), and the
    two layer functions are one. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W18 m ρ c (Proc.devRef .tc Cert.KernelIdeal.main_v70),
    Cert.KernelIdeal.RunV.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  funext i
  obtain ⟨g, o, rfl⟩ : ∃ (g o : Fin 256), i = ix2 g o := ⟨i 0, i 1, eq_ix2 i⟩
  rw [Cert.ReferenceIdeal.Read.val_main_v105_eq, Cert.ReferenceIdeal.RefValue.value, a0, a1, a2, a3, a4, a5, a6, a7, a8, a9, a10, a11, a12,
    refOut_eq_kernelOut _ _ _ _ _ (Cert.HostT.iDn_of_lands _) (fun v => Cert.HostT.disV_real _ v)]
  exact (Cert.KernelIdeal.KVal.kernel_value m ρ c g o).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
